-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x64 : Shape := ⟨2, ![1024, 64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x4096x1024 .f32) (main_arg1 : FVec F S1024x64 .f32) (main_arg2 : FVec F S1024x64 .f32) (main_arg3 : FVec F S1024x64 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x4096x1024 : Shape := ⟨3, ![8, 4096, 1024]⟩
abbrev S1024x64 : Shape := ⟨2, ![1024, 64]⟩
abbrev S10 : Shape := ⟨1, ![10]⟩
abbrev S1024x192 : Shape := ⟨2, ![1024, 192]⟩
abbrev S8x4096x64 : Shape := ⟨3, ![8, 4096, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1 : Shape := ⟨1, ![1]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 9
  | .vmem => 20
  | .smem => 2
  | _ => 0

abbrev bufTy : (tb : Table) → Fin (tcTables nBuf tb) → BufTy
  | .hbm, ⟨0, _⟩ => ⟨S8x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S8x4096x64, .bf16⟩
  | .hbm, ⟨6, _⟩ => ⟨S8x4096x64, .bf16⟩
  | .hbm, ⟨7, _⟩ => ⟨S8x4096x64, .bf16⟩
  | .hbm, ⟨8, _⟩ => ⟨S8x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x192, .f32⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .f32⟩
  | .local _ .vmem, ⟨16, _⟩ => ⟨S1x1024x64, .f32⟩
  | .local _ .vmem, ⟨17, _⟩ => ⟨S1x1024x1, .f32⟩
  | .local _ .vmem, ⟨18, _⟩ => ⟨S1x1024x1, .f32⟩
  | .local _ .vmem, ⟨19, _⟩ => ⟨S1x1024x64, .f32⟩
  | .local _ .smem, ⟨0, _⟩ => ⟨S10, .i32⟩
  | .local _ .smem, ⟨1, _⟩ => ⟨S10, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond3 (v1 : BitVec 32) (v3 : BitVec 32) : BitVec 1 :=
  let v19 : BitVec 1 := Scalar.cmpi .eq v3 v1
  let v20 : BitVec 32 := Scalar.extui v19
  let c0_i32_11 : BitVec 32 := 0#32
  let v21 : BitVec 1 := Scalar.cmpi .ne v20 c0_i32_11
  v21

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x64_S1024x64_S1024x64_S1024x192_d1 : Shape.Concatenates [S1024x64, S1024x64, S1024x64] S1024x192 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S1024x192_o0_0_S1024x64 : S1024x192.Slices ![0, 0] S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  slices_S1024x192_o0_64_S1024x64 : S1024x192.Slices ![0, 64] S1024x64
  slices_S1024x192_o0_128_S1024x64 : S1024x192.Slices ![0, 128] S1024x64
  numel1_S1 : S1.numel = 1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  shapeCasts_S1x1024x64_S1x1024x64 : S1x1024x64.ShapeCasts S1x1024x64
  shapeCasts_S1x1024x1_S1024x1 : S1x1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1_S1x1024x1 : S1024x1.ShapeCasts S1x1024x1
  broadcasts_S1024x1_S1024x64 : S1024x1.Broadcasts S1024x64
  iota_S1024x1024_d0_w32 : S1024x1024.Iotas .tc 32 [0]
  iota_S1024x1024_d1_w32 : S1024x1024.Iotas .tc 32 [1]
  dot_S1024x1024_S1024x192_S1024x192_1_0_0_1_n_n_wf : DotDims.WF S1024x1024 S1024x192 S1024x192 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x4096x64.size a
  hwx0_2 : ∀ i : grid0.Coords, EltTy.bits .bf16 = 32 ∨ (Rect.block (s := S8x4096x64) S1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x4096x64.size a
  hwx0_3 : ∀ i : grid0.Coords, EltTy.bits .bf16 = 32 ∨ (Rect.block (s := S8x4096x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S8x4096x64.size a
  hwx0_4 : ∀ i : grid0.Coords, EltTy.bits .bf16 = 32 ∨ (Rect.block (s := S8x4096x64) S1x1024x64.size (cc0_transform_4 i) (hinb0_4 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v1_0) S1x1024x64.size reads1_0 false false 2 stage1_0 sem1_0 nbuf1_0 hstage1_0

abbrev spec1_1 : Pipeline.WinSpec sig grid1.rank :=
  Pipeline.WinSpec.ofSpec (Memref.whole main_v1_1) S1x1024x64.size reads1_1 false false 2 stage1_1 sem1_1 nbuf1_1 hstage1_1

abbrev spec1_2 : Pipeline.WinSpec sig grid1.rank :=
  Pipeline.WinSpec.ofSpec (Memref.whole main_v1_2) S1x1024x64.size reads1_2 false false 2 stage1_2 sem1_2 nbuf1_2 hstage1_2

abbrev spec1_3 : Pipeline.WinSpec sig grid1.rank :=
  Pipeline.WinSpec.ofSpec (Memref.whole main_v2) S1x1024x64.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x64.size a ≤ S8x4096x64.size a), EltTy.bits .bf16 = 32 ∨ (Rect.block (s := S8x4096x64) S1x1024x64.size (cc1_transform_0 k1_off1_inb numel1_S1 pf i) h).WholeWords (EltTy.packing .bf16)) ∧
  (∀ i : grid1.Coords, ∃ h : (∀ a, (cc1_transform_1 k1_off1_inb numel1_S1 pf i a + 1) * S1x1024x64.size a ≤ S8x4096x64.size a), EltTy.bits .bf16 = 32 ∨ (Rect.block (s := S8x4096x64) S1x1024x64.size (cc1_transform_1 k1_off1_inb numel1_S1 pf i) h).WholeWords (EltTy.packing .bf16)) ∧
  (∀ i : grid1.Coords, ∃ h : (∀ a, (cc1_transform_2 k1_off1_inb numel1_S1 pf i a + 1) * S1x1024x64.size a ≤ S8x4096x64.size a), EltTy.bits .bf16 = 32 ∨ (Rect.block (s := S8x4096x64) S1x1024x64.size (cc1_transform_2 k1_off1_inb numel1_S1 pf i) h).WholeWords (EltTy.packing .bf16)) ∧
  (∀ i : grid1.Coords, ∃ h : (∀ a, (cc1_transform_3 k1_off1_inb numel1_S1 pf i a + 1) * S1x1024x64.size a ≤ S8x4096x64.size a), EltTy.bits .f32 = 32 ∨ (Rect.block (s := S8x4096x64) S1x1024x64.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond3 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S8x4096x1024 : Shape := ⟨3, ![8, 4096, 1024]⟩
abbrev S1024x64 : Shape := ⟨2, ![1024, 64]⟩
abbrev S8x4096x64 : Shape := ⟨3, ![8, 4096, 64]⟩
abbrev S8x4096x4096 : Shape := ⟨3, ![8, 4096, 4096]⟩
abbrev S_ : Shape := ⟨0, ![]⟩
abbrev S4096x4096 : Shape := ⟨2, ![4096, 4096]⟩
abbrev S8x4096 : Shape := ⟨2, ![8, 4096]⟩
abbrev S8x4096x1 : Shape := ⟨3, ![8, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x4096x64, .f32⟩
  | .hbm, ⟨5, _⟩ => ⟨S8x4096x64, .f32⟩
  | .hbm, ⟨6, _⟩ => ⟨S8x4096x64, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  bcast_S_S4096x4096 : S_.BroadcastsInDim S4096x4096 (![] : Fin 0 → Fin S4096x4096.rank)
  bcast_S4096x4096_S8x4096x4096_1_2 : S4096x4096.BroadcastsInDim S8x4096x4096 (![1, 2] : Fin 2 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x1024_S1024x64_S8x4096x64_2_0_01_1_n_n_wf : DotDims.WF S8x4096x1024 S1024x64 S8x4096x64 [2] [0] [0, 1] [1] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x1024_S1024x64_S8x4096x64_2_0_01_1_n_n : DotDims S8x4096x1024 S1024x64 S8x4096x64 where
  lhsContracting := [2]
  rhsContracting := [0]
  lhsNonContracting := [0, 1]
  rhsNonContracting := [1]
  lhsBatch := []
  rhsBatch := []
  wf := dot_S8x4096x1024_S1024x64_S8x4096x64_2_0_01_1_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.KRegion0.lean ====
/-
  The projection kernel's region (the first of the program's two grid regions, an 8 × 4 grid): its proof data and
  its body obligation, at any float instance.

  At every grid point the body reads the x block X : [1,1024,1024] and the whole weight block W : [1024,192],
  forms the one product P = bf16(X) · bf16(W) accumulated in f32 (k0_pay1), and leaves in the three output blocks
  [1,1024,64] the column slices P[:, 0:64], P[:, 64:128], P[:, 128:192], each rounded to bf16 (k0_pay2, k0_pay3,
  k0_pay4 of the two blocks read). The input blocks are left in place. The weight window has one block for the
  whole grid: it is the same block at every point, moved or not.
-/
import proofs.«410793_j34746285425245_3_alg».proof.Proof.Gen.Kernel.Launch
import proofs.«410793_j34746285425245_3_alg».proof.Proof.Gen.Kernel.Skeleton
import proofs.«410793_j34746285425245_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.BitExact
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the x block) holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights: one block, fetched at the first point only) holds its block at every point:
    where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the unit rectangle at zero offsets -/

private theorem hz3 : (![0, 0, 0] : Fin 3 → ℕ) = fun _ => 0 := by funext a; fin_cases a <;> rfl
private theorem hz2 : (![0, 0] : Fin 2 → ℕ) = fun _ => 0 := by funext a; fin_cases a <;> rfl

/-- The one store into an output buffer covers it. -/
private theorem cover_out (p : Vec F S1x1024x64 .bf16) (y : S1x1024x64.Idx) :
    ∃ pc ∈ ([⟨Rect.unit (s := S1x1024x64) ![0, 0, 0] S1x1024x64.size inb_S1x1024x64_S1x1024x64_0_0_0, p⟩] : List (View.Piece (Elt F) S1x1024x64 .bf16)), y ∈ pc.1.set :=
  ⟨_, List.mem_singleton_self _, View.mem_set_unit_zero hz3 inb_S1x1024x64_S1x1024x64_0_0_0 y⟩

/-- What an output buffer reads after the body's one store into it, over any prior contents: the store's payload,
    a function of what the two input buffers read. -/
private theorem read_out (arg2 : Memref sig .tc .vmem S1x1024x1024 .f32) (arg3 : Memref sig .tc .vmem S1024x192 .f32)
    (arg : Memref sig .tc .vmem S1x1024x64 .bf16) (f : arg.view.ty.Contents (Elt F))
    (f2 : arg2.view.ty.Contents (Elt F)) (f3 : arg3.view.ty.Contents (Elt F))
    (pay : Vec F S1x1024x1024 .f32 → Vec F S1024x192 .f32 → FVec F S1x1024x64 .bf16) :
    arg.view.read (Elt F) (arg.view.writes (Elt F) f
        [⟨Rect.unit (s := S1x1024x64) ![0, 0, 0] S1x1024x64.size inb_S1x1024x64_S1x1024x64_0_0_0,
          pay (arg2.view.readAt (Elt F) (Rect.unit (s := S1x1024x1024) ![0, 0, 0] S1x1024x1024.size inb_S1x1024x1024_S1x1024x1024_0_0_0).toLoadRect f2)
              (arg3.view.readAt (Elt F) (Rect.unit (s := S1024x192) ![0, 0] S1024x192.size inb_S1024x192_S1024x192_0_0).toLoadRect f3)⟩])
      = pay (arg2.view.read (Elt F) f2) (arg3.view.read (Elt F) f3) := by
  have e2 : arg2.view.readAt (Elt F) (Rect.unit (s := S1x1024x1024) ![0, 0, 0] S1x1024x1024.size inb_S1x1024x1024_S1x1024x1024_0_0_0).toLoadRect f2
      = arg2.view.read (Elt F) f2 :=
    (View.readAt_eq_ld _ _ _).trans (View.ld_unit_zero hz3 inb_S1x1024x1024_S1x1024x1024_0_0_0 _)
  have e3 : arg3.view.readAt (Elt F) (Rect.unit (s := S1024x192) ![0, 0] S1024x192.size inb_S1024x192_S1024x192_0_0).toLoadRect f3
      = arg3.view.read (Elt F) f3 :=
    (View.readAt_eq_ld _ _ _).trans (View.ld_unit_zero hz2 inb_S1024x192_S1024x192_0_0 _)
  rw [View.read_writes_eq_canon _ _ _ (cover_out _), View.canon_unit_zero hz3, e2, e3]

/-! ## The body's triple -/

set_option maxHeartbeats 1000000 in
/-- The kernel body on whole staging memrefs, the inputs' at read contents x0, x1 and the outputs' at anything, runs
    to the continuation holding the inputs' as they were and the three outputs' at the skeleton's payloads 2, 3, 4 of
    the inputs': the three bf16 column slices of the one product. -/
theorem sound_kernel0 (c : Dev nD) (E : Set ℕ) (i : grid0.Coords)
    (arg2 : Memref sig .tc .vmem S1x1024x1024 .f32) (harg2 : arg2.IsWhole) (arg3 : Memref sig .tc .vmem S1024x192 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay3 x0 x1)
            ∗ owns (c : Thread nD τ) arg6 fullShare (k0_pay4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f2, %hf2, H2⟩, ⟨%f3, %hf3, H3⟩, ⟨%d4, %f4, -, H4⟩, ⟨%d5, %f5, -, H5⟩, ⟨%d6, %f6, -, H6⟩, Hk⟩
  subst hf2
  subst hf3
  sl_exec
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_out arg2 arg3 arg4 f4 f2 f3 k0_pay2
  isplitl [H5]
  · iexists _; isplitr
    swap; · iexact H5
    ipureintro
    exact read_out arg2 arg3 arg5 f5 f2 f3 k0_pay3
  iexists _; isplitr
  swap; · iexact H6
  ipureintro
  exact read_out arg2 arg3 arg6 f6 f2 f3 k0_pay4

/-! ## The pipeline's proof data -/

/-- The proof data of the region on core c: the arrays as the region finds them; after the body at point t each
    input's buffer at its block and each output's at the skeleton's payload (2, 3, 4) of the two input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t)
    | ⟨3, _⟩ => k0_pay3 (iblk0 V c 0 t) (iblk0 V c 1 t)
    | ⟨4, _⟩ => k0_pay4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (iblk0 V c 0 t) (iblk0 V c 1 t) := by dsimp only [dat0]
theorem after0_3 (c : Dev nD) (t : Fin cfg0.N) : (dat0 V c).after 3 t = k0_pay3 (iblk0 V c 0 t) (iblk0 V c 1 t) := by dsimp only [dat0]
theorem after0_4 (c : Dev nD) (t : Fin cfg0.N) : (dat0 V c).after 4 t = k0_pay4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KR1Defs.lean ====
/-
  The attention kernel's control: the two words a grid point reads from the tables — its query tile and its key tile —
  and the three conditions the body branches on: the key tile is the first one (reset the carried values), the key tile
  is before the query tile (fold an unmasked tile), the key tile is the query tile (fold the masked diagonal tile and
  write the result). Also: a buffer stored once, or twice, through its whole rectangle reads back as the last payload.
-/
import proofs.«410793_j34746285425245_3_alg».proof.Proof.Gen.Kernel.Launch
import proofs.«410793_j34746285425245_3_alg».proof.Proof.Gen.Kernel.Skeleton
import proofs.«410793_j34746285425245_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.PureOps.BitExact

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a table holds at the grid point's position along the second grid axis. -/
abbrev wordAt (i : grid1.Coords) (a : Memref sig .tc .smem S10 .i32) (ha : a.IsWhole) (t : Vec F S10 .i32) : Elt F .i32 :=
  a.view.readAt (Elt F) (Rect.unit (s := S10) (k1_off1 i) S1.size (k1_off1_inb i)).toLoadRect (ha.unread t) (Shape.Idx.first (numel1_S1.symm ▸ Nat.one_pos))

/-- The three branch conditions, of the query-tile word wq and the key-tile word wk: first key tile; key tile before the
    query tile; key tile the query tile. -/
abbrev condInit (wk : BitVec 32) : Prop := Scalar.cmpi .ne (Scalar.extui (Scalar.cmpi .eq wk 0#32)) 0#32 = 1#1
abbrev condLt (wq wk : BitVec 32) : Prop := Scalar.cmpi .ne (Scalar.extui (Scalar.cmpi .slt wk wq)) 0#32 = 1#1
abbrev condEq (wq wk : BitVec 32) : Prop := k1_cond3 wq wk = 1#1

theorem hz3 : (![0, 0, 0] : Fin 3 → ℕ) = fun _ => 0 := by funext a; fin_cases a <;> rfl

/-- A buffer written once through its whole rectangle reads as the payload. -/
theorem read_writes_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-- Written twice through its whole rectangle, it reads as the later payload. -/
theorem read_writes_whole₂ {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self .., View.mem_set_unit_zero h inb y⟩), View.canon_cons_unit_zero h]

end Cert.Kernel.Gen

end
-- ==== Proof.KR1Sched.lean ====
import proofs.«410793_j34746285425245_3_alg».proof.Proof.Gen.Kernel.Launch
import proofs.«410793_j34746285425245_3_alg».proof.Proof.Gen.Kernel.Skeleton
import proofs.«410793_j34746285425245_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.PureOps.BitExact
import proofs.«410793_j34746285425245_3_alg».proof.Proof.KR1Defs

set_option maxRecDepth 16384
set_option Elab.async false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Bits

local notation "𝕄" => MT nD τ sig Unit (Elt 𝔽) ℕ (UR sig nD τ) ℕ

/-! # The second region's pipeline at its tables

The attention kernel's grid is 8 batches × 10 steps; the ten steps walk the lower triangle of a 4 × 4 grid of
(query tile, key tile) pairs row by row, the pairs read from two constant tables of ten words. Everything the
pipeline's schedule needs of those tables is decided here, once, over the 80 grid points. -/

/-- The two tables' contents: for each of the ten steps, the query tile and the key tile. -/
def tblC : pre1.Contents (Elt 𝔽) := fun k => match k with
  | ⟨0, _⟩ => fun i => lit0 (S10.rowMajor i)
  | ⟨1, _⟩ => fun i => lit1 (S10.rowMajor i)

/-- Every block the tables name lies inside its array. -/
theorem ok_tblC : ok1 (F := 𝔽) tblC := by decide +kernel

/-- The tables as admissible contents, and the pipeline at them. -/
abbrev adm1 : (pcfg1 (F := 𝔽)).Adm := ⟨tblC, ok_tblC⟩
abbrev cfgM : Pipeline.Cfg sig Λ₀ := cfg1 (F := 𝔽) adm1

theorem N_M : cfgM.N = 80 := by decide

/-- The query tile and the key tile of step n (mod 10). -/
def qiN (n : ℕ) : ℕ := [0,1,1,2,2,2,3,3,3,3].getD (n % 10) 0
def kiN (n : ℕ) : ℕ := [0,0,1,0,1,2,0,1,2,3].getD (n % 10) 0

theorem kiN_le_qiN (n : ℕ) : kiN n ≤ qiN n := by
  have h : ∀ k : Fin 10, [0,0,1,0,1,2,0,1,2,3].getD k.val 0 ≤ [0,1,1,2,2,2,3,3,3,3].getD k.val 0 := by decide
  exact h ⟨n % 10, Nat.mod_lt _ (by decide)⟩

/-! ## The output window: idle off the diagonal, written back exactly at the diagonal steps -/

theorem idle3 : ∀ t : Fin cfgM.N, cfgM.idle 3 (cfgM.grid.coords t) = !(decide (qiN t.val = kiN t.val)) := by decide +kernel
theorem flush3 : ∀ t : Fin cfgM.N, (cfgM.win 3).flush t = decide (qiN t.val = kiN t.val) := by decide +kernel

/-! ## The blocks the windows name -/

theorem index0 : ∀ t : Fin cfgM.N, (cfgM.win 0).index t = ![t.val / 10, qiN t.val, 0] := by decide +kernel
theorem index1 : ∀ t : Fin cfgM.N, (cfgM.win 1).index t = ![t.val / 10, kiN t.val, 0] := by decide +kernel
theorem index2 : ∀ t : Fin cfgM.N, (cfgM.win 2).index t = ![t.val / 10, kiN t.val, 0] := by decide +kernel
theorem index3 : ∀ t : Fin cfgM.N, (cfgM.win 3).index t = ![t.val / 10, qiN t.val, 0] := by decide +kernel

/-! ## The words the body reads, and its three conditions at them -/

/-- The tables as the body is handed them. -/
abbrev tbM0 : Memref sig .tc .smem S10 .i32 := Memref.whole main_c
abbrev tbM1 : Memref sig .tc .smem S10 .i32 := Memref.whole main_c_0

/-- The word of a table at a step, as a value. -/
theorem word_eq (i : grid1.Coords) (a : Memref sig .tc .smem S10 .i32) (ha : a.IsWhole) (t : Vec 𝔽 S10 .i32) :
    wordAt (F := 𝔽) i a ha t = t ((Rect.unit (s := S10) (k1_off1 i) S1.size (k1_off1_inb i)).toLoadRect.idx (Shape.Idx.first (numel1_S1.symm ▸ Nat.one_pos))) := by
  unfold wordAt
  rw [View.readAt_eq_ld, ha.read_unread]

/-- The query-tile word and the key-tile word of point `t`, read off the tables. -/
def wQ (t : Fin cfgM.N) : BitVec 32 := tblC 0 ((Rect.unit (s := S10) (k1_off1 (cfgM.grid.coords t)) S1.size (k1_off1_inb (cfgM.grid.coords t))).toLoadRect.idx (Shape.Idx.first (numel1_S1.symm ▸ Nat.one_pos)))
def wK (t : Fin cfgM.N) : BitVec 32 := tblC 1 ((Rect.unit (s := S10) (k1_off1 (cfgM.grid.coords t)) S1.size (k1_off1_inb (cfgM.grid.coords t))).toLoadRect.idx (Shape.Idx.first (numel1_S1.symm ▸ Nat.one_pos)))
theorem wordQ_val : ∀ t : Fin cfgM.N, wQ t = BitVec.ofNat 32 (qiN t.val) := by decide +kernel
theorem wordK_val : ∀ t : Fin cfgM.N, wK t = BitVec.ofNat 32 (kiN t.val) := by decide +kernel

theorem wordQ (t : Fin cfgM.N) : wordAt (F := 𝔽) (cfgM.grid.coords t) tbM0 (Memref.isWhole_whole _) (tblC 0) = BitVec.ofNat 32 (qiN t.val) :=
  (word_eq _ _ _ _).trans (show wQ t = _ from wordQ_val t)
theorem wordK (t : Fin cfgM.N) : wordAt (F := 𝔽) (cfgM.grid.coords t) tbM1 (Memref.isWhole_whole _) (tblC 1) = BitVec.ofNat 32 (kiN t.val) :=
  (word_eq _ _ _ _).trans (show wK t = _ from wordK_val t)

theorem condInit_iff : ∀ t : Fin cfgM.N, condInit (BitVec.ofNat 32 (kiN t.val)) ↔ kiN t.val = 0 := by decide +kernel
theorem condLt_iff : ∀ t : Fin cfgM.N, condLt (BitVec.ofNat 32 (qiN t.val)) (BitVec.ofNat 32 (kiN t.val)) ↔ kiN t.val < qiN t.val := by decide +kernel
theorem condEq_iff : ∀ t : Fin cfgM.N, condEq (BitVec.ofNat 32 (qiN t.val)) (BitVec.ofNat 32 (kiN t.val)) ↔ qiN t.val = kiN t.val := by decide +kernel

/-! ## The staging memrefs at a point, the scratch operands, the body as the pipeline calls it -/

abbrev ms1_0 (t : Fin cfgM.N) : Memref sig .tc .vmem S1x1024x64 .bf16 := spec1_0.stage (cfgM.slots t 0)
abbrev hs1_0 (t : Fin cfgM.N) : (ms1_0 t).IsWhole := hstage1_0 ((cfgM.slots t 0).cast nbuf1_0)
abbrev ms1_1 (t : Fin cfgM.N) : Memref sig .tc .vmem S1x1024x64 .bf16 := spec1_1.stage (cfgM.slots t 1)
abbrev hs1_1 (t : Fin cfgM.N) : (ms1_1 t).IsWhole := hstage1_1 ((cfgM.slots t 1).cast nbuf1_1)
abbrev ms1_2 (t : Fin cfgM.N) : Memref sig .tc .vmem S1x1024x64 .bf16 := spec1_2.stage (cfgM.slots t 2)
abbrev hs1_2 (t : Fin cfgM.N) : (ms1_2 t).IsWhole := hstage1_2 ((cfgM.slots t 2).cast nbuf1_2)
abbrev ms1_3 (t : Fin cfgM.N) : Memref sig .tc .vmem S1x1024x64 .f32 := spec1_3.stage (cfgM.slots t 3)
abbrev hs1_3 (t : Fin cfgM.N) : (ms1_3 t).IsWhole := hstage1_3 ((cfgM.slots t 3).cast nbuf1_3)

/-- The three values the kernel carries from point to point live in three scratch buffers. -/
abbrev scM0 : Memref sig .tc .vmem S1x1024x1 .f32 := Memref.whole cc1_scratch0
abbrev scM1 : Memref sig .tc .vmem S1x1024x1 .f32 := Memref.whole cc1_scratch1
abbrev scM2 : Memref sig .tc .vmem S1x1024x64 .f32 := Memref.whole cc1_scratch2

/-- The kernel body at point `t`, on what the pipeline calls it with. -/
abbrev bodyAt1 (t : Fin cfgM.N) : Prog (TpuEff nD τ sig (Elt 𝔽) Λ₀ .tc) PUnit :=
  cc1__attn_kernel (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)

theorem bodyAt1_eq (t : Fin cfgM.N) : defs₀ (F := 𝔽) .tc cfgM.body (cfgM.bodyArgs t (cfgM.slots t)) = bodyAt1 t := rfl

end Cert.Kernel.Gen

end
-- ==== Proof.KStep.lean ====
/-
  One grid point of the attention kernel as pure functions of the blocks it loads and the three values it carries:
  the running row maximum m, the running denominator l and the running numerator a.

  Off the diagonal (key tile strictly before the query tile) the scores are used as they are; on the diagonal tile the
  entries above the diagonal are replaced by the fill value first, and the result block a / l is produced.
-/
import proofs.«410793_j34746285425245_3_alg».proof.Proof.Gen.Kernel.Skeleton

noncomputable section

namespace Cert.Kernel.Gen

open Idealize.ShloMosaic Idealize.SL.Sem

variable {F : FTy → Type} [FloatOps F]

/-- The carried values at the first key tile of a query tile: maximum at the fill value, sums at zero. -/
abbrev mInit : Vec F S1x1024x1 .f32 := k1_pay1
abbrev lInit : Vec F S1x1024x1 .f32 := k1_pay2
abbrev aInit : Vec F S1x1024x64 .f32 := k1_pay3

/-- An off-diagonal key tile folded in: the new maximum, denominator and numerator. -/
def mOff (q k : Vec F S1x1024x64 .bf16) (m : Vec F S1x1024x1 .f32) : Vec F S1x1024x1 .f32 := k1_pay12 q k m
def lOff (q k : Vec F S1x1024x64 .bf16) (m l : Vec F S1x1024x1 .f32) : Vec F S1x1024x1 .f32 := k1_pay10 q k m l
def aOff (q k v : Vec F S1x1024x64 .bf16) (m : Vec F S1x1024x1 .f32) (a : Vec F S1x1024x64 .f32) : Vec F S1x1024x64 .f32 :=
  k1_pay11 q k v m a

/-- The diagonal key tile folded in (entries above the diagonal filled first). -/
def mDg (q k : Vec F S1x1024x64 .bf16) (m : Vec F S1x1024x1 .f32) : Vec F S1x1024x1 .f32 :=
  k1_pay13 (k1_pay17 (k1_pay5 q k) m)
def lDg (q k : Vec F S1x1024x64 .bf16) (m l : Vec F S1x1024x1 .f32) : Vec F S1x1024x1 .f32 := k1_pay20 (k1_pay5 q k) m l
def aDg (q k v : Vec F S1x1024x64 .bf16) (m : Vec F S1x1024x1 .f32) (a : Vec F S1x1024x64 .f32) : Vec F S1x1024x64 .f32 :=
  k1_pay21 (k1_pay4 v) (k1_pay5 q k) m a
/-- The result block the diagonal point writes: numerator over denominator. -/
def oDg (q k v : Vec F S1x1024x64 .bf16) (m l : Vec F S1x1024x1 .f32) (a : Vec F S1x1024x64 .f32) : Vec F S1x1024x64 .f32 :=
  k1_pay14 (aDg q k v m a) (lDg q k m l)

end Cert.Kernel.Gen

end
-- ==== Proof.KR1Body.lean ====
/-
  The attention kernel's body at one grid point, case by case, as a separation-logic triple over its nine buffers (two
  tables, the query / key / value blocks, the result block, and the three scratch buffers that carry the row maximum m,
  the denominator l and the numerator a):
    off the diagonal, past the first key tile:  (m, l, a) ↦ (mOff, lOff, aOff) of the blocks, the result block untouched;
    off the diagonal, at the first key tile:    the same from the reset values, whatever the scratch held;
    on the diagonal, past the first key tile:   (m, l, a) ↦ (mDg, lDg, aDg) with the entries above the diagonal filled,
                                                and the result block a / l written;
    on the diagonal at the first key tile:      the same from the reset values.
  Each case's branch conditions are hypotheses on the two table words.
-/
import proofs.«410793_j34746285425245_3_alg».proof.Proof.Gen.Kernel.Launch
import proofs.«410793_j34746285425245_3_alg».proof.Proof.Gen.Kernel.Skeleton
import proofs.«410793_j34746285425245_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.PureOps.BitExact
import proofs.«410793_j34746285425245_3_alg».proof.Proof.KStep
import proofs.«410793_j34746285425245_3_alg».proof.Proof.KR1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point past the first key tile, off the diagonal: the three carried values are updated, the output block untouched. -/
theorem run_offK (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : ¬ condInit (wordAt i arg3 harg3 t1)) (hB : condLt (wordAt i arg2 harg2 t0) (wordAt i arg3 harg3 t1)) (hC : ¬ condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo
          ∗ owns (c : Thread nD τ) arg8 fullShare (mOff xq xk xm) ∗ owns (c : Thread nD τ) arg9 fullShare (lOff xq xk xm xl) ∗ owns (c : Thread nD τ) arg10 fullShare (aOff xq xk xv xm xa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole _ _ hz3]
    simp only [mOff, View.readAt_eq_ld, Memref.IsWhole.read_unread, View.ld_unit_zero (S := S1x1024x64) hz3, View.ld_unit_zero (S := S1x1024x1) hz3]
  isplitl [H7]
  · iexists _; isplitr; swap; · iexact H7
    ipureintro
    rw [read_writes_whole _ _ hz3]
    simp only [lOff, View.readAt_eq_ld, Memref.IsWhole.read_unread, View.ld_unit_zero (S := S1x1024x64) hz3, View.ld_unit_zero (S := S1x1024x1) hz3]
  iexists _; isplitr; swap; · iexact H8
  ipureintro
  rw [read_writes_whole _ _ hz3]
  simp only [aOff, View.readAt_eq_ld, Memref.IsWhole.read_unread, View.ld_unit_zero (S := S1x1024x64) hz3, View.ld_unit_zero (S := S1x1024x1) hz3]

set_option maxHeartbeats 4000000 in
/-- The first key tile, off the diagonal: the carried values are reset, then updated; the output block is untouched. -/
theorem run_initOff (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : condInit (wordAt i arg3 harg3 t1)) (hB : condLt (wordAt i arg2 harg2 t0) (wordAt i arg3 harg3 t1)) (hC : ¬ condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo
          ∗ owns (c : Thread nD τ) arg8 fullShare (mOff xq xk mInit) ∗ owns (c : Thread nD τ) arg9 fullShare (lOff xq xk mInit lInit) ∗ owns (c : Thread nD τ) arg10 fullShare (aOff xq xk xv mInit aInit)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole₂ _ _ hz3]
    sl_unfold_run_names
    simp only [mOff, View.readAt_eq_ld, Memref.IsWhole.read_unread, View.ld_unit_zero (S := S1x1024x64) hz3, View.ld_unit_zero (S := S1x1024x1) hz3, View.readCov_cons_toLoadRect]
  isplitl [H7]
  · iexists _; isplitr; swap; · iexact H7
    ipureintro
    rw [read_writes_whole₂ _ _ hz3]
    sl_unfold_run_names
    simp only [lOff, View.readAt_eq_ld, Memref.IsWhole.read_unread, View.ld_unit_zero (S := S1x1024x64) hz3, View.ld_unit_zero (S := S1x1024x1) hz3, View.readCov_cons_toLoadRect]
  iexists _; isplitr; swap; · iexact H8
  · ipureintro
    rw [read_writes_whole₂ _ _ hz3]
    sl_unfold_run_names
    simp only [aOff, View.readAt_eq_ld, Memref.IsWhole.read_unread, View.ld_unit_zero (S := S1x1024x64) hz3, View.ld_unit_zero (S := S1x1024x1) hz3, View.readCov_cons_toLoadRect]

set_option maxHeartbeats 4000000 in
/-- A point past the first key tile, on the diagonal: the carried values are updated and the result block written. -/
theorem run_diagK (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : ¬ condInit (wordAt i arg3 harg3 t1)) (hB : ¬ condLt (wordAt i arg2 harg2 t0) (wordAt i arg3 harg3 t1)) (hC : condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare (oDg xq xk xv xm xl xa)
          ∗ owns (c : Thread nD τ) arg8 fullShare (mDg xq xk xm) ∗ owns (c : Thread nD τ) arg9 fullShare (lDg xq xk xm xl) ∗ owns (c : Thread nD τ) arg10 fullShare (aDg xq xk xv xm xa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_writes_whole _ _ hz3]
    sl_unfold_run_names
    simp only [oDg, aDg, lDg, View.readAt_eq_ld, Memref.IsWhole.read_unread, View.ld_unit_zero (S := S1x1024x64) hz3, View.ld_unit_zero (S := S1x1024x1) hz3, View.readCov_cons_toLoadRect]
  isplitl [H6]
  · iexists _; isplitr; swap; · iexact H6
    ipureintro
    rw [read_writes_whole _ _ hz3]
    sl_unfold_run_names
    simp only [mDg, View.readAt_eq_ld, Memref.IsWhole.read_unread, View.ld_unit_zero (S := S1x1024x64) hz3, View.ld_unit_zero (S := S1x1024x1) hz3, View.readCov_cons_toLoadRect]
  isplitl [H7]
  · iexists _; isplitr; swap; · iexact H7
    ipureintro
    sl_unfold_run_names
    rw [read_writes_whole _ _ hz3]
    simp only [lDg, View.readAt_eq_ld, Memref.IsWhole.read_unread, View.ld_unit_zero (S := S1x1024x64) hz3, View.ld_unit_zero (S := S1x1024x1) hz3, View.readCov_cons_toLoadRect]
  iexists _; isplitr; swap; · iexact H8
  · ipureintro
    sl_unfold_run_names
    rw [read_writes_whole _ _ hz3]
    simp only [aDg, View.readAt_eq_ld, Memref.IsWhole.read_unread, View.ld_unit_zero (S := S1x1024x64) hz3, View.ld_unit_zero (S := S1x1024x1) hz3, View.readCov_cons_toLoadRect]

set_option maxHeartbeats 4000000 in
/-- The first key tile, on the diagonal: the carried values are reset, then updated, and the result block written. -/
theorem run_initDiag (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : condInit (wordAt i arg3 harg3 t1)) (hB : ¬ condLt (wordAt i arg2 harg2 t0) (wordAt i arg3 harg3 t1)) (hC : condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare (oDg xq xk xv mInit lInit aInit)
          ∗ owns (c : Thread nD τ) arg8 fullShare (mDg xq xk mInit) ∗ owns (c : Thread nD τ) arg9 fullShare (lDg xq xk mInit lInit) ∗ owns (c : Thread nD τ) arg10 fullShare (aDg xq xk xv mInit aInit)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_writes_whole _ _ hz3]
    sl_unfold_run_names
    simp only [oDg, aDg, lDg, View.readAt_eq_ld, Memref.IsWhole.read_unread, View.ld_unit_zero (S := S1x1024x64) hz3, View.ld_unit_zero (S := S1x1024x1) hz3, View.readCov_cons_toLoadRect]
  isplitl [H6]
  · iexists _; isplitr; swap; · iexact H6
    ipureintro
    rw [read_writes_whole₂ _ _ hz3]
    sl_unfold_run_names
    simp only [mDg, View.readAt_eq_ld, Memref.IsWhole.read_unread, View.ld_unit_zero (S := S1x1024x64) hz3, View.ld_unit_zero (S := S1x1024x1) hz3, View.readCov_cons_toLoadRect]
  isplitl [H7]
  · iexists _; isplitr; swap; · iexact H7
    ipureintro
    sl_unfold_run_names
    rw [read_writes_whole₂ _ _ hz3]
    simp only [lDg, View.readAt_eq_ld, Memref.IsWhole.read_unread, View.ld_unit_zero (S := S1x1024x64) hz3, View.ld_unit_zero (S := S1x1024x1) hz3, View.readCov_cons_toLoadRect]
  iexists _; isplitr; swap; · iexact H8
  · ipureintro
    sl_unfold_run_names
    rw [read_writes_whole₂ _ _ hz3]
    simp only [aDg, View.readAt_eq_ld, Memref.IsWhole.read_unread, View.ld_unit_zero (S := S1x1024x64) hz3, View.ld_unit_zero (S := S1x1024x1) hz3, View.readCov_cons_toLoadRect]

end Cert.Kernel.Gen

end
-- ==== Proof.KR1Dat.lean ====
import proofs.«410793_j34746285425245_3_alg».proof.Proof.Gen.Kernel.Launch
import proofs.«410793_j34746285425245_3_alg».proof.Proof.Gen.Kernel.Skeleton
import proofs.«410793_j34746285425245_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.PureOps.BitExact
import proofs.«410793_j34746285425245_3_alg».proof.Proof.KR1Sched
import proofs.«410793_j34746285425245_3_alg».proof.Proof.KR1Body

set_option maxRecDepth 16384
set_option pp.maxSteps 20000
set_option pp.deepTerms false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Bits

local notation "𝕄" => MT nD τ sig Unit (Elt 𝔽) ℕ (UR sig nD τ) ℕ

/-! # The second region as proof data: what every point leaves

Per core, with the buffers' contents at the region's entry a parameter `V`: each input window's block at a point; the
three carried values after each point, by recursion on the point (reset at a first key tile, then an off-diagonal or
a diagonal fold); the result block a diagonal point writes; the invariant that holds the carried values in the three
scratch buffers between points, beside the two tables, the generator register and the other region's staging buffers. -/

section R1

variable (V : (c : Dev nD) → (b : Ref sig .tc) → Buf (Elt 𝔽) ((c : Thread nD τ).loc b))

/-- Window `w`'s block at point `t`, read off its array as the region finds it. -/
def iblk1 (c : Dev nD) (w : Fin cfgM.W) (t : Fin cfgM.N) : ((cfgM.win w).xblock (cfgM.grid.coords t)).Idx → Elt 𝔽 (cfgM.win w).elt :=
  ((cfgM.win w).blk t).view.read (Elt 𝔽) (V c (Pipeline.arrRef spec1 w))

/-- The carried values: maximum, denominator, numerator. -/
abbrev St : Type := Vec 𝔽 S1x1024x1 .f32 × Vec 𝔽 S1x1024x1 .f32 × Vec 𝔽 S1x1024x64 .f32

/-- What a point starts from: the reset values at a first key tile, else what the point before left. -/
def st0 (t : Fin cfgM.N) (s : St) : St := if kiN t.val = 0 then (mInit, lInit, aInit) else s

/-- The carried values after point `t`, from those before it. -/
def stepAt (c : Dev nD) (t : Fin cfgM.N) (s : St) : St :=
  if kiN t.val < qiN t.val then
    (mOff (iblk1 V c 0 t) (iblk1 V c 1 t) (st0 t s).1,
     lOff (iblk1 V c 0 t) (iblk1 V c 1 t) (st0 t s).1 (st0 t s).2.1,
     aOff (iblk1 V c 0 t) (iblk1 V c 1 t) (iblk1 V c 2 t) (st0 t s).1 (st0 t s).2.2)
  else
    (mDg (iblk1 V c 0 t) (iblk1 V c 1 t) (st0 t s).1,
     lDg (iblk1 V c 0 t) (iblk1 V c 1 t) (st0 t s).1 (st0 t s).2.1,
     aDg (iblk1 V c 0 t) (iblk1 V c 1 t) (iblk1 V c 2 t) (st0 t s).1 (st0 t s).2.2)

/-- The carried values before point `n` (after point `n − 1`); before the first point nothing is known and nothing is read. -/
def stAt (c : Dev nD) : ℕ → St
  | 0 => (mInit, lInit, aInit)
  | n + 1 => if h : n < cfgM.N then stepAt V c ⟨n, h⟩ (stAt c n) else stAt c n

theorem stAt_succ (c : Dev nD) (t : Fin cfgM.N) : stAt V c (t.val + 1) = stepAt V c t (stAt V c t.val) := by
  rw [stAt, dif_pos t.isLt]

/-- The result block point `t` writes (read only at the diagonal points, where the body stores it). -/
def outAt (c : Dev nD) (t : Fin cfgM.N) : Vec 𝔽 S1x1024x64 .f32 :=
  oDg (iblk1 V c 0 t) (iblk1 V c 1 t) (iblk1 V c 2 t) (st0 t (stAt V c t.val)).1 (st0 t (stAt V c t.val)).2.1 (st0 t (stAt V c t.val)).2.2

/-- The first region's nine staging buffers, each whole at some contents: scoped buffers this region does not use. -/
def stagingRest0 (c : Dev nD) : sProp 𝕄 :=
  iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg2_1), ((c : Thread nD τ).loc cc0_stg2_1) ↦{fullShare} f) ∗ (∃ f : Buf (Elt 𝔽) ((c : Thread nD τ).loc cc0_stg3_0), ((c : Thread nD τ).loc cc0_stg3_0) ↦{fullShare} f) ∗ (∃ f : Buf (Elt 𝔽) ((c : Thread nD τ).loc cc0_stg3_1), ((c : Thread nD τ).loc cc0_stg3_1) ↦{fullShare} f) ∗ (∃ f : Buf (Elt 𝔽) ((c : Thread nD τ).loc cc0_stg4_0), ((c : Thread nD τ).loc cc0_stg4_0) ↦{fullShare} f) ∗ (∃ f : Buf (Elt 𝔽) ((c : Thread nD τ).loc cc0_stg4_1), ((c : Thread nD τ).loc cc0_stg4_1) ↦{fullShare} f))

/-- What rides through every point beside the scratch: the two tables at their contents, the generator register, the other
    region's staging buffers. -/
def PhiRest (c : Dev nD) : sProp 𝕄 :=
  iprop(owns (c : Thread nD τ) tbM0 fullShare (tblC 0) ∗ owns (c : Thread nD τ) tbM1 fullShare (tblC 1) ∗ (∃ r, prngReg c r) ∗ stagingRest0 c)

/-- The region's invariant before point `n`: at the first point the scratch buffers hold anything; afterwards the carried values. -/
def PhiS (c : Dev nD) : ℕ → sProp 𝕄
  | 0 => iprop((∃ d, owns (c : Thread nD τ) scM0 fullShare d) ∗ (∃ d, owns (c : Thread nD τ) scM1 fullShare d) ∗ (∃ d, owns (c : Thread nD τ) scM2 fullShare d) ∗ PhiRest c)
  | n + 1 => iprop(owns (c : Thread nD τ) scM0 fullShare (stAt V c (n + 1)).1 ∗ owns (c : Thread nD τ) scM1 fullShare (stAt V c (n + 1)).2.1 ∗ owns (c : Thread nD τ) scM2 fullShare (stAt V c (n + 1)).2.2 ∗ PhiRest c)

/-- The proof data of the second pipeline on core `c`. -/
def dat1 (c : Dev nD) : Dat τ (Elt 𝔽) Unit ℕ (UR sig nD τ) ℕ cfgM c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val
  q _ := fullShare
  owed _ := 0

theorem A_eq1 (c : Dev nD) (w : Fin cfgM.W) : (dat1 V c).A w = V c (Pipeline.arrRef spec1 w) := by
  dsimp only [dat1]

theorem after1_0 (c : Dev nD) (t : Fin cfgM.N) : (dat1 V c).after 0 t = iblk1 V c 0 t := by dsimp only [dat1]
theorem after1_1 (c : Dev nD) (t : Fin cfgM.N) : (dat1 V c).after 1 t = iblk1 V c 1 t := by dsimp only [dat1]
theorem after1_2 (c : Dev nD) (t : Fin cfgM.N) : (dat1 V c).after 2 t = iblk1 V c 2 t := by dsimp only [dat1]
theorem after1_3 (c : Dev nD) (t : Fin cfgM.N) : (dat1 V c).after 3 t = outAt V c t := by dsimp only [dat1]

/-! ## The invariant unfolded, the tables one by one -/

private theorem PhiS_zero' (c : Dev nD) : PhiS V c 0 = iprop((∃ d, owns (c : Thread nD τ) scM0 fullShare d) ∗ (∃ d, owns (c : Thread nD τ) scM1 fullShare d) ∗ (∃ d, owns (c : Thread nD τ) scM2 fullShare d) ∗ PhiRest c) := rfl

private theorem PhiS_succ' (c : Dev nD) (n : ℕ) : PhiS V c (n + 1) = iprop(owns (c : Thread nD τ) scM0 fullShare (stAt V c (n + 1)).1 ∗ owns (c : Thread nD τ) scM1 fullShare (stAt V c (n + 1)).2.1 ∗ owns (c : Thread nD τ) scM2 fullShare (stAt V c (n + 1)).2.2 ∗ PhiRest c) := rfl

private theorem tb0_eq (c : Dev nD) : (owns (c : Thread nD τ) tbM0 fullShare (tblC 0) : sProp 𝕄) = ((c : Thread nD τ).loc (pre1.ref 0) ↦{fullShare} tblC 0) := owns_whole _ _ _ _
private theorem tb1_eq (c : Dev nD) : (owns (c : Thread nD τ) tbM1 fullShare (tblC 1) : sProp 𝕄) = ((c : Thread nD τ).loc (pre1.ref 1) ↦{fullShare} tblC 1) := owns_whole _ _ _ _

/-- The two tables held whole, one by one. -/
private theorem prefHeld1_eq (c : Dev nD) :
    (Pipeline.prefHeld (Ix := Unit) (Name := ℕ) (U := UR sig nD τ) (Lvl := ℕ) pre1 c (fun _ => fullShare) (tblC) : sProp 𝕄)
      = iprop(owns (c : Thread nD τ) tbM0 fullShare (tblC 0) ∗ owns (c : Thread nD τ) tbM1 fullShare (tblC 1)) := by
  unfold Pipeline.prefHeld
  rw [show (Finset.univ : Finset (Fin 2)) = insert (0 : Fin 2) {(1 : Fin 2)} from by decide, bigSep_insert (by decide), bigSep_singleton, tb0_eq, tb1_eq]
  rfl

/-! ## The body at a point -/

private theorem before1_0 (c : Dev nD) (t : Fin cfgM.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
private theorem before1_1 (c : Dev nD) (t : Fin cfgM.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
private theorem before1_2 (c : Dev nD) (t : Fin cfgM.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

private theorem leaves1_0 (c : Dev nD) (t : Fin cfgM.N) : (dat1 V c).leavesExact 0 t = owns (c : Thread nD τ) (ms1_0 t) fullShare (iblk1 V c 0 t) := by
  rw [← after1_0]
private theorem leaves1_1 (c : Dev nD) (t : Fin cfgM.N) : (dat1 V c).leavesExact 1 t = owns (c : Thread nD τ) (ms1_1 t) fullShare (iblk1 V c 1 t) := by
  rw [← after1_1]
private theorem leaves1_2 (c : Dev nD) (t : Fin cfgM.N) : (dat1 V c).leavesExact 2 t = owns (c : Thread nD τ) (ms1_2 t) fullShare (iblk1 V c 2 t) := by
  rw [← after1_2]

private theorem idle3_off (t : Fin cfgM.N) (h : kiN t.val < qiN t.val) : cfgM.idle 3 (cfgM.grid.coords t) = true := by
  rw [idle3 t, decide_eq_false (by omega), Bool.not_false]
private theorem flush3_off (t : Fin cfgM.N) (h : kiN t.val < qiN t.val) : (cfgM.win 3).flush t = false := by
  rw [flush3 t, decide_eq_false (by omega)]
private theorem idle3_dg (t : Fin cfgM.N) (h : qiN t.val = kiN t.val) : cfgM.idle 3 (cfgM.grid.coords t) = false := by
  rw [idle3 t, decide_eq_true h, Bool.not_true]

private theorem leaves1_3_off (c : Dev nD) (t : Fin cfgM.N) (h : kiN t.val < qiN t.val) :
    (dat1 V c).leavesExact 3 t = iprop(∃ d, owns (c : Thread nD τ) (ms1_3 t) fullShare ((dat1 V c).before 3 t d)) :=
  Dat.leavesExact_idle (dat1 V c) 3 t (idle3_off t h) (flush3_off t h)
private theorem leaves1_3_dg (c : Dev nD) (t : Fin cfgM.N) (h : qiN t.val = kiN t.val) :
    (dat1 V c).leavesExact 3 t = owns (c : Thread nD τ) (ms1_3 t) fullShare (outAt V c t) := by
  unfold Dat.leavesExact; rw [idle3_dg t h, after1_3]

private theorem PhiS_pos' (c : Dev nD) (n : ℕ) (hn : n ≠ 0) : PhiS V c n = iprop(owns (c : Thread nD τ) scM0 fullShare (stAt V c n).1 ∗ owns (c : Thread nD τ) scM1 fullShare (stAt V c n).2.1 ∗ owns (c : Thread nD τ) scM2 fullShare (stAt V c n).2.2 ∗ PhiRest c) := by
  cases n with
  | zero => exact absurd rfl hn
  | succ n => rfl

private theorem PhiS_any (c : Dev nD) (n : ℕ) : PhiS V c n ⊢ iprop((∃ d, owns (c : Thread nD τ) scM0 fullShare d) ∗ (∃ d, owns (c : Thread nD τ) scM1 fullShare d) ∗ (∃ d, owns (c : Thread nD τ) scM2 fullShare d) ∗ PhiRest c) := by
  cases n with
  | zero => exact .rfl
  | succ n =>
    rw [PhiS_succ']
    iintro ⟨X0, X1, X2, HR⟩
    isplitl [X0]; · iexists _; iexact X0
    isplitl [X1]; · iexists _; iexact X1
    isplitl [X2]; · iexists _; iexact X2
    iexact HR

private theorem PhiS_next (c : Dev nD) (t : Fin cfgM.N) (s : St) (hs : stAt V c (t.val + 1) = s) :
    PhiS V c (t.val + 1) = iprop(owns (c : Thread nD τ) scM0 fullShare s.1 ∗ owns (c : Thread nD τ) scM1 fullShare s.2.1 ∗ owns (c : Thread nD τ) scM2 fullShare s.2.2 ∗ PhiRest c) := by
  subst hs; rfl

private theorem st0_init (t : Fin cfgM.N) (s : St) (h0 : kiN t.val = 0) : st0 t s = (mInit, lInit, aInit) := if_pos h0
private theorem st0_keep (t : Fin cfgM.N) (s : St) (h0 : ¬ kiN t.val = 0) : st0 t s = s := if_neg h0

private theorem stAt_off (c : Dev nD) (t : Fin cfgM.N) (s : St) (hs : st0 t (stAt V c t.val) = s) (h1 : kiN t.val < qiN t.val) :
    stAt V c (t.val + 1) = (mOff (iblk1 V c 0 t) (iblk1 V c 1 t) s.1, lOff (iblk1 V c 0 t) (iblk1 V c 1 t) s.1 s.2.1, aOff (iblk1 V c 0 t) (iblk1 V c 1 t) (iblk1 V c 2 t) s.1 s.2.2) := by
  rw [stAt_succ]; unfold stepAt; rw [if_pos h1, hs]
private theorem stAt_dg (c : Dev nD) (t : Fin cfgM.N) (s : St) (hs : st0 t (stAt V c t.val) = s) (h1 : ¬ kiN t.val < qiN t.val) :
    stAt V c (t.val + 1) = (mDg (iblk1 V c 0 t) (iblk1 V c 1 t) s.1, lDg (iblk1 V c 0 t) (iblk1 V c 1 t) s.1 s.2.1, aDg (iblk1 V c 0 t) (iblk1 V c 1 t) (iblk1 V c 2 t) s.1 s.2.2) := by
  rw [stAt_succ]; unfold stepAt; rw [if_neg h1, hs]
private theorem outAt_eq (c : Dev nD) (t : Fin cfgM.N) (s : St) (hs : st0 t (stAt V c t.val) = s) :
    outAt V c t = oDg (iblk1 V c 0 t) (iblk1 V c 1 t) (iblk1 V c 2 t) s.1 s.2.1 s.2.2 := by
  unfold outAt; rw [hs]

/-- The words the body reads at point `t` put it in the case the step's tile pair names. -/
private theorem hInit (t : Fin cfgM.N) : condInit (wordAt (F := 𝔽) (cfgM.grid.coords t) tbM1 (Memref.isWhole_whole _) (tblC 1)) ↔ kiN t.val = 0 := by
  rw [wordK]; exact condInit_iff t
private theorem hLt (t : Fin cfgM.N) : condLt (wordAt (F := 𝔽) (cfgM.grid.coords t) tbM0 (Memref.isWhole_whole _) (tblC 0)) (wordAt (F := 𝔽) (cfgM.grid.coords t) tbM1 (Memref.isWhole_whole _) (tblC 1)) ↔ kiN t.val < qiN t.val := by
  rw [wordQ, wordK]; exact condLt_iff t
private theorem hEq (t : Fin cfgM.N) : condEq (wordAt (F := 𝔽) (cfgM.grid.coords t) tbM0 (Memref.isWhole_whole _) (tblC 0)) (wordAt (F := 𝔽) (cfgM.grid.coords t) tbM1 (Memref.isWhole_whole _) (tblC 1)) ↔ qiN t.val = kiN t.val := by
  rw [wordQ, wordK]; exact condEq_iff t

/-- The shuffle around a run of the body: the scratch, the tables and the four current buffers go in, the rest rides along. -/
private theorem frame_run (c : Dev nD) (t : Fin cfgM.N) (R : sProp 𝕄)
    (xq xk xv : Vec 𝔽 S1x1024x64 .bf16) (xo xo' : Vec 𝔽 S1x1024x64 .f32) (xm xl ym yl : Vec 𝔽 S1x1024x1 .f32) (xa ya : Vec 𝔽 S1x1024x64 .f32)
    (P3 : sProp 𝕄) (hP3 : owns (c : Thread nD τ) (ms1_3 t) fullShare xo' ⊢ P3)
    (hrun : ∀ K : PUnit → sProp 𝕄,
      iprop(owns (c : Thread nD τ) tbM0 fullShare (tblC 0) ∗ owns (c : Thread nD τ) tbM1 fullShare (tblC 1) ∗ owns (c : Thread nD τ) (ms1_0 t) fullShare xq ∗ owns (c : Thread nD τ) (ms1_1 t) fullShare xk ∗ owns (c : Thread nD τ) (ms1_2 t) fullShare xv ∗ owns (c : Thread nD τ) (ms1_3 t) fullShare xo ∗ owns (c : Thread nD τ) scM0 fullShare xm ∗ owns (c : Thread nD τ) scM1 fullShare xl ∗ owns (c : Thread nD τ) scM2 fullShare xa
        ∗ (iprop(owns (c : Thread nD τ) tbM0 fullShare (tblC 0) ∗ owns (c : Thread nD τ) tbM1 fullShare (tblC 1) ∗ owns (c : Thread nD τ) (ms1_0 t) fullShare xq ∗ owns (c : Thread nD τ) (ms1_1 t) fullShare xk ∗ owns (c : Thread nD τ) (ms1_2 t) fullShare xv ∗ owns (c : Thread nD τ) (ms1_3 t) fullShare xo' ∗ owns (c : Thread nD τ) scM0 fullShare ym ∗ owns (c : Thread nD τ) scM1 fullShare yl ∗ owns (c : Thread nD τ) scM2 fullShare ya) -∗ K ⟨⟩))
      ⊢ wp frame (wpE (defs₀ (F := 𝔽)) Variants.none c none) Set.univ (bodyAt1 t) K) :
    iprop((owns (c : Thread nD τ) scM0 fullShare xm ∗ owns (c : Thread nD τ) scM1 fullShare xl ∗ owns (c : Thread nD τ) scM2 fullShare xa ∗ PhiRest c) ∗ R
        ∗ owns (c : Thread nD τ) (ms1_0 t) fullShare xq ∗ owns (c : Thread nD τ) (ms1_1 t) fullShare xk ∗ owns (c : Thread nD τ) (ms1_2 t) fullShare xv ∗ owns (c : Thread nD τ) (ms1_3 t) fullShare xo)
      ⊢ wp frame (wpE (defs₀ (F := 𝔽)) Variants.none c none) Set.univ (bodyAt1 t) (fun _ =>
          iprop((owns (c : Thread nD τ) scM0 fullShare ym ∗ owns (c : Thread nD τ) scM1 fullShare yl ∗ owns (c : Thread nD τ) scM2 fullShare ya ∗ PhiRest c) ∗ R
            ∗ owns (c : Thread nD τ) (ms1_0 t) fullShare xq ∗ owns (c : Thread nD τ) (ms1_1 t) fullShare xk ∗ owns (c : Thread nD τ) (ms1_2 t) fullShare xv ∗ P3)) := by
  unfold PhiRest
  iintro ⟨⟨X0, X1, X2, T0, T1, Hg, Hst⟩, Ho, H0, H1, H2, H3⟩
  iapply (hrun _)
  isplitl [T0]; · iexact T0
  isplitl [T1]; · iexact T1
  isplitl [H0]; · iexact H0
  isplitl [H1]; · iexact H1
  isplitl [H2]; · iexact H2
  isplitl [H3]; · iexact H3
  isplitl [X0]; · iexact X0
  isplitl [X1]; · iexact X1
  isplitl [X2]; · iexact X2
  iintro ⟨T0, T1, H0, H1, H2, H3, X0, X1, X2⟩
  isplitl [X0 X1 X2 T0 T1 Hg Hst]
  · isplitl [X0]; · iexact X0
    isplitl [X1]; · iexact X1
    isplitl [X2]; · iexact X2
    isplitl [T0]; · iexact T0
    isplitl [T1]; · iexact T1
    isplitl [Hg]; · iexact Hg
    iexact Hst
  isplitl [Ho]; · iexact Ho
  isplitl [H0]; · iexact H0
  isplitl [H1]; · iexact H1
  isplitl [H2]; · iexact H2
  iapply hP3; iexact H3

/-- What the body is called with at point `t`, the windows one by one, -/
private def bodyPre1 (c : Dev nD) (t : Fin cfgM.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
private def bodyPost1 (c : Dev nD) (t : Fin cfgM.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
private theorem sound_body1 (c : Dev nD) (t : Fin cfgM.N) :
    bodyPre1 V c t ⊢ wp frame (wpE (defs₀ (F := 𝔽)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS V c (t.val + 1) from rfl, show (dat1 V c).Φ t.castSucc = PhiS V c t.val from rfl]
  rw [leaves1_0, leaves1_1, leaves1_2]
  by_cases h1 : kiN t.val < qiN t.val
  · have hne : ¬ qiN t.val = kiN t.val := by omega
    rw [leaves1_3_off V c t h1]
    by_cases h0 : kiN t.val = 0
    · rw [PhiS_next V c t _ (stAt_off V c t _ (st0_init t _ h0) h1)]
      iintro ⟨HΦ, Ho, ⟨%d0, H0⟩, ⟨%d1, H1⟩, ⟨%d2, H2⟩, ⟨%d3, H3⟩⟩
      ihave HΦ' := (PhiS_any V c t.val) $$ HΦ
      icases HΦ' with ⟨⟨%xm, X0⟩, ⟨%xl, X1⟩, ⟨%xa, X2⟩, HR⟩
      iapply (frame_run c t _ (iblk1 V c 0 t) (iblk1 V c 1 t) (iblk1 V c 2 t) ((dat1 V c).before 3 t d3) ((dat1 V c).before 3 t d3) xm xl _ _ xa _ _
        (by iintro H; iexists d3; iexact H)
        (fun K => run_initOff c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ xm xl xa ((hInit t).mpr h0) ((hLt t).mpr h1) (fun h => hne ((hEq t).mp h)) Set.univ K))
      isplitl [X0 X1 X2 HR]
      · isplitl [X0]; · iexact X0
        isplitl [X1]; · iexact X1
        isplitl [X2]; · iexact X2
        iexact HR
      isplitl [Ho]; · iexact Ho
      isplitl [H0]; · iexact H0
      isplitl [H1]; · iexact H1
      isplitl [H2]; · iexact H2
      iexact H3
    · have hz : t.val ≠ 0 := fun h => h0 (by rw [h]; rfl)
      rw [PhiS_next V c t _ (stAt_off V c t _ (st0_keep t _ h0) h1), PhiS_pos' V c t.val hz]
      iintro ⟨HΦ, Ho, ⟨%d0, H0⟩, ⟨%d1, H1⟩, ⟨%d2, H2⟩, ⟨%d3, H3⟩⟩
      iapply (frame_run c t _ (iblk1 V c 0 t) (iblk1 V c 1 t) (iblk1 V c 2 t) ((dat1 V c).before 3 t d3) ((dat1 V c).before 3 t d3) (stAt V c t.val).1 (stAt V c t.val).2.1 _ _ (stAt V c t.val).2.2 _ _
        (by iintro H; iexists d3; iexact H)
        (fun K => run_offK c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ (stAt V c t.val).1 (stAt V c t.val).2.1 (stAt V c t.val).2.2 (fun h => h0 ((hInit t).mp h)) ((hLt t).mpr h1) (fun h => hne ((hEq t).mp h)) Set.univ K))
      isplitl [HΦ]; · iexact HΦ
      isplitl [Ho]; · iexact Ho
      isplitl [H0]; · iexact H0
      isplitl [H1]; · iexact H1
      isplitl [H2]; · iexact H2
      iexact H3
  · have hq : qiN t.val = kiN t.val := by have := kiN_le_qiN t.val; omega
    rw [leaves1_3_dg V c t hq]
    by_cases h0 : kiN t.val = 0
    · rw [outAt_eq V c t _ (st0_init t _ h0), PhiS_next V c t _ (stAt_dg V c t _ (st0_init t _ h0) h1)]
      iintro ⟨HΦ, Ho, ⟨%d0, H0⟩, ⟨%d1, H1⟩, ⟨%d2, H2⟩, ⟨%d3, H3⟩⟩
      ihave HΦ' := (PhiS_any V c t.val) $$ HΦ
      icases HΦ' with ⟨⟨%xm, X0⟩, ⟨%xl, X1⟩, ⟨%xa, X2⟩, HR⟩
      iapply (frame_run c t _ (iblk1 V c 0 t) (iblk1 V c 1 t) (iblk1 V c 2 t) ((dat1 V c).before 3 t d3) _ xm xl _ _ xa _ _
        (by iintro H; iexact H)
        (fun K => run_initDiag c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ xm xl xa ((hInit t).mpr h0) (fun h => h1 ((hLt t).mp h)) ((hEq t).mpr hq) Set.univ K))
      isplitl [X0 X1 X2 HR]
      · isplitl [X0]; · iexact X0
        isplitl [X1]; · iexact X1
        isplitl [X2]; · iexact X2
        iexact HR
      isplitl [Ho]; · iexact Ho
      isplitl [H0]; · iexact H0
      isplitl [H1]; · iexact H1
      isplitl [H2]; · iexact H2
      iexact H3
    · have hz : t.val ≠ 0 := fun h => h0 (by rw [h]; rfl)
      rw [outAt_eq V c t _ (st0_keep t _ h0), PhiS_next V c t _ (stAt_dg V c t _ (st0_keep t _ h0) h1), PhiS_pos' V c t.val hz]
      iintro ⟨HΦ, Ho, ⟨%d0, H0⟩, ⟨%d1, H1⟩, ⟨%d2, H2⟩, ⟨%d3, H3⟩⟩
      iapply (frame_run c t _ (iblk1 V c 0 t) (iblk1 V c 1 t) (iblk1 V c 2 t) ((dat1 V c).before 3 t d3) _ (stAt V c t.val).1 (stAt V c t.val).2.1 _ _ (stAt V c t.val).2.2 _ _
        (by iintro H; iexact H)
        (fun K => run_diagK c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ (stAt V c t.val).1 (stAt V c t.val).2.1 (stAt V c t.val).2.2 (fun h => h0 ((hInit t).mp h)) (fun h => h1 ((hLt t).mp h)) ((hEq t).mpr hq) Set.univ K))
      isplitl [HΦ]; · iexact HΦ
      isplitl [Ho]; · iexact Ho
      isplitl [H0]; · iexact H0
      isplitl [H1]; · iexact H1
      isplitl [H2]; · iexact H2
      iexact H3

/-- The body obligation of the second region, at every point. -/
theorem body_obligation1 (c : Dev nD) : BodyObligation (dat1 V c) (defs₀ (F := 𝔽)) Variants.none () Set.univ := by
  refine fun t => ?_
  rw [bigSep_W1, bigSep_W1]
  exact sound_body1 V c t

/-- What the launch hands the region — the generator register, the tables at their contents, the scoped buffers no window
    of this region stages — is the invariant before the first point. -/
theorem hin1 (c : Dev nD) :
    iprop((∃ r, prngReg c r) ∗ Pipeline.prefHeld (Ix := Unit) (Name := ℕ) (U := UR sig nD τ) (Lvl := ℕ) pre1 c (fun _ => fullShare) (tblC) ∗ Pipeline.scopedRest (Ix := Unit) (Name := ℕ) (U := UR sig nD τ) (Lvl := ℕ) (Val := Elt 𝔽) spec1 c)
      ⊢ ((dat1 V c).Φ 0 : sProp 𝕄) := by
  rw [show (dat1 V c).Φ 0 = PhiS V c 0 from rfl, PhiS_zero', prefHeld1_eq, scopedRest1_eq]
  unfold PhiRest stagingRest0
  simp only [scM0, scM1, scM2, owns_whole]
  iintro ⟨Hg, ⟨T0, T1⟩, S0, S1, S2, S3, S4, S5, S6, S7, S8, X0, X1, X2⟩
  isplitl [X0]; · iexact X0
  isplitl [X1]; · iexact X1
  isplitl [X2]; · iexact X2
  isplitl [T0]; · iexact T0
  isplitl [T1]; · iexact T1
  isplitl [Hg]; · iexact Hg
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

/-- After the last point the invariant gives those back, the carried values forgotten. -/
theorem hout1 (c : Dev nD) :
    ((dat1 V c).Φ (Fin.last cfgM.N) : sProp 𝕄)
      ⊢ iprop(iprop((∃ r, prngReg c r) ∗ Pipeline.prefHeld (Ix := Unit) (Name := ℕ) (U := UR sig nD τ) (Lvl := ℕ) pre1 c (fun _ => fullShare) (tblC)) ∗ Pipeline.scopedRest (Ix := Unit) (Name := ℕ) (U := UR sig nD τ) (Lvl := ℕ) (Val := Elt 𝔽) spec1 c) := by
  have h : (dat1 V c).Φ (Fin.last cfgM.N) = PhiS V c (79 + 1) := by
    show PhiS V c (Fin.last cfgM.N).val = _
    rw [Fin.val_last, N_M]
  rw [h, PhiS_succ', prefHeld1_eq, scopedRest1_eq]
  unfold PhiRest stagingRest0
  simp only [scM0, scM1, scM2, owns_whole]
  iintro ⟨X0, X1, X2, T0, T1, Hg, S0, S1, S2, S3, S4, S5, S6, S7, S8⟩
  isplitl [Hg T0 T1]
  · isplitl [Hg]; · iexact Hg
    isplitl [T0]; · iexact T0
    iexact T1
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [X0]; · iexists _; iexact X0
  isplitl [X1]; · iexists _; iexact X1
  iexists _; iexact X2

end R1

end Cert.Kernel.Gen

end
-- ==== Proof.KRun.lean ====
/-
  The run of the kernel program at the ideal float instance: from the launch memory through the one stretch of
  host operations (the two constant tables and the concatenation of the three weight matrices), the projection
  region and the attention region, to the return. The buffer contents at each of the four boundaries are a fold
  from the launch memory; each region is entered from every unscoped buffer at its boundary's contents and left
  with its arrays at what its write-backs leave; the second region is handed its two tables at the contents the
  host operations wrote.
-/
import proofs.«410793_j34746285425245_3_alg».proof.Proof.Gen.Kernel.Launch
import proofs.«410793_j34746285425245_3_alg».proof.Proof.Gen.Kernel.Skeleton
import proofs.«410793_j34746285425245_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.BitExact
import proofs.«410793_j34746285425245_3_alg».proof.Proof.KRegion0
import proofs.«410793_j34746285425245_3_alg».proof.Proof.KR1Dat

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-! ## The buffer contents at each boundary: a fold through the program -/

/-- Core c's buffers at launch. -/
abbrev W0 : Dev nD → Valuation τ sig (Elt 𝔽) := fun c b => (s₀ m ρ).mem ((c : Dev nD), b)
/-- After the host operations (the first region's entry). -/
abbrev W1 : Dev nD → Valuation τ sig (Elt 𝔽) := fun c => StableHlo.after hostOps0 (W0 m ρ c)
/-- The same read at the core's references. -/
abbrev V1 : (c : Dev nD) → (b : Ref sig .tc) → Buf (Elt 𝔽) ((c : Thread nD τ).loc b) := fun c b => W1 m ρ c b
/-- At the first region's exit: its arrays at what the pipeline leaves, every other buffer as entered. -/
def W2 (c : Dev nD) : Valuation τ sig (Elt 𝔽) :=
  Pipeline.withArrays spec0 c (W1 m ρ c) fun w => (dat0 (F := 𝔽) (V1 m ρ) c).arrAt w cfg0.N
theorem W2_arr (c : Dev nD) (w : Fin cfg0.W) :
    W2 m ρ c (Proc.devRef .tc (Pipeline.arrRef spec0 w)) = (dat0 (F := 𝔽) (V1 m ρ) c).arrAt w cfg0.N := by
  unfold W2; exact Pipeline.withArrays_arr spec0 (launch0 (F := 𝔽)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the second region's entry contents). -/
abbrev V2 : (c : Dev nD) → (b : Ref sig .tc) → Buf (Elt 𝔽) ((c : Thread nD τ).loc b) := fun c b => W2 m ρ c b
theorem hF0 (c : Dev nD) (w : Fin cfg0.W) : (dat0 (F := 𝔽) (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt 𝔽) :=
  Pipeline.withArrays spec1 c (W2 m ρ c) fun w => (dat1 (V2 m ρ) c).arrAt w cfgM.N
theorem W3_arr (c : Dev nD) (w : Fin cfgM.W) :
    W3 m ρ c (Proc.devRef .tc (Pipeline.arrRef spec1 w)) = (dat1 (V2 m ρ) c).arrAt w cfgM.N := by
  unfold W3; exact Pipeline.withArrays_arr spec1 (launch1 (F := 𝔽)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references (the second region's exit contents). -/
abbrev V3 : (c : Dev nD) → (b : Ref sig .tc) → Buf (Elt 𝔽) ((c : Thread nD τ).loc b) := fun c b => W3 m ρ c b
theorem hF1 (c : Dev nD) (w : Fin cfgM.W) : (dat1 (V2 m ρ) c).arrAt w cfgM.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the fold holds at the buffers the value reads -/

/-- The host operations write none of the four arguments. -/
theorem W1_of_not_written (c : Dev nD) (b : Ref sig .tc) (h0 : main_c ≠ b) (h1 : main_c_0 ≠ b) (h2 : main_v0 ≠ b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.nary_writes, Finset.mem_singleton]
    exact ⟨(StableHlo.devRef_ne_of_ne h0).symm, (StableHlo.devRef_ne_of_ne h1).symm, (StableHlo.devRef_ne_of_ne h2).symm⟩))

theorem V1_main_arg0 (c : Dev nD) : V1 m ρ c main_arg0 = m ((c : Thread nD τ).loc main_arg0) :=
  W1_of_not_written m ρ c main_arg0 (by decide) (by decide) (by decide)

theorem V1_main_v0 (c : Dev nD) : V1 m ρ c main_v0 = concatenate S1024x192 1 [⟨S1024x64, m ((c : Thread nD τ).loc main_arg1)⟩, ⟨S1024x64, m ((c : Thread nD τ).loc main_arg2)⟩, ⟨S1024x64, m ((c : Thread nD τ).loc main_arg3)⟩] concatenates_S1024x64_S1024x64_S1024x64_S1024x192_d1 := by
  dsimp only [V1, W1, hostOps0]; after_results; rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (F := 𝔽) (V1 m ρ) c).arrAt_in 0 rfl _).trans (A_eq0 (V1 m ρ) c 0))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of_not_written m ρ c main_arg1 (by decide) (by decide) (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of_not_written m ρ c main_arg2 (by decide) (by decide) (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of_not_written m ρ c main_arg3 (by decide) (by decide) (by decide)

/-- The result array at the return: what the second region's write-backs leave in its output window's array. -/
theorem W3_main_v2 (c : Dev nD) : W3 m ρ c (Proc.devRef .tc main_v2) = (dat1 (V2 m ρ) c).arrAt 3 cfgM.N :=
  W3_arr m ρ c 3

/-- The three projections the second region reads: what the first region's write-backs leave in its output windows' arrays. -/
theorem V2_main_v1_0 (c : Dev nD) : V2 m ρ c main_v1_0 = (dat0 (F := 𝔽) (V1 m ρ) c).arrAt 2 cfg0.N := W2_arr m ρ c 2
theorem V2_main_v1_1 (c : Dev nD) : V2 m ρ c main_v1_1 = (dat0 (F := 𝔽) (V1 m ρ) c).arrAt 3 cfg0.N := W2_arr m ρ c 3
theorem V2_main_v1_2 (c : Dev nD) : V2 m ρ c main_v1_2 = (dat0 (F := 𝔽) (V1 m ρ) c).arrAt 4 cfg0.N := W2_arr m ρ c 4

/-- The second region finds its two tables at the contents the host operations wrote: the first region writes neither. -/
theorem V2_pre (c : Dev nD) (k : Fin pre1.K) : V2 m ρ c (pre1.ref k) = tblC k := by
  match k with
  | ⟨0, _⟩ =>
    refine (W2_of_ne m ρ c main_c (by decide)).trans ?_
    show StableHlo.after hostOps0 (W0 m ρ c) (Proc.devRef .tc main_c) = _
    dsimp only [hostOps0]; after_results; rfl
  | ⟨1, _⟩ =>
    refine (W2_of_ne m ρ c main_c_0 (by decide)).trans ?_
    show StableHlo.after hostOps0 (W0 m ρ c) (Proc.devRef .tc main_c_0) = _
    dsimp only [hostOps0]; after_results; rfl

/-! ## The proof data family and the thread state -/

/-- The tables' admissible contents: the first pipeline has none, the second the two constant tables. -/
abbrev adm : (p : Fin 2) → (pcfgs (F := 𝔽) p).Adm
  | ⟨0, _⟩ => cfg0.toPCfg_adm
  | ⟨1, _⟩ => adm1
/-- Each pipeline's proof data at its region's entry contents. -/
def pdats : (p : Fin 2) → (c : Dev nD) → Dat τ (Elt 𝔽) Unit ℕ (UR sig nD τ) ℕ (Pipeline.pin (pcfgs (F := 𝔽)) adm p) c
  | ⟨0, _⟩ => fun c => dat0 (F := 𝔽) (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt 𝔽))) (hsub : ops.Forall fun op => op.bufs ⊆ StableHlo.tcRefs τ sig)
    (hfresh : ops.Forall fun op => op.fresh = ∅) (W : Dev nD → Valuation τ sig (Elt 𝔽)) :
    Pipeline.HostSeg (Name := ℕ) (U := UR sig nD τ) (pcfgs (F := 𝔽)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt 𝔽))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at W1, left at W2. Its arrays are split out of the unscoped
    buffers and put back at the exit contents; the generator register passes through the class invariant. -/
def reg0 : Pipeline.RegionSeg (pcfgs (F := 𝔽)) adm (pdats m ρ) () defs₀ 𝒱₀ L lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (body_obligation0 (F := 𝔽) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := 𝔽)) adm (pdats m ρ) (launch0 (F := 𝔽)).win (launch0 (F := 𝔽)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers that are no array of the second region are its two tables at their contents and the rest. -/
theorem unscopedRest1_split (c : Dev nD) :
    (Pipeline.unscopedRest (Ix := Unit) (Name := ℕ) (U := UR sig nD τ) (Lvl := ℕ) spec1 c (V2 m ρ c) : sProp 𝕄)
      = iprop(Pipeline.prefHeld (Ix := Unit) (Name := ℕ) (U := UR sig nD τ) (Lvl := ℕ) pre1 c (fun _ => fullShare) tblC
          ∗ Pipeline.unscopedRestP (Ix := Unit) (Name := ℕ) (U := UR sig nD τ) (Lvl := ℕ) pre1 spec1 c (V2 m ρ c)) := by
  rw [Pipeline.unscopedRest_split preFacts1 c (V2 m ρ c), show (fun k => V2 m ρ c (pre1.ref k)) = tblC from funext (V2_pre m ρ c)]

set_option backward.isDefEq.respectTransparency.types false in
/-- The second region: entered from every unscoped buffer at W2, left at W3. Its arrays and its two tables are split
    out of the unscoped buffers; the tables and the generator register enter the region's invariant and come back
    from it; the arrays are put back at the exit contents beside the tables and the rest. -/
def reg1 : Pipeline.RegionSeg (pcfgs (F := 𝔽)) adm (pdats m ρ) () defs₀ 𝒱₀ L lv 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) tblC)
  Z c := Pipeline.unscopedRestP (Ix := Unit) (Name := ℕ) (U := UR sig nD τ) (Lvl := ℕ) pre1 spec1 c (V2 m ρ c)
  hentry c := by
    rw [Pipeline.ownSems0_none]
    have hsplit := Pipeline.arrays_of_unscopedBufs (p := 1) (pcfgs (F := 𝔽)) adm (pdats m ρ) (launch1 (F := 𝔽)).win (launch1 (F := 𝔽)).arr_whole c
      ((pdats m ρ 1 c).share_full fun _ => rfl) (V2 m ρ c) fun _ => rfl
    rw [Pipeline.unscopedBufs_held] at hsplit
    have hrest := unscopedRest1_split m ρ c
    iintro ⟨⟨Hub, Hp, HO⟩, -, -⟩
    ihave H := hsplit $$ Hub
    icases H with ⟨Ha, Hrest⟩
    ihave Hrest' := (Entails.of_eq hrest) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V2 m ρ) c
  hout c := by
    rw [Pipeline.ownSems0_none]
    refine (hout1 (V2 m ρ) c).trans ?_
    iintro ⟨HY, Hs⟩
    isplitl [HY]; · iexact HY
    isplitr; · iempintro
    iexact Hs
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m ρ) ((pdats m ρ 1 c).share_full fun _ => rfl)
      (V2 m ρ c) (V3 m ρ c) ((pdats m ρ 1 c).arrAt · cfgM.N) (hF1 m ρ c) (hrest1 m ρ c)
    rw [Pipeline.unscopedBufs_held] at hjoin
    have hrest := unscopedRest1_split m ρ c
    iintro ⟨Ha, HO, ⟨Hp, Ht⟩, Hrest⟩
    ihave Hrest' := (Entails.of_eq hrest.symm) $$ [Ht Hrest]
    · isplitl [Ht] <;> iassumption
    imodintro
    isplitl [Ha Hrest' Hp]
    · isplitl [Ha Hrest']
      · iapply hjoin; isplitl [Ha] <;> iassumption
      iexact Hp
    unfold Pipeline.Dat.owesAt Pipeline.owesWithin
    icases HO with ⟨%W, -, HO⟩; iexists W; iexact HO

/-! ## The program as segments, and the launch -/

/-- The program's three segments in order: the host operations from the launch contents, then the two regions. -/
abbrev segs : List (Pipeline.Seg (pcfgs (F := 𝔽)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := 𝔽) c = Pipeline.Seg.run (segs m ρ) := (main_chain c).trans (by chain_rfl)

set_option backward.isDefEq.respectTransparency.types false in
/-- THE RUN: at the compiled mesh, from any memory with zero counters, every weakly fair execution of the program
    terminates, nothing faulting, and every final state holds at every unscoped buffer of every core the last
    boundary's contents. -/
theorem run_all : θ_run defs (onTc (τ := τ) (main (F := 𝔽))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := 𝔽)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := 𝔽)) adm) (cellOf_inj adm)) (Pipeline.launchToks (Pipeline.pin (pcfgs (F := 𝔽)) adm) (cellOf_inj adm)))
    (hu₀ := by
      iintro Hu; imodintro
      isplitl [Hu]
      · iapply (show (ownU (initOf (Pipeline.cells (Pipeline.pin (pcfgs (F := 𝔽)) adm) (cellOf_inj adm)) (Pipeline.launchToks (Pipeline.pin (pcfgs (F := 𝔽)) adm) (cellOf_inj adm))) : sProp 𝕄)
            ⊢ BI.own (emb₁ (initOf (Pipeline.cells (Pipeline.pin (pcfgs (F := 𝔽)) adm) (cellOf_inj adm)) (Pipeline.launchToks (Pipeline.pin (pcfgs (F := 𝔽)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every final state has the four argument arrays as launched. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Gen

end
-- ==== Proof.KIRegion0.lean ====
/-
  The projection kernel's region (the first of the program's two grid regions, an 8 × 4 grid): its proof data and
  its body obligation, at any float instance.

  At every grid point the body reads the x block X : [1,1024,1024] and the whole weight block W : [1024,192],
  forms the one product P = bf16(X) · bf16(W) accumulated in f32 (k0_pay1), and leaves in the three output blocks
  [1,1024,64] the column slices P[:, 0:64], P[:, 64:128], P[:, 128:192], each rounded to bf16 (k0_pay2, k0_pay3,
  k0_pay4 of the two blocks read). The input blocks are left in place. The weight window has one block for the
  whole grid: it is the same block at every point, moved or not.
-/
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the x block) holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights: one block, fetched at the first point only) holds its block at every point:
    where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the unit rectangle at zero offsets -/

private theorem hz3 : (![0, 0, 0] : Fin 3 → ℕ) = fun _ => 0 := by funext a; fin_cases a <;> rfl
private theorem hz2 : (![0, 0] : Fin 2 → ℕ) = fun _ => 0 := by funext a; fin_cases a <;> rfl

/-- The one store into an output buffer covers it. -/
private theorem cover_out (p : Vec F S1x1024x64 .bf16) (y : S1x1024x64.Idx) :
    ∃ pc ∈ ([⟨Rect.unit (s := S1x1024x64) ![0, 0, 0] S1x1024x64.size inb_S1x1024x64_S1x1024x64_0_0_0, p⟩] : List (View.Piece (Elt F) S1x1024x64 .bf16)), y ∈ pc.1.set :=
  ⟨_, List.mem_singleton_self _, View.mem_set_unit_zero hz3 inb_S1x1024x64_S1x1024x64_0_0_0 y⟩

/-- What an output buffer reads after the body's one store into it, over any prior contents: the store's payload,
    a function of what the two input buffers read. -/
private theorem read_out (arg2 : Memref sig .tc .vmem S1x1024x1024 .f32) (arg3 : Memref sig .tc .vmem S1024x192 .f32)
    (arg : Memref sig .tc .vmem S1x1024x64 .bf16) (f : arg.view.ty.Contents (Elt F))
    (f2 : arg2.view.ty.Contents (Elt F)) (f3 : arg3.view.ty.Contents (Elt F))
    (pay : Vec F S1x1024x1024 .f32 → Vec F S1024x192 .f32 → FVec F S1x1024x64 .bf16) :
    arg.view.read (Elt F) (arg.view.writes (Elt F) f
        [⟨Rect.unit (s := S1x1024x64) ![0, 0, 0] S1x1024x64.size inb_S1x1024x64_S1x1024x64_0_0_0,
          pay (arg2.view.readAt (Elt F) (Rect.unit (s := S1x1024x1024) ![0, 0, 0] S1x1024x1024.size inb_S1x1024x1024_S1x1024x1024_0_0_0).toLoadRect f2)
              (arg3.view.readAt (Elt F) (Rect.unit (s := S1024x192) ![0, 0] S1024x192.size inb_S1024x192_S1024x192_0_0).toLoadRect f3)⟩])
      = pay (arg2.view.read (Elt F) f2) (arg3.view.read (Elt F) f3) := by
  have e2 : arg2.view.readAt (Elt F) (Rect.unit (s := S1x1024x1024) ![0, 0, 0] S1x1024x1024.size inb_S1x1024x1024_S1x1024x1024_0_0_0).toLoadRect f2
      = arg2.view.read (Elt F) f2 :=
    (View.readAt_eq_ld _ _ _).trans (View.ld_unit_zero hz3 inb_S1x1024x1024_S1x1024x1024_0_0_0 _)
  have e3 : arg3.view.readAt (Elt F) (Rect.unit (s := S1024x192) ![0, 0] S1024x192.size inb_S1024x192_S1024x192_0_0).toLoadRect f3
      = arg3.view.read (Elt F) f3 :=
    (View.readAt_eq_ld _ _ _).trans (View.ld_unit_zero hz2 inb_S1024x192_S1024x192_0_0 _)
  rw [View.read_writes_eq_canon _ _ _ (cover_out _), View.canon_unit_zero hz3, e2, e3]

/-! ## The body's triple -/

set_option maxHeartbeats 1000000 in
/-- The kernel body on whole staging memrefs, the inputs' at read contents x0, x1 and the outputs' at anything, runs
    to the continuation holding the inputs' as they were and the three outputs' at the skeleton's payloads 2, 3, 4 of
    the inputs': the three bf16 column slices of the one product. -/
theorem sound_kernel0 (c : Dev nD) (E : Set ℕ) (i : grid0.Coords)
    (arg2 : Memref sig .tc .vmem S1x1024x1024 .f32) (harg2 : arg2.IsWhole) (arg3 : Memref sig .tc .vmem S1024x192 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay3 x0 x1)
            ∗ owns (c : Thread nD τ) arg6 fullShare (k0_pay4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f2, %hf2, H2⟩, ⟨%f3, %hf3, H3⟩, ⟨%d4, %f4, -, H4⟩, ⟨%d5, %f5, -, H5⟩, ⟨%d6, %f6, -, H6⟩, Hk⟩
  subst hf2
  subst hf3
  sl_exec
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_out arg2 arg3 arg4 f4 f2 f3 k0_pay2
  isplitl [H5]
  · iexists _; isplitr
    swap; · iexact H5
    ipureintro
    exact read_out arg2 arg3 arg5 f5 f2 f3 k0_pay3
  iexists _; isplitr
  swap; · iexact H6
  ipureintro
  exact read_out arg2 arg3 arg6 f6 f2 f3 k0_pay4

/-! ## The pipeline's proof data -/

/-- The proof data of the region on core c: the arrays as the region finds them; after the body at point t each
    input's buffer at its block and each output's at the skeleton's payload (2, 3, 4) of the two input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t)
    | ⟨3, _⟩ => k0_pay3 (iblk0 V c 0 t) (iblk0 V c 1 t)
    | ⟨4, _⟩ => k0_pay4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (iblk0 V c 0 t) (iblk0 V c 1 t) := by dsimp only [dat0]
theorem after0_3 (c : Dev nD) (t : Fin cfg0.N) : (dat0 V c).after 3 t = k0_pay3 (iblk0 V c 0 t) (iblk0 V c 1 t) := by dsimp only [dat0]
theorem after0_4 (c : Dev nD) (t : Fin cfg0.N) : (dat0 V c).after 4 t = k0_pay4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KIR1Defs.lean ====
/-
  The attention kernel's control: the two words a grid point reads from the tables — its query tile and its key tile —
  and the three conditions the body branches on: the key tile is the first one (reset the carried values), the key tile
  is before the query tile (fold an unmasked tile), the key tile is the query tile (fold the masked diagonal tile and
  write the result). Also: a buffer stored once, or twice, through its whole rectangle reads back as the last payload.
-/
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word a table holds at the grid point's position along the second grid axis. -/
abbrev wordAt (i : grid1.Coords) (a : Memref sig .tc .smem S10 .i32) (ha : a.IsWhole) (t : Vec F S10 .i32) : Elt F .i32 :=
  a.view.readAt (Elt F) (Rect.unit (s := S10) (k1_off1 i) S1.size (k1_off1_inb i)).toLoadRect (ha.unread t) (Shape.Idx.first (numel1_S1.symm ▸ Nat.one_pos))

/-- The three branch conditions, of the query-tile word wq and the key-tile word wk: first key tile; key tile before the
    query tile; key tile the query tile. -/
abbrev condInit (wk : BitVec 32) : Prop := Scalar.cmpi .ne (Scalar.extui (Scalar.cmpi .eq wk 0#32)) 0#32 = 1#1
abbrev condLt (wq wk : BitVec 32) : Prop := Scalar.cmpi .ne (Scalar.extui (Scalar.cmpi .slt wk wq)) 0#32 = 1#1
abbrev condEq (wq wk : BitVec 32) : Prop := k1_cond3 wq wk = 1#1

theorem hz3 : (![0, 0, 0] : Fin 3 → ℕ) = fun _ => 0 := by funext a; fin_cases a <;> rfl

/-- A buffer written once through its whole rectangle reads as the payload. -/
theorem read_writes_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-- Written twice through its whole rectangle, it reads as the later payload. -/
theorem read_writes_whole₂ {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self .., View.mem_set_unit_zero h inb y⟩), View.canon_cons_unit_zero h]

end Cert.KernelIdeal.Gen

end
-- ==== Proof.KIR1Sched.lean ====
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«410793_j34746285425245_3_alg».proof.Proof.KIR1Defs

set_option maxRecDepth 16384
set_option Elab.async false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Ideal

local notation "𝕄" => MT nD τ sig Unit (Elt 𝔽) ℕ (UR sig nD τ) ℕ

/-! # The second region's pipeline at its tables

The attention kernel's grid is 8 batches × 10 steps; the ten steps walk the lower triangle of a 4 × 4 grid of
(query tile, key tile) pairs row by row, the pairs read from two constant tables of ten words. Everything the
pipeline's schedule needs of those tables is decided here, once, over the 80 grid points. -/

/-- The two tables' contents: for each of the ten steps, the query tile and the key tile. -/
def tblC : pre1.Contents (Elt 𝔽) := fun k => match k with
  | ⟨0, _⟩ => fun i => lit0 (S10.rowMajor i)
  | ⟨1, _⟩ => fun i => lit1 (S10.rowMajor i)

/-- Every block the tables name lies inside its array. -/
theorem ok_tblC : ok1 (F := 𝔽) tblC := by decide +kernel

/-- The tables as admissible contents, and the pipeline at them. -/
abbrev adm1 : (pcfg1 (F := 𝔽)).Adm := ⟨tblC, ok_tblC⟩
abbrev cfgM : Pipeline.Cfg sig Λ₀ := cfg1 (F := 𝔽) adm1

theorem N_M : cfgM.N = 80 := by decide

/-- The query tile and the key tile of step n (mod 10). -/
def qiN (n : ℕ) : ℕ := [0,1,1,2,2,2,3,3,3,3].getD (n % 10) 0
def kiN (n : ℕ) : ℕ := [0,0,1,0,1,2,0,1,2,3].getD (n % 10) 0

theorem kiN_le_qiN (n : ℕ) : kiN n ≤ qiN n := by
  have h : ∀ k : Fin 10, [0,0,1,0,1,2,0,1,2,3].getD k.val 0 ≤ [0,1,1,2,2,2,3,3,3,3].getD k.val 0 := by decide
  exact h ⟨n % 10, Nat.mod_lt _ (by decide)⟩

/-! ## The output window: idle off the diagonal, written back exactly at the diagonal steps -/

theorem idle3 : ∀ t : Fin cfgM.N, cfgM.idle 3 (cfgM.grid.coords t) = !(decide (qiN t.val = kiN t.val)) := by decide +kernel
theorem flush3 : ∀ t : Fin cfgM.N, (cfgM.win 3).flush t = decide (qiN t.val = kiN t.val) := by decide +kernel

/-! ## The blocks the windows name -/

theorem index0 : ∀ t : Fin cfgM.N, (cfgM.win 0).index t = ![t.val / 10, qiN t.val, 0] := by decide +kernel
theorem index1 : ∀ t : Fin cfgM.N, (cfgM.win 1).index t = ![t.val / 10, kiN t.val, 0] := by decide +kernel
theorem index2 : ∀ t : Fin cfgM.N, (cfgM.win 2).index t = ![t.val / 10, kiN t.val, 0] := by decide +kernel
theorem index3 : ∀ t : Fin cfgM.N, (cfgM.win 3).index t = ![t.val / 10, qiN t.val, 0] := by decide +kernel

/-! ## The words the body reads, and its three conditions at them -/

/-- The tables as the body is handed them. -/
abbrev tbM0 : Memref sig .tc .smem S10 .i32 := Memref.whole main_c
abbrev tbM1 : Memref sig .tc .smem S10 .i32 := Memref.whole main_c_0

/-- The word of a table at a step, as a value. -/
theorem word_eq (i : grid1.Coords) (a : Memref sig .tc .smem S10 .i32) (ha : a.IsWhole) (t : Vec 𝔽 S10 .i32) :
    wordAt (F := 𝔽) i a ha t = t ((Rect.unit (s := S10) (k1_off1 i) S1.size (k1_off1_inb i)).toLoadRect.idx (Shape.Idx.first (numel1_S1.symm ▸ Nat.one_pos))) := by
  unfold wordAt
  rw [View.readAt_eq_ld, ha.read_unread]

/-- The query-tile word and the key-tile word of point `t`, read off the tables. -/
def wQ (t : Fin cfgM.N) : BitVec 32 := tblC 0 ((Rect.unit (s := S10) (k1_off1 (cfgM.grid.coords t)) S1.size (k1_off1_inb (cfgM.grid.coords t))).toLoadRect.idx (Shape.Idx.first (numel1_S1.symm ▸ Nat.one_pos)))
def wK (t : Fin cfgM.N) : BitVec 32 := tblC 1 ((Rect.unit (s := S10) (k1_off1 (cfgM.grid.coords t)) S1.size (k1_off1_inb (cfgM.grid.coords t))).toLoadRect.idx (Shape.Idx.first (numel1_S1.symm ▸ Nat.one_pos)))
theorem wordQ_val : ∀ t : Fin cfgM.N, wQ t = BitVec.ofNat 32 (qiN t.val) := by decide +kernel
theorem wordK_val : ∀ t : Fin cfgM.N, wK t = BitVec.ofNat 32 (kiN t.val) := by decide +kernel

theorem wordQ (t : Fin cfgM.N) : wordAt (F := 𝔽) (cfgM.grid.coords t) tbM0 (Memref.isWhole_whole _) (tblC 0) = BitVec.ofNat 32 (qiN t.val) :=
  (word_eq _ _ _ _).trans (show wQ t = _ from wordQ_val t)
theorem wordK (t : Fin cfgM.N) : wordAt (F := 𝔽) (cfgM.grid.coords t) tbM1 (Memref.isWhole_whole _) (tblC 1) = BitVec.ofNat 32 (kiN t.val) :=
  (word_eq _ _ _ _).trans (show wK t = _ from wordK_val t)

theorem condInit_iff : ∀ t : Fin cfgM.N, condInit (BitVec.ofNat 32 (kiN t.val)) ↔ kiN t.val = 0 := by decide +kernel
theorem condLt_iff : ∀ t : Fin cfgM.N, condLt (BitVec.ofNat 32 (qiN t.val)) (BitVec.ofNat 32 (kiN t.val)) ↔ kiN t.val < qiN t.val := by decide +kernel
theorem condEq_iff : ∀ t : Fin cfgM.N, condEq (BitVec.ofNat 32 (qiN t.val)) (BitVec.ofNat 32 (kiN t.val)) ↔ qiN t.val = kiN t.val := by decide +kernel

/-! ## The staging memrefs at a point, the scratch operands, the body as the pipeline calls it -/

abbrev ms1_0 (t : Fin cfgM.N) : Memref sig .tc .vmem S1x1024x64 .bf16 := spec1_0.stage (cfgM.slots t 0)
abbrev hs1_0 (t : Fin cfgM.N) : (ms1_0 t).IsWhole := hstage1_0 ((cfgM.slots t 0).cast nbuf1_0)
abbrev ms1_1 (t : Fin cfgM.N) : Memref sig .tc .vmem S1x1024x64 .bf16 := spec1_1.stage (cfgM.slots t 1)
abbrev hs1_1 (t : Fin cfgM.N) : (ms1_1 t).IsWhole := hstage1_1 ((cfgM.slots t 1).cast nbuf1_1)
abbrev ms1_2 (t : Fin cfgM.N) : Memref sig .tc .vmem S1x1024x64 .bf16 := spec1_2.stage (cfgM.slots t 2)
abbrev hs1_2 (t : Fin cfgM.N) : (ms1_2 t).IsWhole := hstage1_2 ((cfgM.slots t 2).cast nbuf1_2)
abbrev ms1_3 (t : Fin cfgM.N) : Memref sig .tc .vmem S1x1024x64 .f32 := spec1_3.stage (cfgM.slots t 3)
abbrev hs1_3 (t : Fin cfgM.N) : (ms1_3 t).IsWhole := hstage1_3 ((cfgM.slots t 3).cast nbuf1_3)

/-- The three values the kernel carries from point to point live in three scratch buffers. -/
abbrev scM0 : Memref sig .tc .vmem S1x1024x1 .f32 := Memref.whole cc1_scratch0
abbrev scM1 : Memref sig .tc .vmem S1x1024x1 .f32 := Memref.whole cc1_scratch1
abbrev scM2 : Memref sig .tc .vmem S1x1024x64 .f32 := Memref.whole cc1_scratch2

/-- The kernel body at point `t`, on what the pipeline calls it with. -/
abbrev bodyAt1 (t : Fin cfgM.N) : Prog (TpuEff nD τ sig (Elt 𝔽) Λ₀ .tc) PUnit :=
  cc1__attn_kernel (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)

theorem bodyAt1_eq (t : Fin cfgM.N) : defs₀ (F := 𝔽) .tc cfgM.body (cfgM.bodyArgs t (cfgM.slots t)) = bodyAt1 t := rfl

end Cert.KernelIdeal.Gen

end
-- ==== Proof.KIStep.lean ====
/-
  One grid point of the attention kernel as pure functions of the blocks it loads and the three values it carries:
  the running row maximum m, the running denominator l and the running numerator a.

  Off the diagonal (key tile strictly before the query tile) the scores are used as they are; on the diagonal tile the
  entries above the diagonal are replaced by the fill value first, and the result block a / l is produced.
-/
import proofs.«410793_j34746285425245_3_alg».proof.Proof.Gen.KernelIdeal.Skeleton

noncomputable section

namespace Cert.KernelIdeal.Gen

open Idealize.ShloMosaic Idealize.SL.Sem

variable {F : FTy → Type} [FloatOps F] [Named F]

/-- The carried values at the first key tile of a query tile: maximum at the fill value, sums at zero. -/
abbrev mInit : Vec F S1x1024x1 .f32 := k1_pay1
abbrev lInit : Vec F S1x1024x1 .f32 := k1_pay2
abbrev aInit : Vec F S1x1024x64 .f32 := k1_pay3

/-- An off-diagonal key tile folded in: the new maximum, denominator and numerator. -/
def mOff (q k : Vec F S1x1024x64 .bf16) (m : Vec F S1x1024x1 .f32) : Vec F S1x1024x1 .f32 := k1_pay12 q k m
def lOff (q k : Vec F S1x1024x64 .bf16) (m l : Vec F S1x1024x1 .f32) : Vec F S1x1024x1 .f32 := k1_pay10 q k m l
def aOff (q k v : Vec F S1x1024x64 .bf16) (m : Vec F S1x1024x1 .f32) (a : Vec F S1x1024x64 .f32) : Vec F S1x1024x64 .f32 :=
  k1_pay11 q k v m a

/-- The diagonal key tile folded in (entries above the diagonal filled first). -/
def mDg (q k : Vec F S1x1024x64 .bf16) (m : Vec F S1x1024x1 .f32) : Vec F S1x1024x1 .f32 :=
  k1_pay13 (k1_pay17 (k1_pay5 q k) m)
def lDg (q k : Vec F S1x1024x64 .bf16) (m l : Vec F S1x1024x1 .f32) : Vec F S1x1024x1 .f32 := k1_pay20 (k1_pay5 q k) m l
def aDg (q k v : Vec F S1x1024x64 .bf16) (m : Vec F S1x1024x1 .f32) (a : Vec F S1x1024x64 .f32) : Vec F S1x1024x64 .f32 :=
  k1_pay21 (k1_pay4 v) (k1_pay5 q k) m a
/-- The result block the diagonal point writes: numerator over denominator. -/
def oDg (q k v : Vec F S1x1024x64 .bf16) (m l : Vec F S1x1024x1 .f32) (a : Vec F S1x1024x64 .f32) : Vec F S1x1024x64 .f32 :=
  k1_pay14 (aDg q k v m a) (lDg q k m l)

end Cert.KernelIdeal.Gen

end
-- ==== Proof.KIR1Body.lean ====
/-
  The attention kernel's body at one grid point, case by case, as a separation-logic triple over its nine buffers (two
  tables, the query / key / value blocks, the result block, and the three scratch buffers that carry the row maximum m,
  the denominator l and the numerator a):
    off the diagonal, past the first key tile:  (m, l, a) ↦ (mOff, lOff, aOff) of the blocks, the result block untouched;
    off the diagonal, at the first key tile:    the same from the reset values, whatever the scratch held;
    on the diagonal, past the first key tile:   (m, l, a) ↦ (mDg, lDg, aDg) with the entries above the diagonal filled,
                                                and the result block a / l written;
    on the diagonal at the first key tile:      the same from the reset values.
  Each case's branch conditions are hypotheses on the two table words.
-/
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«410793_j34746285425245_3_alg».proof.Proof.KIStep
import proofs.«410793_j34746285425245_3_alg».proof.Proof.KIR1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A point past the first key tile, off the diagonal: the three carried values are updated, the output block untouched. -/
theorem run_offK (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : ¬ condInit (wordAt i arg3 harg3 t1)) (hB : condLt (wordAt i arg2 harg2 t0) (wordAt i arg3 harg3 t1)) (hC : ¬ condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo
          ∗ owns (c : Thread nD τ) arg8 fullShare (mOff xq xk xm) ∗ owns (c : Thread nD τ) arg9 fullShare (lOff xq xk xm xl) ∗ owns (c : Thread nD τ) arg10 fullShare (aOff xq xk xv xm xa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole _ _ hz3]
    simp only [mOff, View.readAt_eq_ld, Memref.IsWhole.read_unread, View.ld_unit_zero (S := S1x1024x64) hz3, View.ld_unit_zero (S := S1x1024x1) hz3]
  isplitl [H7]
  · iexists _; isplitr; swap; · iexact H7
    ipureintro
    rw [read_writes_whole _ _ hz3]
    simp only [lOff, View.readAt_eq_ld, Memref.IsWhole.read_unread, View.ld_unit_zero (S := S1x1024x64) hz3, View.ld_unit_zero (S := S1x1024x1) hz3]
  iexists _; isplitr; swap; · iexact H8
  ipureintro
  rw [read_writes_whole _ _ hz3]
  simp only [aOff, View.readAt_eq_ld, Memref.IsWhole.read_unread, View.ld_unit_zero (S := S1x1024x64) hz3, View.ld_unit_zero (S := S1x1024x1) hz3]

set_option maxHeartbeats 4000000 in
/-- The first key tile, off the diagonal: the carried values are reset, then updated; the output block is untouched. -/
theorem run_initOff (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : condInit (wordAt i arg3 harg3 t1)) (hB : condLt (wordAt i arg2 harg2 t0) (wordAt i arg3 harg3 t1)) (hC : ¬ condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo
          ∗ owns (c : Thread nD τ) arg8 fullShare (mOff xq xk mInit) ∗ owns (c : Thread nD τ) arg9 fullShare (lOff xq xk mInit lInit) ∗ owns (c : Thread nD τ) arg10 fullShare (aOff xq xk xv mInit aInit)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole₂ _ _ hz3]
    sl_unfold_run_names
    simp only [mOff, View.readAt_eq_ld, Memref.IsWhole.read_unread, View.ld_unit_zero (S := S1x1024x64) hz3, View.ld_unit_zero (S := S1x1024x1) hz3, View.readCov_cons_toLoadRect]
  isplitl [H7]
  · iexists _; isplitr; swap; · iexact H7
    ipureintro
    rw [read_writes_whole₂ _ _ hz3]
    sl_unfold_run_names
    simp only [lOff, View.readAt_eq_ld, Memref.IsWhole.read_unread, View.ld_unit_zero (S := S1x1024x64) hz3, View.ld_unit_zero (S := S1x1024x1) hz3, View.readCov_cons_toLoadRect]
  iexists _; isplitr; swap; · iexact H8
  · ipureintro
    rw [read_writes_whole₂ _ _ hz3]
    sl_unfold_run_names
    simp only [aOff, View.readAt_eq_ld, Memref.IsWhole.read_unread, View.ld_unit_zero (S := S1x1024x64) hz3, View.ld_unit_zero (S := S1x1024x1) hz3, View.readCov_cons_toLoadRect]

set_option maxHeartbeats 4000000 in
/-- A point past the first key tile, on the diagonal: the carried values are updated and the result block written. -/
theorem run_diagK (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : ¬ condInit (wordAt i arg3 harg3 t1)) (hB : ¬ condLt (wordAt i arg2 harg2 t0) (wordAt i arg3 harg3 t1)) (hC : condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare (oDg xq xk xv xm xl xa)
          ∗ owns (c : Thread nD τ) arg8 fullShare (mDg xq xk xm) ∗ owns (c : Thread nD τ) arg9 fullShare (lDg xq xk xm xl) ∗ owns (c : Thread nD τ) arg10 fullShare (aDg xq xk xv xm xa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_writes_whole _ _ hz3]
    sl_unfold_run_names
    simp only [oDg, aDg, lDg, View.readAt_eq_ld, Memref.IsWhole.read_unread, View.ld_unit_zero (S := S1x1024x64) hz3, View.ld_unit_zero (S := S1x1024x1) hz3, View.readCov_cons_toLoadRect]
  isplitl [H6]
  · iexists _; isplitr; swap; · iexact H6
    ipureintro
    rw [read_writes_whole _ _ hz3]
    sl_unfold_run_names
    simp only [mDg, View.readAt_eq_ld, Memref.IsWhole.read_unread, View.ld_unit_zero (S := S1x1024x64) hz3, View.ld_unit_zero (S := S1x1024x1) hz3, View.readCov_cons_toLoadRect]
  isplitl [H7]
  · iexists _; isplitr; swap; · iexact H7
    ipureintro
    sl_unfold_run_names
    rw [read_writes_whole _ _ hz3]
    simp only [lDg, View.readAt_eq_ld, Memref.IsWhole.read_unread, View.ld_unit_zero (S := S1x1024x64) hz3, View.ld_unit_zero (S := S1x1024x1) hz3, View.readCov_cons_toLoadRect]
  iexists _; isplitr; swap; · iexact H8
  · ipureintro
    sl_unfold_run_names
    rw [read_writes_whole _ _ hz3]
    simp only [aDg, View.readAt_eq_ld, Memref.IsWhole.read_unread, View.ld_unit_zero (S := S1x1024x64) hz3, View.ld_unit_zero (S := S1x1024x1) hz3, View.readCov_cons_toLoadRect]

set_option maxHeartbeats 4000000 in
/-- The first key tile, on the diagonal: the carried values are reset, then updated, and the result block written. -/
theorem run_initDiag (c : Dev nD) (i : grid1.Coords) (arg2 : Memref sig .tc .smem S10 .i32) (harg2 : arg2.IsWhole) (arg3 : Memref sig .tc .smem S10 .i32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x64 .f32) (harg10 : arg10.IsWhole)
    (t0 t1 : Vec F S10 .i32) (xq xk xv : Vec F S1x1024x64 .bf16) (xo : Vec F S1x1024x64 .f32) (xm xl : Vec F S1x1024x1 .f32) (xa : Vec F S1x1024x64 .f32)
    (hA : condInit (wordAt i arg3 harg3 t1)) (hB : ¬ condLt (wordAt i arg2 harg2 t0) (wordAt i arg3 harg3 t1)) (hC : condEq (wordAt i arg2 harg2 t0) (wordAt i arg3 harg3 t1))
    (E : Set ℕ) (K : PUnit → sProp 𝕄) :
    iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xm ∗ owns (c : Thread nD τ) arg9 fullShare xl ∗ owns (c : Thread nD τ) arg10 fullShare xa
      ∗ (iprop(owns (c : Thread nD τ) arg2 fullShare t0 ∗ owns (c : Thread nD τ) arg3 fullShare t1 ∗ owns (c : Thread nD τ) arg4 fullShare xq ∗ owns (c : Thread nD τ) arg5 fullShare xk ∗ owns (c : Thread nD τ) arg6 fullShare xv ∗ owns (c : Thread nD τ) arg7 fullShare (oDg xq xk xv mInit lInit aInit)
          ∗ owns (c : Thread nD τ) arg8 fullShare (mDg xq xk mInit) ∗ owns (c : Thread nD τ) arg9 fullShare (lDg xq xk mInit lInit) ∗ owns (c : Thread nD τ) arg10 fullShare (aDg xq xk xv mInit aInit)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hA | sl_exact hB | sl_exact hC)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_writes_whole _ _ hz3]
    sl_unfold_run_names
    simp only [oDg, aDg, lDg, View.readAt_eq_ld, Memref.IsWhole.read_unread, View.ld_unit_zero (S := S1x1024x64) hz3, View.ld_unit_zero (S := S1x1024x1) hz3, View.readCov_cons_toLoadRect]
  isplitl [H6]
  · iexists _; isplitr; swap; · iexact H6
    ipureintro
    rw [read_writes_whole₂ _ _ hz3]
    sl_unfold_run_names
    simp only [mDg, View.readAt_eq_ld, Memref.IsWhole.read_unread, View.ld_unit_zero (S := S1x1024x64) hz3, View.ld_unit_zero (S := S1x1024x1) hz3, View.readCov_cons_toLoadRect]
  isplitl [H7]
  · iexists _; isplitr; swap; · iexact H7
    ipureintro
    sl_unfold_run_names
    rw [read_writes_whole₂ _ _ hz3]
    simp only [lDg, View.readAt_eq_ld, Memref.IsWhole.read_unread, View.ld_unit_zero (S := S1x1024x64) hz3, View.ld_unit_zero (S := S1x1024x1) hz3, View.readCov_cons_toLoadRect]
  iexists _; isplitr; swap; · iexact H8
  · ipureintro
    sl_unfold_run_names
    rw [read_writes_whole₂ _ _ hz3]
    simp only [aDg, View.readAt_eq_ld, Memref.IsWhole.read_unread, View.ld_unit_zero (S := S1x1024x64) hz3, View.ld_unit_zero (S := S1x1024x1) hz3, View.readCov_cons_toLoadRect]

end Cert.KernelIdeal.Gen

end
-- ==== Proof.KIR1Dat.lean ====
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«410793_j34746285425245_3_alg».proof.Proof.KIR1Sched
import proofs.«410793_j34746285425245_3_alg».proof.Proof.KIR1Body

set_option maxRecDepth 16384
set_option pp.maxSteps 20000
set_option pp.deepTerms false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Ideal

local notation "𝕄" => MT nD τ sig Unit (Elt 𝔽) ℕ (UR sig nD τ) ℕ

/-! # The second region as proof data: what every point leaves

Per core, with the buffers' contents at the region's entry a parameter `V`: each input window's block at a point; the
three carried values after each point, by recursion on the point (reset at a first key tile, then an off-diagonal or
a diagonal fold); the result block a diagonal point writes; the invariant that holds the carried values in the three
scratch buffers between points, beside the two tables, the generator register and the other region's staging buffers. -/

section R1

variable (V : (c : Dev nD) → (b : Ref sig .tc) → Buf (Elt 𝔽) ((c : Thread nD τ).loc b))

/-- Window `w`'s block at point `t`, read off its array as the region finds it. -/
def iblk1 (c : Dev nD) (w : Fin cfgM.W) (t : Fin cfgM.N) : ((cfgM.win w).xblock (cfgM.grid.coords t)).Idx → Elt 𝔽 (cfgM.win w).elt :=
  ((cfgM.win w).blk t).view.read (Elt 𝔽) (V c (Pipeline.arrRef spec1 w))

/-- The carried values: maximum, denominator, numerator. -/
abbrev St : Type := Vec 𝔽 S1x1024x1 .f32 × Vec 𝔽 S1x1024x1 .f32 × Vec 𝔽 S1x1024x64 .f32

/-- What a point starts from: the reset values at a first key tile, else what the point before left. -/
def st0 (t : Fin cfgM.N) (s : St) : St := if kiN t.val = 0 then (mInit, lInit, aInit) else s

/-- The carried values after point `t`, from those before it. -/
def stepAt (c : Dev nD) (t : Fin cfgM.N) (s : St) : St :=
  if kiN t.val < qiN t.val then
    (mOff (iblk1 V c 0 t) (iblk1 V c 1 t) (st0 t s).1,
     lOff (iblk1 V c 0 t) (iblk1 V c 1 t) (st0 t s).1 (st0 t s).2.1,
     aOff (iblk1 V c 0 t) (iblk1 V c 1 t) (iblk1 V c 2 t) (st0 t s).1 (st0 t s).2.2)
  else
    (mDg (iblk1 V c 0 t) (iblk1 V c 1 t) (st0 t s).1,
     lDg (iblk1 V c 0 t) (iblk1 V c 1 t) (st0 t s).1 (st0 t s).2.1,
     aDg (iblk1 V c 0 t) (iblk1 V c 1 t) (iblk1 V c 2 t) (st0 t s).1 (st0 t s).2.2)

/-- The carried values before point `n` (after point `n − 1`); before the first point nothing is known and nothing is read. -/
def stAt (c : Dev nD) : ℕ → St
  | 0 => (mInit, lInit, aInit)
  | n + 1 => if h : n < cfgM.N then stepAt V c ⟨n, h⟩ (stAt c n) else stAt c n

theorem stAt_succ (c : Dev nD) (t : Fin cfgM.N) : stAt V c (t.val + 1) = stepAt V c t (stAt V c t.val) := by
  rw [stAt, dif_pos t.isLt]

/-- The result block point `t` writes (read only at the diagonal points, where the body stores it). -/
def outAt (c : Dev nD) (t : Fin cfgM.N) : Vec 𝔽 S1x1024x64 .f32 :=
  oDg (iblk1 V c 0 t) (iblk1 V c 1 t) (iblk1 V c 2 t) (st0 t (stAt V c t.val)).1 (st0 t (stAt V c t.val)).2.1 (st0 t (stAt V c t.val)).2.2

/-- The first region's nine staging buffers, each whole at some contents: scoped buffers this region does not use. -/
def stagingRest0 (c : Dev nD) : sProp 𝕄 :=
  iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg2_1), ((c : Thread nD τ).loc cc0_stg2_1) ↦{fullShare} f) ∗ (∃ f : Buf (Elt 𝔽) ((c : Thread nD τ).loc cc0_stg3_0), ((c : Thread nD τ).loc cc0_stg3_0) ↦{fullShare} f) ∗ (∃ f : Buf (Elt 𝔽) ((c : Thread nD τ).loc cc0_stg3_1), ((c : Thread nD τ).loc cc0_stg3_1) ↦{fullShare} f) ∗ (∃ f : Buf (Elt 𝔽) ((c : Thread nD τ).loc cc0_stg4_0), ((c : Thread nD τ).loc cc0_stg4_0) ↦{fullShare} f) ∗ (∃ f : Buf (Elt 𝔽) ((c : Thread nD τ).loc cc0_stg4_1), ((c : Thread nD τ).loc cc0_stg4_1) ↦{fullShare} f))

/-- What rides through every point beside the scratch: the two tables at their contents, the generator register, the other
    region's staging buffers. -/
def PhiRest (c : Dev nD) : sProp 𝕄 :=
  iprop(owns (c : Thread nD τ) tbM0 fullShare (tblC 0) ∗ owns (c : Thread nD τ) tbM1 fullShare (tblC 1) ∗ (∃ r, prngReg c r) ∗ stagingRest0 c)

/-- The region's invariant before point `n`: at the first point the scratch buffers hold anything; afterwards the carried values. -/
def PhiS (c : Dev nD) : ℕ → sProp 𝕄
  | 0 => iprop((∃ d, owns (c : Thread nD τ) scM0 fullShare d) ∗ (∃ d, owns (c : Thread nD τ) scM1 fullShare d) ∗ (∃ d, owns (c : Thread nD τ) scM2 fullShare d) ∗ PhiRest c)
  | n + 1 => iprop(owns (c : Thread nD τ) scM0 fullShare (stAt V c (n + 1)).1 ∗ owns (c : Thread nD τ) scM1 fullShare (stAt V c (n + 1)).2.1 ∗ owns (c : Thread nD τ) scM2 fullShare (stAt V c (n + 1)).2.2 ∗ PhiRest c)

/-- The proof data of the second pipeline on core `c`. -/
def dat1 (c : Dev nD) : Dat τ (Elt 𝔽) Unit ℕ (UR sig nD τ) ℕ cfgM c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val
  q _ := fullShare
  owed _ := 0

theorem A_eq1 (c : Dev nD) (w : Fin cfgM.W) : (dat1 V c).A w = V c (Pipeline.arrRef spec1 w) := by
  dsimp only [dat1]

theorem after1_0 (c : Dev nD) (t : Fin cfgM.N) : (dat1 V c).after 0 t = iblk1 V c 0 t := by dsimp only [dat1]
theorem after1_1 (c : Dev nD) (t : Fin cfgM.N) : (dat1 V c).after 1 t = iblk1 V c 1 t := by dsimp only [dat1]
theorem after1_2 (c : Dev nD) (t : Fin cfgM.N) : (dat1 V c).after 2 t = iblk1 V c 2 t := by dsimp only [dat1]
theorem after1_3 (c : Dev nD) (t : Fin cfgM.N) : (dat1 V c).after 3 t = outAt V c t := by dsimp only [dat1]

/-! ## The invariant unfolded, the tables one by one -/

private theorem PhiS_zero' (c : Dev nD) : PhiS V c 0 = iprop((∃ d, owns (c : Thread nD τ) scM0 fullShare d) ∗ (∃ d, owns (c : Thread nD τ) scM1 fullShare d) ∗ (∃ d, owns (c : Thread nD τ) scM2 fullShare d) ∗ PhiRest c) := rfl

private theorem PhiS_succ' (c : Dev nD) (n : ℕ) : PhiS V c (n + 1) = iprop(owns (c : Thread nD τ) scM0 fullShare (stAt V c (n + 1)).1 ∗ owns (c : Thread nD τ) scM1 fullShare (stAt V c (n + 1)).2.1 ∗ owns (c : Thread nD τ) scM2 fullShare (stAt V c (n + 1)).2.2 ∗ PhiRest c) := rfl

private theorem tb0_eq (c : Dev nD) : (owns (c : Thread nD τ) tbM0 fullShare (tblC 0) : sProp 𝕄) = ((c : Thread nD τ).loc (pre1.ref 0) ↦{fullShare} tblC 0) := owns_whole _ _ _ _
private theorem tb1_eq (c : Dev nD) : (owns (c : Thread nD τ) tbM1 fullShare (tblC 1) : sProp 𝕄) = ((c : Thread nD τ).loc (pre1.ref 1) ↦{fullShare} tblC 1) := owns_whole _ _ _ _

/-- The two tables held whole, one by one. -/
private theorem prefHeld1_eq (c : Dev nD) :
    (Pipeline.prefHeld (Ix := Unit) (Name := ℕ) (U := UR sig nD τ) (Lvl := ℕ) pre1 c (fun _ => fullShare) (tblC) : sProp 𝕄)
      = iprop(owns (c : Thread nD τ) tbM0 fullShare (tblC 0) ∗ owns (c : Thread nD τ) tbM1 fullShare (tblC 1)) := by
  unfold Pipeline.prefHeld
  rw [show (Finset.univ : Finset (Fin 2)) = insert (0 : Fin 2) {(1 : Fin 2)} from by decide, bigSep_insert (by decide), bigSep_singleton, tb0_eq, tb1_eq]
  rfl

/-! ## The body at a point -/

private theorem before1_0 (c : Dev nD) (t : Fin cfgM.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
private theorem before1_1 (c : Dev nD) (t : Fin cfgM.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
private theorem before1_2 (c : Dev nD) (t : Fin cfgM.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

private theorem leaves1_0 (c : Dev nD) (t : Fin cfgM.N) : (dat1 V c).leavesExact 0 t = owns (c : Thread nD τ) (ms1_0 t) fullShare (iblk1 V c 0 t) := by
  rw [← after1_0]
private theorem leaves1_1 (c : Dev nD) (t : Fin cfgM.N) : (dat1 V c).leavesExact 1 t = owns (c : Thread nD τ) (ms1_1 t) fullShare (iblk1 V c 1 t) := by
  rw [← after1_1]
private theorem leaves1_2 (c : Dev nD) (t : Fin cfgM.N) : (dat1 V c).leavesExact 2 t = owns (c : Thread nD τ) (ms1_2 t) fullShare (iblk1 V c 2 t) := by
  rw [← after1_2]

private theorem idle3_off (t : Fin cfgM.N) (h : kiN t.val < qiN t.val) : cfgM.idle 3 (cfgM.grid.coords t) = true := by
  rw [idle3 t, decide_eq_false (by omega), Bool.not_false]
private theorem flush3_off (t : Fin cfgM.N) (h : kiN t.val < qiN t.val) : (cfgM.win 3).flush t = false := by
  rw [flush3 t, decide_eq_false (by omega)]
private theorem idle3_dg (t : Fin cfgM.N) (h : qiN t.val = kiN t.val) : cfgM.idle 3 (cfgM.grid.coords t) = false := by
  rw [idle3 t, decide_eq_true h, Bool.not_true]

private theorem leaves1_3_off (c : Dev nD) (t : Fin cfgM.N) (h : kiN t.val < qiN t.val) :
    (dat1 V c).leavesExact 3 t = iprop(∃ d, owns (c : Thread nD τ) (ms1_3 t) fullShare ((dat1 V c).before 3 t d)) :=
  Dat.leavesExact_idle (dat1 V c) 3 t (idle3_off t h) (flush3_off t h)
private theorem leaves1_3_dg (c : Dev nD) (t : Fin cfgM.N) (h : qiN t.val = kiN t.val) :
    (dat1 V c).leavesExact 3 t = owns (c : Thread nD τ) (ms1_3 t) fullShare (outAt V c t) := by
  unfold Dat.leavesExact; rw [idle3_dg t h, after1_3]

private theorem PhiS_pos' (c : Dev nD) (n : ℕ) (hn : n ≠ 0) : PhiS V c n = iprop(owns (c : Thread nD τ) scM0 fullShare (stAt V c n).1 ∗ owns (c : Thread nD τ) scM1 fullShare (stAt V c n).2.1 ∗ owns (c : Thread nD τ) scM2 fullShare (stAt V c n).2.2 ∗ PhiRest c) := by
  cases n with
  | zero => exact absurd rfl hn
  | succ n => rfl

private theorem PhiS_any (c : Dev nD) (n : ℕ) : PhiS V c n ⊢ iprop((∃ d, owns (c : Thread nD τ) scM0 fullShare d) ∗ (∃ d, owns (c : Thread nD τ) scM1 fullShare d) ∗ (∃ d, owns (c : Thread nD τ) scM2 fullShare d) ∗ PhiRest c) := by
  cases n with
  | zero => exact .rfl
  | succ n =>
    rw [PhiS_succ']
    iintro ⟨X0, X1, X2, HR⟩
    isplitl [X0]; · iexists _; iexact X0
    isplitl [X1]; · iexists _; iexact X1
    isplitl [X2]; · iexists _; iexact X2
    iexact HR

private theorem PhiS_next (c : Dev nD) (t : Fin cfgM.N) (s : St) (hs : stAt V c (t.val + 1) = s) :
    PhiS V c (t.val + 1) = iprop(owns (c : Thread nD τ) scM0 fullShare s.1 ∗ owns (c : Thread nD τ) scM1 fullShare s.2.1 ∗ owns (c : Thread nD τ) scM2 fullShare s.2.2 ∗ PhiRest c) := by
  subst hs; rfl

private theorem st0_init (t : Fin cfgM.N) (s : St) (h0 : kiN t.val = 0) : st0 t s = (mInit, lInit, aInit) := if_pos h0
private theorem st0_keep (t : Fin cfgM.N) (s : St) (h0 : ¬ kiN t.val = 0) : st0 t s = s := if_neg h0

private theorem stAt_off (c : Dev nD) (t : Fin cfgM.N) (s : St) (hs : st0 t (stAt V c t.val) = s) (h1 : kiN t.val < qiN t.val) :
    stAt V c (t.val + 1) = (mOff (iblk1 V c 0 t) (iblk1 V c 1 t) s.1, lOff (iblk1 V c 0 t) (iblk1 V c 1 t) s.1 s.2.1, aOff (iblk1 V c 0 t) (iblk1 V c 1 t) (iblk1 V c 2 t) s.1 s.2.2) := by
  rw [stAt_succ]; unfold stepAt; rw [if_pos h1, hs]
private theorem stAt_dg (c : Dev nD) (t : Fin cfgM.N) (s : St) (hs : st0 t (stAt V c t.val) = s) (h1 : ¬ kiN t.val < qiN t.val) :
    stAt V c (t.val + 1) = (mDg (iblk1 V c 0 t) (iblk1 V c 1 t) s.1, lDg (iblk1 V c 0 t) (iblk1 V c 1 t) s.1 s.2.1, aDg (iblk1 V c 0 t) (iblk1 V c 1 t) (iblk1 V c 2 t) s.1 s.2.2) := by
  rw [stAt_succ]; unfold stepAt; rw [if_neg h1, hs]
private theorem outAt_eq (c : Dev nD) (t : Fin cfgM.N) (s : St) (hs : st0 t (stAt V c t.val) = s) :
    outAt V c t = oDg (iblk1 V c 0 t) (iblk1 V c 1 t) (iblk1 V c 2 t) s.1 s.2.1 s.2.2 := by
  unfold outAt; rw [hs]

/-- The words the body reads at point `t` put it in the case the step's tile pair names. -/
private theorem hInit (t : Fin cfgM.N) : condInit (wordAt (F := 𝔽) (cfgM.grid.coords t) tbM1 (Memref.isWhole_whole _) (tblC 1)) ↔ kiN t.val = 0 := by
  rw [wordK]; exact condInit_iff t
private theorem hLt (t : Fin cfgM.N) : condLt (wordAt (F := 𝔽) (cfgM.grid.coords t) tbM0 (Memref.isWhole_whole _) (tblC 0)) (wordAt (F := 𝔽) (cfgM.grid.coords t) tbM1 (Memref.isWhole_whole _) (tblC 1)) ↔ kiN t.val < qiN t.val := by
  rw [wordQ, wordK]; exact condLt_iff t
private theorem hEq (t : Fin cfgM.N) : condEq (wordAt (F := 𝔽) (cfgM.grid.coords t) tbM0 (Memref.isWhole_whole _) (tblC 0)) (wordAt (F := 𝔽) (cfgM.grid.coords t) tbM1 (Memref.isWhole_whole _) (tblC 1)) ↔ qiN t.val = kiN t.val := by
  rw [wordQ, wordK]; exact condEq_iff t

/-- The shuffle around a run of the body: the scratch, the tables and the four current buffers go in, the rest rides along. -/
private theorem frame_run (c : Dev nD) (t : Fin cfgM.N) (R : sProp 𝕄)
    (xq xk xv : Vec 𝔽 S1x1024x64 .bf16) (xo xo' : Vec 𝔽 S1x1024x64 .f32) (xm xl ym yl : Vec 𝔽 S1x1024x1 .f32) (xa ya : Vec 𝔽 S1x1024x64 .f32)
    (P3 : sProp 𝕄) (hP3 : owns (c : Thread nD τ) (ms1_3 t) fullShare xo' ⊢ P3)
    (hrun : ∀ K : PUnit → sProp 𝕄,
      iprop(owns (c : Thread nD τ) tbM0 fullShare (tblC 0) ∗ owns (c : Thread nD τ) tbM1 fullShare (tblC 1) ∗ owns (c : Thread nD τ) (ms1_0 t) fullShare xq ∗ owns (c : Thread nD τ) (ms1_1 t) fullShare xk ∗ owns (c : Thread nD τ) (ms1_2 t) fullShare xv ∗ owns (c : Thread nD τ) (ms1_3 t) fullShare xo ∗ owns (c : Thread nD τ) scM0 fullShare xm ∗ owns (c : Thread nD τ) scM1 fullShare xl ∗ owns (c : Thread nD τ) scM2 fullShare xa
        ∗ (iprop(owns (c : Thread nD τ) tbM0 fullShare (tblC 0) ∗ owns (c : Thread nD τ) tbM1 fullShare (tblC 1) ∗ owns (c : Thread nD τ) (ms1_0 t) fullShare xq ∗ owns (c : Thread nD τ) (ms1_1 t) fullShare xk ∗ owns (c : Thread nD τ) (ms1_2 t) fullShare xv ∗ owns (c : Thread nD τ) (ms1_3 t) fullShare xo' ∗ owns (c : Thread nD τ) scM0 fullShare ym ∗ owns (c : Thread nD τ) scM1 fullShare yl ∗ owns (c : Thread nD τ) scM2 fullShare ya) -∗ K ⟨⟩))
      ⊢ wp frame (wpE (defs₀ (F := 𝔽)) Variants.none c none) Set.univ (bodyAt1 t) K) :
    iprop((owns (c : Thread nD τ) scM0 fullShare xm ∗ owns (c : Thread nD τ) scM1 fullShare xl ∗ owns (c : Thread nD τ) scM2 fullShare xa ∗ PhiRest c) ∗ R
        ∗ owns (c : Thread nD τ) (ms1_0 t) fullShare xq ∗ owns (c : Thread nD τ) (ms1_1 t) fullShare xk ∗ owns (c : Thread nD τ) (ms1_2 t) fullShare xv ∗ owns (c : Thread nD τ) (ms1_3 t) fullShare xo)
      ⊢ wp frame (wpE (defs₀ (F := 𝔽)) Variants.none c none) Set.univ (bodyAt1 t) (fun _ =>
          iprop((owns (c : Thread nD τ) scM0 fullShare ym ∗ owns (c : Thread nD τ) scM1 fullShare yl ∗ owns (c : Thread nD τ) scM2 fullShare ya ∗ PhiRest c) ∗ R
            ∗ owns (c : Thread nD τ) (ms1_0 t) fullShare xq ∗ owns (c : Thread nD τ) (ms1_1 t) fullShare xk ∗ owns (c : Thread nD τ) (ms1_2 t) fullShare xv ∗ P3)) := by
  unfold PhiRest
  iintro ⟨⟨X0, X1, X2, T0, T1, Hg, Hst⟩, Ho, H0, H1, H2, H3⟩
  iapply (hrun _)
  isplitl [T0]; · iexact T0
  isplitl [T1]; · iexact T1
  isplitl [H0]; · iexact H0
  isplitl [H1]; · iexact H1
  isplitl [H2]; · iexact H2
  isplitl [H3]; · iexact H3
  isplitl [X0]; · iexact X0
  isplitl [X1]; · iexact X1
  isplitl [X2]; · iexact X2
  iintro ⟨T0, T1, H0, H1, H2, H3, X0, X1, X2⟩
  isplitl [X0 X1 X2 T0 T1 Hg Hst]
  · isplitl [X0]; · iexact X0
    isplitl [X1]; · iexact X1
    isplitl [X2]; · iexact X2
    isplitl [T0]; · iexact T0
    isplitl [T1]; · iexact T1
    isplitl [Hg]; · iexact Hg
    iexact Hst
  isplitl [Ho]; · iexact Ho
  isplitl [H0]; · iexact H0
  isplitl [H1]; · iexact H1
  isplitl [H2]; · iexact H2
  iapply hP3; iexact H3

/-- What the body is called with at point `t`, the windows one by one, -/
private def bodyPre1 (c : Dev nD) (t : Fin cfgM.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
private def bodyPost1 (c : Dev nD) (t : Fin cfgM.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
private theorem sound_body1 (c : Dev nD) (t : Fin cfgM.N) :
    bodyPre1 V c t ⊢ wp frame (wpE (defs₀ (F := 𝔽)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS V c (t.val + 1) from rfl, show (dat1 V c).Φ t.castSucc = PhiS V c t.val from rfl]
  rw [leaves1_0, leaves1_1, leaves1_2]
  by_cases h1 : kiN t.val < qiN t.val
  · have hne : ¬ qiN t.val = kiN t.val := by omega
    rw [leaves1_3_off V c t h1]
    by_cases h0 : kiN t.val = 0
    · rw [PhiS_next V c t _ (stAt_off V c t _ (st0_init t _ h0) h1)]
      iintro ⟨HΦ, Ho, ⟨%d0, H0⟩, ⟨%d1, H1⟩, ⟨%d2, H2⟩, ⟨%d3, H3⟩⟩
      ihave HΦ' := (PhiS_any V c t.val) $$ HΦ
      icases HΦ' with ⟨⟨%xm, X0⟩, ⟨%xl, X1⟩, ⟨%xa, X2⟩, HR⟩
      iapply (frame_run c t _ (iblk1 V c 0 t) (iblk1 V c 1 t) (iblk1 V c 2 t) ((dat1 V c).before 3 t d3) ((dat1 V c).before 3 t d3) xm xl _ _ xa _ _
        (by iintro H; iexists d3; iexact H)
        (fun K => run_initOff c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ xm xl xa ((hInit t).mpr h0) ((hLt t).mpr h1) (fun h => hne ((hEq t).mp h)) Set.univ K))
      isplitl [X0 X1 X2 HR]
      · isplitl [X0]; · iexact X0
        isplitl [X1]; · iexact X1
        isplitl [X2]; · iexact X2
        iexact HR
      isplitl [Ho]; · iexact Ho
      isplitl [H0]; · iexact H0
      isplitl [H1]; · iexact H1
      isplitl [H2]; · iexact H2
      iexact H3
    · have hz : t.val ≠ 0 := fun h => h0 (by rw [h]; rfl)
      rw [PhiS_next V c t _ (stAt_off V c t _ (st0_keep t _ h0) h1), PhiS_pos' V c t.val hz]
      iintro ⟨HΦ, Ho, ⟨%d0, H0⟩, ⟨%d1, H1⟩, ⟨%d2, H2⟩, ⟨%d3, H3⟩⟩
      iapply (frame_run c t _ (iblk1 V c 0 t) (iblk1 V c 1 t) (iblk1 V c 2 t) ((dat1 V c).before 3 t d3) ((dat1 V c).before 3 t d3) (stAt V c t.val).1 (stAt V c t.val).2.1 _ _ (stAt V c t.val).2.2 _ _
        (by iintro H; iexists d3; iexact H)
        (fun K => run_offK c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ (stAt V c t.val).1 (stAt V c t.val).2.1 (stAt V c t.val).2.2 (fun h => h0 ((hInit t).mp h)) ((hLt t).mpr h1) (fun h => hne ((hEq t).mp h)) Set.univ K))
      isplitl [HΦ]; · iexact HΦ
      isplitl [Ho]; · iexact Ho
      isplitl [H0]; · iexact H0
      isplitl [H1]; · iexact H1
      isplitl [H2]; · iexact H2
      iexact H3
  · have hq : qiN t.val = kiN t.val := by have := kiN_le_qiN t.val; omega
    rw [leaves1_3_dg V c t hq]
    by_cases h0 : kiN t.val = 0
    · rw [outAt_eq V c t _ (st0_init t _ h0), PhiS_next V c t _ (stAt_dg V c t _ (st0_init t _ h0) h1)]
      iintro ⟨HΦ, Ho, ⟨%d0, H0⟩, ⟨%d1, H1⟩, ⟨%d2, H2⟩, ⟨%d3, H3⟩⟩
      ihave HΦ' := (PhiS_any V c t.val) $$ HΦ
      icases HΦ' with ⟨⟨%xm, X0⟩, ⟨%xl, X1⟩, ⟨%xa, X2⟩, HR⟩
      iapply (frame_run c t _ (iblk1 V c 0 t) (iblk1 V c 1 t) (iblk1 V c 2 t) ((dat1 V c).before 3 t d3) _ xm xl _ _ xa _ _
        (by iintro H; iexact H)
        (fun K => run_initDiag c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ xm xl xa ((hInit t).mpr h0) (fun h => h1 ((hLt t).mp h)) ((hEq t).mpr hq) Set.univ K))
      isplitl [X0 X1 X2 HR]
      · isplitl [X0]; · iexact X0
        isplitl [X1]; · iexact X1
        isplitl [X2]; · iexact X2
        iexact HR
      isplitl [Ho]; · iexact Ho
      isplitl [H0]; · iexact H0
      isplitl [H1]; · iexact H1
      isplitl [H2]; · iexact H2
      iexact H3
    · have hz : t.val ≠ 0 := fun h => h0 (by rw [h]; rfl)
      rw [outAt_eq V c t _ (st0_keep t _ h0), PhiS_next V c t _ (stAt_dg V c t _ (st0_keep t _ h0) h1), PhiS_pos' V c t.val hz]
      iintro ⟨HΦ, Ho, ⟨%d0, H0⟩, ⟨%d1, H1⟩, ⟨%d2, H2⟩, ⟨%d3, H3⟩⟩
      iapply (frame_run c t _ (iblk1 V c 0 t) (iblk1 V c 1 t) (iblk1 V c 2 t) ((dat1 V c).before 3 t d3) _ (stAt V c t.val).1 (stAt V c t.val).2.1 _ _ (stAt V c t.val).2.2 _ _
        (by iintro H; iexact H)
        (fun K => run_diagK c (grid1.coords t) tbM0 (Memref.isWhole_whole _) tbM1 (Memref.isWhole_whole _) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _)
          (tblC 0) (tblC 1) _ _ _ _ (stAt V c t.val).1 (stAt V c t.val).2.1 (stAt V c t.val).2.2 (fun h => h0 ((hInit t).mp h)) (fun h => h1 ((hLt t).mp h)) ((hEq t).mpr hq) Set.univ K))
      isplitl [HΦ]; · iexact HΦ
      isplitl [Ho]; · iexact Ho
      isplitl [H0]; · iexact H0
      isplitl [H1]; · iexact H1
      isplitl [H2]; · iexact H2
      iexact H3

/-- The body obligation of the second region, at every point. -/
theorem body_obligation1 (c : Dev nD) : BodyObligation (dat1 V c) (defs₀ (F := 𝔽)) Variants.none () Set.univ := by
  refine fun t => ?_
  rw [bigSep_W1, bigSep_W1]
  exact sound_body1 V c t

/-- What the launch hands the region — the generator register, the tables at their contents, the scoped buffers no window
    of this region stages — is the invariant before the first point. -/
theorem hin1 (c : Dev nD) :
    iprop((∃ r, prngReg c r) ∗ Pipeline.prefHeld (Ix := Unit) (Name := ℕ) (U := UR sig nD τ) (Lvl := ℕ) pre1 c (fun _ => fullShare) (tblC) ∗ Pipeline.scopedRest (Ix := Unit) (Name := ℕ) (U := UR sig nD τ) (Lvl := ℕ) (Val := Elt 𝔽) spec1 c)
      ⊢ ((dat1 V c).Φ 0 : sProp 𝕄) := by
  rw [show (dat1 V c).Φ 0 = PhiS V c 0 from rfl, PhiS_zero', prefHeld1_eq, scopedRest1_eq]
  unfold PhiRest stagingRest0
  simp only [scM0, scM1, scM2, owns_whole]
  iintro ⟨Hg, ⟨T0, T1⟩, S0, S1, S2, S3, S4, S5, S6, S7, S8, X0, X1, X2⟩
  isplitl [X0]; · iexact X0
  isplitl [X1]; · iexact X1
  isplitl [X2]; · iexact X2
  isplitl [T0]; · iexact T0
  isplitl [T1]; · iexact T1
  isplitl [Hg]; · iexact Hg
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

/-- After the last point the invariant gives those back, the carried values forgotten. -/
theorem hout1 (c : Dev nD) :
    ((dat1 V c).Φ (Fin.last cfgM.N) : sProp 𝕄)
      ⊢ iprop(iprop((∃ r, prngReg c r) ∗ Pipeline.prefHeld (Ix := Unit) (Name := ℕ) (U := UR sig nD τ) (Lvl := ℕ) pre1 c (fun _ => fullShare) (tblC)) ∗ Pipeline.scopedRest (Ix := Unit) (Name := ℕ) (U := UR sig nD τ) (Lvl := ℕ) (Val := Elt 𝔽) spec1 c) := by
  have h : (dat1 V c).Φ (Fin.last cfgM.N) = PhiS V c (79 + 1) := by
    show PhiS V c (Fin.last cfgM.N).val = _
    rw [Fin.val_last, N_M]
  rw [h, PhiS_succ', prefHeld1_eq, scopedRest1_eq]
  unfold PhiRest stagingRest0
  simp only [scM0, scM1, scM2, owns_whole]
  iintro ⟨X0, X1, X2, T0, T1, Hg, S0, S1, S2, S3, S4, S5, S6, S7, S8⟩
  isplitl [Hg T0 T1]
  · isplitl [Hg]; · iexact Hg
    isplitl [T0]; · iexact T0
    iexact T1
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [X0]; · iexists _; iexact X0
  isplitl [X1]; · iexists _; iexact X1
  iexists _; iexact X2

end R1

end Cert.KernelIdeal.Gen

end
-- ==== Proof.KIRun.lean ====
/-
  The run of the kernel program at the ideal float instance: from the launch memory through the one stretch of
  host operations (the two constant tables and the concatenation of the three weight matrices), the projection
  region and the attention region, to the return. The buffer contents at each of the four boundaries are a fold
  from the launch memory; each region is entered from every unscoped buffer at its boundary's contents and left
  with its arrays at what its write-backs leave; the second region is handed its two tables at the contents the
  host operations wrote.
-/
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«410793_j34746285425245_3_alg».proof.Proof.KIRegion0
import proofs.«410793_j34746285425245_3_alg».proof.Proof.KIR1Dat

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-! ## The buffer contents at each boundary: a fold through the program -/

/-- Core c's buffers at launch. -/
abbrev W0 : Dev nD → Valuation τ sig (Elt 𝔽) := fun c b => (s₀ m ρ).mem ((c : Dev nD), b)
/-- After the host operations (the first region's entry). -/
abbrev W1 : Dev nD → Valuation τ sig (Elt 𝔽) := fun c => StableHlo.after hostOps0 (W0 m ρ c)
/-- The same read at the core's references. -/
abbrev V1 : (c : Dev nD) → (b : Ref sig .tc) → Buf (Elt 𝔽) ((c : Thread nD τ).loc b) := fun c b => W1 m ρ c b
/-- At the first region's exit: its arrays at what the pipeline leaves, every other buffer as entered. -/
def W2 (c : Dev nD) : Valuation τ sig (Elt 𝔽) :=
  Pipeline.withArrays spec0 c (W1 m ρ c) fun w => (dat0 (F := 𝔽) (V1 m ρ) c).arrAt w cfg0.N
theorem W2_arr (c : Dev nD) (w : Fin cfg0.W) :
    W2 m ρ c (Proc.devRef .tc (Pipeline.arrRef spec0 w)) = (dat0 (F := 𝔽) (V1 m ρ) c).arrAt w cfg0.N := by
  unfold W2; exact Pipeline.withArrays_arr spec0 (launch0 (F := 𝔽)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the second region's entry contents). -/
abbrev V2 : (c : Dev nD) → (b : Ref sig .tc) → Buf (Elt 𝔽) ((c : Thread nD τ).loc b) := fun c b => W2 m ρ c b
theorem hF0 (c : Dev nD) (w : Fin cfg0.W) : (dat0 (F := 𝔽) (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt 𝔽) :=
  Pipeline.withArrays spec1 c (W2 m ρ c) fun w => (dat1 (V2 m ρ) c).arrAt w cfgM.N
theorem W3_arr (c : Dev nD) (w : Fin cfgM.W) :
    W3 m ρ c (Proc.devRef .tc (Pipeline.arrRef spec1 w)) = (dat1 (V2 m ρ) c).arrAt w cfgM.N := by
  unfold W3; exact Pipeline.withArrays_arr spec1 (launch1 (F := 𝔽)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references (the second region's exit contents). -/
abbrev V3 : (c : Dev nD) → (b : Ref sig .tc) → Buf (Elt 𝔽) ((c : Thread nD τ).loc b) := fun c b => W3 m ρ c b
theorem hF1 (c : Dev nD) (w : Fin cfgM.W) : (dat1 (V2 m ρ) c).arrAt w cfgM.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### What the fold holds at the buffers the value reads -/

/-- The host operations write none of the four arguments. -/
theorem W1_of_not_written (c : Dev nD) (b : Ref sig .tc) (h0 : main_c ≠ b) (h1 : main_c_0 ≠ b) (h2 : main_v0 ≠ b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.nary_writes, Finset.mem_singleton]
    exact ⟨(StableHlo.devRef_ne_of_ne h0).symm, (StableHlo.devRef_ne_of_ne h1).symm, (StableHlo.devRef_ne_of_ne h2).symm⟩))

theorem V1_main_arg0 (c : Dev nD) : V1 m ρ c main_arg0 = m ((c : Thread nD τ).loc main_arg0) :=
  W1_of_not_written m ρ c main_arg0 (by decide) (by decide) (by decide)

theorem V1_main_v0 (c : Dev nD) : V1 m ρ c main_v0 = concatenate S1024x192 1 [⟨S1024x64, m ((c : Thread nD τ).loc main_arg1)⟩, ⟨S1024x64, m ((c : Thread nD τ).loc main_arg2)⟩, ⟨S1024x64, m ((c : Thread nD τ).loc main_arg3)⟩] concatenates_S1024x64_S1024x64_S1024x64_S1024x192_d1 := by
  dsimp only [V1, W1, hostOps0]; after_results; rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (F := 𝔽) (V1 m ρ) c).arrAt_in 0 rfl _).trans (A_eq0 (V1 m ρ) c 0))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of_not_written m ρ c main_arg1 (by decide) (by decide) (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of_not_written m ρ c main_arg2 (by decide) (by decide) (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of_not_written m ρ c main_arg3 (by decide) (by decide) (by decide)

/-- The result array at the return: what the second region's write-backs leave in its output window's array. -/
theorem W3_main_v2 (c : Dev nD) : W3 m ρ c (Proc.devRef .tc main_v2) = (dat1 (V2 m ρ) c).arrAt 3 cfgM.N :=
  W3_arr m ρ c 3

/-- The three projections the second region reads: what the first region's write-backs leave in its output windows' arrays. -/
theorem V2_main_v1_0 (c : Dev nD) : V2 m ρ c main_v1_0 = (dat0 (F := 𝔽) (V1 m ρ) c).arrAt 2 cfg0.N := W2_arr m ρ c 2
theorem V2_main_v1_1 (c : Dev nD) : V2 m ρ c main_v1_1 = (dat0 (F := 𝔽) (V1 m ρ) c).arrAt 3 cfg0.N := W2_arr m ρ c 3
theorem V2_main_v1_2 (c : Dev nD) : V2 m ρ c main_v1_2 = (dat0 (F := 𝔽) (V1 m ρ) c).arrAt 4 cfg0.N := W2_arr m ρ c 4

/-- The second region finds its two tables at the contents the host operations wrote: the first region writes neither. -/
theorem V2_pre (c : Dev nD) (k : Fin pre1.K) : V2 m ρ c (pre1.ref k) = tblC k := by
  match k with
  | ⟨0, _⟩ =>
    refine (W2_of_ne m ρ c main_c (by decide)).trans ?_
    show StableHlo.after hostOps0 (W0 m ρ c) (Proc.devRef .tc main_c) = _
    dsimp only [hostOps0]; after_results; rfl
  | ⟨1, _⟩ =>
    refine (W2_of_ne m ρ c main_c_0 (by decide)).trans ?_
    show StableHlo.after hostOps0 (W0 m ρ c) (Proc.devRef .tc main_c_0) = _
    dsimp only [hostOps0]; after_results; rfl

/-! ## The proof data family and the thread state -/

/-- The tables' admissible contents: the first pipeline has none, the second the two constant tables. -/
abbrev adm : (p : Fin 2) → (pcfgs (F := 𝔽) p).Adm
  | ⟨0, _⟩ => cfg0.toPCfg_adm
  | ⟨1, _⟩ => adm1
/-- Each pipeline's proof data at its region's entry contents. -/
def pdats : (p : Fin 2) → (c : Dev nD) → Dat τ (Elt 𝔽) Unit ℕ (UR sig nD τ) ℕ (Pipeline.pin (pcfgs (F := 𝔽)) adm p) c
  | ⟨0, _⟩ => fun c => dat0 (F := 𝔽) (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt 𝔽))) (hsub : ops.Forall fun op => op.bufs ⊆ StableHlo.tcRefs τ sig)
    (hfresh : ops.Forall fun op => op.fresh = ∅) (W : Dev nD → Valuation τ sig (Elt 𝔽)) :
    Pipeline.HostSeg (Name := ℕ) (U := UR sig nD τ) (pcfgs (F := 𝔽)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt 𝔽))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at W1, left at W2. Its arrays are split out of the unscoped
    buffers and put back at the exit contents; the generator register passes through the class invariant. -/
def reg0 : Pipeline.RegionSeg (pcfgs (F := 𝔽)) adm (pdats m ρ) () defs₀ 𝒱₀ L lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (body_obligation0 (F := 𝔽) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := 𝔽)) adm (pdats m ρ) (launch0 (F := 𝔽)).win (launch0 (F := 𝔽)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers that are no array of the second region are its two tables at their contents and the rest. -/
theorem unscopedRest1_split (c : Dev nD) :
    (Pipeline.unscopedRest (Ix := Unit) (Name := ℕ) (U := UR sig nD τ) (Lvl := ℕ) spec1 c (V2 m ρ c) : sProp 𝕄)
      = iprop(Pipeline.prefHeld (Ix := Unit) (Name := ℕ) (U := UR sig nD τ) (Lvl := ℕ) pre1 c (fun _ => fullShare) tblC
          ∗ Pipeline.unscopedRestP (Ix := Unit) (Name := ℕ) (U := UR sig nD τ) (Lvl := ℕ) pre1 spec1 c (V2 m ρ c)) := by
  rw [Pipeline.unscopedRest_split preFacts1 c (V2 m ρ c), show (fun k => V2 m ρ c (pre1.ref k)) = tblC from funext (V2_pre m ρ c)]

set_option backward.isDefEq.respectTransparency.types false in
/-- The second region: entered from every unscoped buffer at W2, left at W3. Its arrays and its two tables are split
    out of the unscoped buffers; the tables and the generator register enter the region's invariant and come back
    from it; the arrays are put back at the exit contents beside the tables and the rest. -/
def reg1 : Pipeline.RegionSeg (pcfgs (F := 𝔽)) adm (pdats m ρ) () defs₀ 𝒱₀ L lv 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) tblC)
  Z c := Pipeline.unscopedRestP (Ix := Unit) (Name := ℕ) (U := UR sig nD τ) (Lvl := ℕ) pre1 spec1 c (V2 m ρ c)
  hentry c := by
    rw [Pipeline.ownSems0_none]
    have hsplit := Pipeline.arrays_of_unscopedBufs (p := 1) (pcfgs (F := 𝔽)) adm (pdats m ρ) (launch1 (F := 𝔽)).win (launch1 (F := 𝔽)).arr_whole c
      ((pdats m ρ 1 c).share_full fun _ => rfl) (V2 m ρ c) fun _ => rfl
    rw [Pipeline.unscopedBufs_held] at hsplit
    have hrest := unscopedRest1_split m ρ c
    iintro ⟨⟨Hub, Hp, HO⟩, -, -⟩
    ihave H := hsplit $$ Hub
    icases H with ⟨Ha, Hrest⟩
    ihave Hrest' := (Entails.of_eq hrest) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V2 m ρ) c
  hout c := by
    rw [Pipeline.ownSems0_none]
    refine (hout1 (V2 m ρ) c).trans ?_
    iintro ⟨HY, Hs⟩
    isplitl [HY]; · iexact HY
    isplitr; · iempintro
    iexact Hs
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m ρ) ((pdats m ρ 1 c).share_full fun _ => rfl)
      (V2 m ρ c) (V3 m ρ c) ((pdats m ρ 1 c).arrAt · cfgM.N) (hF1 m ρ c) (hrest1 m ρ c)
    rw [Pipeline.unscopedBufs_held] at hjoin
    have hrest := unscopedRest1_split m ρ c
    iintro ⟨Ha, HO, ⟨Hp, Ht⟩, Hrest⟩
    ihave Hrest' := (Entails.of_eq hrest.symm) $$ [Ht Hrest]
    · isplitl [Ht] <;> iassumption
    imodintro
    isplitl [Ha Hrest' Hp]
    · isplitl [Ha Hrest']
      · iapply hjoin; isplitl [Ha] <;> iassumption
      iexact Hp
    unfold Pipeline.Dat.owesAt Pipeline.owesWithin
    icases HO with ⟨%W, -, HO⟩; iexists W; iexact HO

/-! ## The program as segments, and the launch -/

/-- The program's three segments in order: the host operations from the launch contents, then the two regions. -/
abbrev segs : List (Pipeline.Seg (pcfgs (F := 𝔽)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := 𝔽) c = Pipeline.Seg.run (segs m ρ) := (main_chain c).trans (by chain_rfl)

set_option backward.isDefEq.respectTransparency.types false in
/-- THE RUN: at the compiled mesh, from any memory with zero counters, every weakly fair execution of the program
    terminates, nothing faulting, and every final state holds at every unscoped buffer of every core the last
    boundary's contents. -/
theorem run_all : θ_run defs (onTc (τ := τ) (main (F := 𝔽))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := 𝔽)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := 𝔽)) adm) (cellOf_inj adm)) (Pipeline.launchToks (Pipeline.pin (pcfgs (F := 𝔽)) adm) (cellOf_inj adm)))
    (hu₀ := by
      iintro Hu; imodintro
      isplitl [Hu]
      · iapply (show (ownU (initOf (Pipeline.cells (Pipeline.pin (pcfgs (F := 𝔽)) adm) (cellOf_inj adm)) (Pipeline.launchToks (Pipeline.pin (pcfgs (F := 𝔽)) adm) (cellOf_inj adm))) : sProp 𝕄)
            ⊢ BI.own (emb₁ (initOf (Pipeline.cells (Pipeline.pin (pcfgs (F := 𝔽)) adm) (cellOf_inj adm)) (Pipeline.launchToks (Pipeline.pin (pcfgs (F := 𝔽)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every final state has the four argument arrays as launched. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Gen

end
-- ==== Proof.Spec.lean ====
/-
  The mathematics both programs compute, stated over plain index types and the extended reals.

  Causal single-head attention: with q = x·Wq, k = x·Wk, v = x·Wv (rows of length 64), the score of query row i
  against key row j is c·⟨q i, k j⟩, kept for j ≤ i and −∞ for j > i; each row's scores are shifted by their
  maximum, exponentiated, normalised by their sum, and the result row is the weighted sum of the value rows.

  The tiled evaluation visits, for a query row i, the key tiles 0 … ⌊i / 1024⌋ in order and keeps a running maximum m,
  a running denominator l and a running numerator a, rescaling the old l and a by exp (m − m') whenever the maximum moves
  to m'; the result row is a / l.  `flash_eq_attn` (module FlashMath) says the two agree on finite inputs.
-/
import Idealize.ShloMosaic.PureOps.Ideal
import Mathlib.Algebra.BigOperators.Group.Finset.Basic
import Mathlib.Order.CompleteLattice.Finset

noncomputable section

namespace Cert.Spec

open Idealize.ShloMosaic

/-- A projection x·W: row i of batch b against column e. -/
def proj (x : Fin 8 → Fin 4096 → Fin 1024 → EReal) (W : Fin 1024 → Fin 64 → EReal)
    (b : Fin 8) (i : Fin 4096) (e : Fin 64) : EReal := ∑ k : Fin 1024, x b i k * W k e

/-- The scaled score of query row i against key row j. -/
def score (c : EReal) (q k : Fin 8 → Fin 4096 → Fin 64 → EReal) (b : Fin 8) (i j : Fin 4096) : EReal :=
  (∑ e : Fin 64, q b i e * k b j e) * c

/-- The causal mask: a score is kept where the key row is not after the query row, and is −∞ elsewhere. -/
def causal (s : Fin 8 → Fin 4096 → Fin 4096 → EReal) (b : Fin 8) (i j : Fin 4096) : EReal :=
  if j.val ≤ i.val then s b i j else ⊥

/-- One row of softmax-weighted values: Σ_j (exp (s j − max s) / Σ_j' exp (s j' − max s)) · v j d. -/
def attnRow (s : Fin 4096 → EReal) (v : Fin 4096 → Fin 64 → EReal) (d : Fin 64) : EReal :=
  ∑ j : Fin 4096, Ideal.div (Ideal.exp (s j - Finset.univ.sup s)) (∑ j' : Fin 4096, Ideal.exp (s j' - Finset.univ.sup s)) * v j d

/-- The whole result: entry (b, i, d). -/
def G (c : EReal) (x : Fin 8 → Fin 4096 → Fin 1024 → EReal) (Wq Wk Wv : Fin 1024 → Fin 64 → EReal)
    (b : Fin 8) (i : Fin 4096) (d : Fin 64) : EReal :=
  attnRow (fun j => causal (score c (proj x Wq) (proj x Wk)) b i j) (fun j => proj x Wv b j) d

/-! ## The tiled evaluation of one row -/

/-- The running state of one query row: maximum, denominator, numerator. -/
structure RowSt where
  m : EReal
  l : EReal
  a : Fin 64 → EReal

/-- Before any key tile: maximum −∞, sums zero. -/
def rowInit : RowSt := ⟨⊥, 0, fun _ => 0⟩

/-- One key tile with scores σ (possibly −∞ where masked) and value rows u folded into the state. -/
def rowStep (σ : Fin 1024 → EReal) (u : Fin 1024 → Fin 64 → EReal) (s : RowSt) : RowSt :=
  ⟨max s.m (Finset.univ.sup σ),
   Ideal.exp (s.m - max s.m (Finset.univ.sup σ)) * s.l + ∑ c : Fin 1024, Ideal.exp (σ c - max s.m (Finset.univ.sup σ)),
   fun d => Ideal.exp (s.m - max s.m (Finset.univ.sup σ)) * s.a d
     + ∑ c : Fin 1024, Ideal.exp (σ c - max s.m (Finset.univ.sup σ)) * u c d⟩

/-- The state after key tiles 0 … n − 1. -/
def rowFold (σ : ℕ → Fin 1024 → EReal) (u : ℕ → Fin 1024 → Fin 64 → EReal) : ℕ → RowSt
  | 0 => rowInit
  | n + 1 => rowStep (σ n) (u n) (rowFold σ u n)

/-- The result row read off a state: numerator over denominator. -/
def rowOut (s : RowSt) (d : Fin 64) : EReal := Ideal.div (s.a d) s.l

/-- Column c of key tile t of a length-4096 row (total in t: the index wraps). -/
def tileOf {α : Type} (f : Fin 4096 → α) (t : ℕ) (c : Fin 1024) : α :=
  f ⟨(t * 1024 + c.val) % 4096, Nat.mod_lt _ (by norm_num)⟩

end Cert.Spec

end
-- ==== Proof.Adapt.lean ====
/-
  Arrays read at plain coordinates: an array over a literal shape as a function of one index per axis.
-/
import Idealize.ShloMosaic.Lib.ValueIdx

noncomputable section

namespace Cert.Spec

open Idealize.ShloMosaic

/-- A rank-3 array as a function of its three coordinates. -/
abbrev arr3 {n0 n1 n2 : Nat} (X : (⟨3, ![n0, n1, n2]⟩ : Shape).Idx → EReal) : Fin n0 → Fin n1 → Fin n2 → EReal :=
  fun a b c => X (ValueIdx.ix3 a b c)

/-- A rank-2 array as a function of its two coordinates. -/
abbrev arr2 {n0 n1 : Nat} (X : (⟨2, ![n0, n1]⟩ : Shape).Idx → EReal) : Fin n0 → Fin n1 → EReal :=
  fun a b => X (ValueIdx.ix2 a b)

end Cert.Spec

end
-- ==== Proof.LibTransposedMatmul.lean ====
/-
  A general fact about matrix products whose right operand is stored transposed, at the extended reals.

  The dimension numbers contract the SECOND axis of both operands: an M × K matrix l against an N × K matrix r, whose
  row q is the weight row of output column q. Entry (p, q) of the product pairs row p of l with row q of r.

  `matmul_transposed_acc_apply`: into any accumulator, entry (p, q) is the accumulator's entry plus the sum over k of
  l[p, k] · r[q, k].
  `matmul_transposed_apply`: into the zero accumulator, just that sum.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable {M K N : ℕ}

/-- The left operand's index at output index j and contraction index k: row j 0 … -/
theorem transposed_lhs_0 (j : (⟨2, ![M, N]⟩ : Shape).Idx) (k : (DotDims.transposedRhs M K N).contr.Idx) :
    ((DotDims.transposedRhs M K N).lhsIdx j k 0).val = (j 0).val := rfl

/-- … and column k. -/
theorem transposed_lhs_1 (j : (⟨2, ![M, N]⟩ : Shape).Idx) (k : (DotDims.transposedRhs M K N).contr.Idx) :
    ((DotDims.transposedRhs M K N).lhsIdx j k 1).val = (k ⟨0, Nat.one_pos⟩).val := rfl

/-- The right operand's index: row j 1 (the output's column) … -/
theorem transposed_rhs_0 (j : (⟨2, ![M, N]⟩ : Shape).Idx) (k : (DotDims.transposedRhs M K N).contr.Idx) :
    ((DotDims.transposedRhs M K N).rhsIdx j k 0).val = (j 1).val := rfl

/-- … and column k. -/
theorem transposed_rhs_1 (j : (⟨2, ![M, N]⟩ : Shape).Idx) (k : (DotDims.transposedRhs M K N).contr.Idx) :
    ((DotDims.transposedRhs M K N).rhsIdx j k 1).val = (k ⟨0, Nat.one_pos⟩).val := rfl

/-- The contraction's sum at entry (p, q), re-indexed by the one contracted coordinate: ∑ k, l[p, k] · r[q, k]. -/
theorem sum_transposed {φ₁ φ₂ : FTy} (l : FVec Ideal ⟨2, ![M, K]⟩ φ₁) (r : FVec Ideal ⟨2, ![N, K]⟩ φ₂) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact transposed_lhs_0 _ _
      | ⟨1, _⟩ => exact (transposed_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact transposed_rhs_0 _ _
      | ⟨1, _⟩ => exact (transposed_rhs_1 _ _).trans hk)
  rw [el, er]

/-- A product with the right operand transposed, into any accumulator: at entry (p, q), acc[p, q] + ∑ k, l[p, k] · r[q, k]. -/
theorem matmul_transposed_acc_apply {φ₁ φ₂ : FTy} (prec : Option ContractPrecision) (l : FVec Ideal ⟨2, ![M, K]⟩ φ₁)
    (r : FVec Ideal ⟨2, ![N, K]⟩ φ₂) (acc : FVec Ideal ⟨2, ![M, N]⟩ .f32) (p : Fin M) (q : Fin N) :
    FloatOps.matmul (DotDims.transposedRhs M K N) prec l r acc (ix2 p q)
      = acc (ix2 p q) + ∑ k : Fin K, l (ix2 p k) * r (ix2 q k) := by
  rw [Ideal.matmul_apply, sum_transposed]

/-- Into the zero accumulator: at entry (p, q), ∑ k, l[p, k] · r[q, k]. -/
theorem matmul_transposed_apply {φ₁ φ₂ : FTy} (prec : Option ContractPrecision) (l : FVec Ideal ⟨2, ![M, K]⟩ φ₁)
    (r : FVec Ideal ⟨2, ![N, K]⟩ φ₂) (p : Fin M) (q : Fin N) :
    FloatOps.matmul (DotDims.transposedRhs M K N) prec l r (constant (F := Ideal) ⟨2, ![M, N]⟩ .f32 0x00000000#32) (ix2 p q)
      = ∑ k : Fin K, l (ix2 p k) * r (ix2 q k) := by
  rw [Ideal.matmul_constant_zero_apply, sum_transposed]

end Cert.LibTransposedMatmul

end
-- ==== Proof.KIPay0Idx.lean ====
/-
  The first region's three outputs read at an index: the three groups of 64 columns of x·[Wq | Wk | Wv].
-/
import proofs.«410793_j34746285425245_3_alg».proof.Proof.KIStep
import proofs.«410793_j34746285425245_3_alg».proof.Proof.Spec
import proofs.«410793_j34746285425245_3_alg».proof.Proof.Adapt
import proofs.«410793_j34746285425245_3_alg».proof.Proof.LibTransposedMatmul
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.PayIdx

open Idealize.ShloMosaic Idealize.SL.Sem Cert.KernelIdeal Cert.KernelIdeal.Gen Cert.Spec
open Idealize.ShloMosaic.ValueIdx

/-! ## The product x·[Wq | Wk | Wv] -/

/-- The product of the input rows with the concatenated weights: the left operand's index at output index i and contraction index q is row i 0 … -/
private theorem xw_lhs_0 (i : S1024x192.Idx) (q : dot_S1024x1024_S1024x192_S1024x192_1_0_0_1_n_n.contr.Idx) :
    (dot_S1024x1024_S1024x192_S1024x192_1_0_0_1_n_n.lhsIdx i q 0).val = (i 0).val := by
  unfold DotDims.lhsIdx
  rw [dif_neg (show ¬(0 : Fin S1024x1024.rank) ∈ dot_S1024x1024_S1024x192_S1024x192_1_0_0_1_n_n.lhsBatch by decide), dif_pos (show (0 : Fin S1024x1024.rank) ∈ dot_S1024x1024_S1024x192_S1024x192_1_0_0_1_n_n.lhsNonContracting by decide)]
  rfl
/-- … and column q; -/
private theorem xw_lhs_1 (i : S1024x192.Idx) (q : dot_S1024x1024_S1024x192_S1024x192_1_0_0_1_n_n.contr.Idx) :
    (dot_S1024x1024_S1024x192_S1024x192_1_0_0_1_n_n.lhsIdx i q 1).val = (q ⟨0, by decide⟩).val :=
  dot_S1024x1024_S1024x192_S1024x192_1_0_0_1_n_n.lhsIdx_val_of_single rfl i q
/-- the right operand's index is row q … -/
private theorem xw_rhs_0 (i : S1024x192.Idx) (q : dot_S1024x1024_S1024x192_S1024x192_1_0_0_1_n_n.contr.Idx) :
    (dot_S1024x1024_S1024x192_S1024x192_1_0_0_1_n_n.rhsIdx i q 0).val = (q ⟨0, by decide⟩).val :=
  dot_S1024x1024_S1024x192_S1024x192_1_0_0_1_n_n.rhsIdx_val_of_single rfl i q
/-- … and column i 1. -/
private theorem xw_rhs_1 (i : S1024x192.Idx) (q : dot_S1024x1024_S1024x192_S1024x192_1_0_0_1_n_n.contr.Idx) :
    (dot_S1024x1024_S1024x192_S1024x192_1_0_0_1_n_n.rhsIdx i q 1).val = (i 1).val := by
  unfold DotDims.rhsIdx
  rw [dif_neg (show ¬(1 : Fin S1024x192.rank) ∈ dot_S1024x1024_S1024x192_S1024x192_1_0_0_1_n_n.rhsBatch by decide), dif_pos (show (1 : Fin S1024x192.rank) ∈ dot_S1024x1024_S1024x192_S1024x192_1_0_0_1_n_n.rhsNonContracting by decide)]
  rfl

/-- The product of the input rows with the concatenated weights into the zero accumulator: entry (r, d) is ∑ c, x[r, c] · y[c, d]. -/
private theorem xw_apply {φ₁ φ₂ : FTy} (x : FVec Ideal S1024x1024 φ₁) (y : FVec Ideal S1024x192 φ₂) (r : Fin 1024) (d : Fin 192) :
    matmul dot_S1024x1024_S1024x192_S1024x192_1_0_0_1_n_n none x y (constant (F := Ideal) S1024x192 .f32 0x00000000#32) (ix2 r d)
      = ∑ c : Fin 1024, x (ix2 r c) * y (ix2 c d) := by
  show FloatOps.matmul dot_S1024x1024_S1024x192_S1024x192_1_0_0_1_n_n none x y (constant (F := Ideal) S1024x192 .f32 0x00000000#32) (ix2 r d) = _
  rw [Ideal.matmul_constant_zero_apply, ← Equiv.sum_comp (contrEquiv1 dot_S1024x1024_S1024x192_S1024x192_1_0_0_1_n_n 1024 rfl rfl).symm]
  refine Finset.sum_congr rfl fun k _ => ?_
  have hk := contrEquiv1_symm_val dot_S1024x1024_S1024x192_S1024x192_1_0_0_1_n_n 1024 rfl rfl k
  have el : dot_S1024x1024_S1024x192_S1024x192_1_0_0_1_n_n.lhsIdx (ix2 r d) ((contrEquiv1 dot_S1024x1024_S1024x192_S1024x192_1_0_0_1_n_n 1024 rfl rfl).symm k) = ix2 r k := funext fun a => Fin.ext (by
    match a with
    | ⟨0, _⟩ => exact xw_lhs_0 _ _
    | ⟨1, _⟩ => exact (xw_lhs_1 _ _).trans hk)
  have er : dot_S1024x1024_S1024x192_S1024x192_1_0_0_1_n_n.rhsIdx (ix2 r d) ((contrEquiv1 dot_S1024x1024_S1024x192_S1024x192_1_0_0_1_n_n 1024 rfl rfl).symm k) = ix2 k d := funext fun a => Fin.ext (by
    match a with
    | ⟨0, _⟩ => exact (xw_rhs_0 _ _).trans hk
    | ⟨1, _⟩ => exact xw_rhs_1 _ _)
  rw [el, er]

/-- The whole product at (r, j): ∑ k, x[0, r, k] · w[k, j]. -/
private theorem pay1_apply (x : Vec Ideal S1x1024x1024 .f32) (w : Vec Ideal S1024x192 .f32) (r : Fin 1024) (j : Fin 192) :
    k0_pay1 x w (ix2 r j) = ∑ k : Fin 1024, x (ix3 0 r k) * w (ix2 k j) := by
  unfold k0_pay1
  refine (xw_apply _ _ r j).trans ?_
  refine Finset.sum_congr rfl fun k _ => congrArg₂ (· * ·) ?_ ?_
  · exact (truncf_apply (ψ := .bf16) _ bitsLt_bf16_f32 _).trans (shapeCast_1ab_ab_apply _ _ r k)
  · exact (truncf_apply (ψ := .bf16) _ bitsLt_bf16_f32 _).trans (congrFun (shapeCast_self _ _) _)

/-- The first region's outputs: column e of x·Wcat, of its second and of its third group of 64 columns. -/
theorem k0_pay2_apply (x : Vec Ideal S1x1024x1024 .f32) (w : Vec Ideal S1024x192 .f32) (r : Fin 1024) (e : Fin 64) :
    k0_pay2 x w (ix3 0 r e) = ∑ k : Fin 1024, x (ix3 0 r k) * w (ix2 k ⟨e.val, by omega⟩) := by
  unfold k0_pay2
  refine (shapeCast_ab_1ab_apply _ _ 0 r e).trans ?_
  refine (truncf_apply (ψ := .bf16) _ bitsLt_bf16_f32 _).trans ?_
  refine (slice2_axis1_apply (n1 := 192) 0 (k0_pay1 x w) slices_S1024x192_o0_0_S1024x64 r e
    ⟨e.val, by omega⟩ (Nat.zero_add _).symm).trans ?_
  exact pay1_apply x w r _

theorem k0_pay3_apply (x : Vec Ideal S1x1024x1024 .f32) (w : Vec Ideal S1024x192 .f32) (r : Fin 1024) (e : Fin 64) :
    k0_pay3 x w (ix3 0 r e) = ∑ k : Fin 1024, x (ix3 0 r k) * w (ix2 k ⟨e.val + 64, by omega⟩) := by
  unfold k0_pay3
  refine (shapeCast_ab_1ab_apply _ _ 0 r e).trans ?_
  refine (truncf_apply (ψ := .bf16) _ bitsLt_bf16_f32 _).trans ?_
  refine (slice2_axis1_apply (n1 := 192) 64 (k0_pay1 x w) slices_S1024x192_o0_64_S1024x64 r e
    ⟨e.val + 64, by omega⟩ (Nat.add_comm _ _)).trans ?_
  exact pay1_apply x w r _

theorem k0_pay4_apply (x : Vec Ideal S1x1024x1024 .f32) (w : Vec Ideal S1024x192 .f32) (r : Fin 1024) (e : Fin 64) :
    k0_pay4 x w (ix3 0 r e) = ∑ k : Fin 1024, x (ix3 0 r k) * w (ix2 k ⟨e.val + 128, by omega⟩) := by
  unfold k0_pay4
  refine (shapeCast_ab_1ab_apply _ _ 0 r e).trans ?_
  refine (truncf_apply (ψ := .bf16) _ bitsLt_bf16_f32 _).trans ?_
  refine (slice2_axis1_apply (n1 := 192) 128 (k0_pay1 x w) slices_S1024x192_o0_128_S1024x64 r e
    ⟨e.val + 128, by omega⟩ (Nat.add_comm _ _)).trans ?_
  exact pay1_apply x w r _

end Cert.KernelIdeal.PayIdx

end
-- ==== Proof.KIValue0.lean ====
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«410793_j34746285425245_3_alg».proof.Proof.KIRegion0
import proofs.«410793_j34746285425245_3_alg».proof.Proof.KIPay0Idx
import proofs.«410793_j34746285425245_3_alg».proof.Proof.Adapt
import Idealize.ShloMosaic.Lib.ValueIdx

set_option maxRecDepth 16384
set_option pp.maxSteps 20000
set_option pp.deepTerms false

noncomputable section

namespace Cert.KernelIdeal.Gen

open Idealize.ShloMosaic.ValueIdx Cert.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Ideal

local notation "𝕄" => MT nD τ sig Unit (Elt 𝔽) ℕ (UR sig nD τ) ℕ

/-! # What the first region leaves in its three output arrays

Grid point (b, t) reads rows t·1024 … t·1024+1023 of batch b of x and the whole 1024 × 192 weight matrix, and writes
the same rows of the three outputs: entry (b, i, e) of output g ∈ {0, 1, 2} is Σ_k x(b, i, k) · w(k, 64·g + e). The 32
blocks tile each output array, so after the last point every entry is that sum. -/

/-! ## The block indices over the grid -/

/-- Point t of the 8 × 4 grid is (t / 4, t % 4): the x window's block index there is (t / 4, t % 4, 0). -/
private theorem idx_x : ∀ t : Fin cfg0.N, win0_0.index t (0 : Fin 3) = t.val / 4
    ∧ win0_0.index t (1 : Fin 3) = t.val % 4 ∧ win0_0.index t (2 : Fin 3) = 0 :=
  (by decide +kernel : ∀ t : Fin grid0.N, _)

/-- The weight window's block index is (0, 0) at every point. -/
private theorem idx_w : ∀ t : Fin cfg0.N, win0_1.index t (0 : Fin 2) = 0 ∧ win0_1.index t (1 : Fin 2) = 0 :=
  (by decide +kernel : ∀ t : Fin grid0.N, _)

/-- Each output's block index at point t is (t / 4, t % 4, 0): the first output's, -/
private theorem idx_q : ∀ t : Fin cfg0.N, win0_2.index t (0 : Fin 3) = t.val / 4
    ∧ win0_2.index t (1 : Fin 3) = t.val % 4 ∧ win0_2.index t (2 : Fin 3) = 0 :=
  (by decide +kernel : ∀ t : Fin grid0.N, _)

/-- the second's, -/
private theorem idx_k : ∀ t : Fin cfg0.N, win0_3.index t (0 : Fin 3) = t.val / 4
    ∧ win0_3.index t (1 : Fin 3) = t.val % 4 ∧ win0_3.index t (2 : Fin 3) = 0 :=
  (by decide +kernel : ∀ t : Fin grid0.N, _)

/-- and the third's. -/
private theorem idx_v : ∀ t : Fin cfg0.N, win0_4.index t (0 : Fin 3) = t.val / 4
    ∧ win0_4.index t (1 : Fin 3) = t.val % 4 ∧ win0_4.index t (2 : Fin 3) = 0 :=
  (by decide +kernel : ∀ t : Fin grid0.N, _)

/-! ## The whole-array functions -/

/-- x · w restricted to the 64 columns col: entry (b, i, e) is Σ_k x(b, i, k) · w(k, col e). -/
private def proj (col : Fin 64 → Fin 192) (X : S8x4096x1024.Idx → EReal) (W : S1024x192.Idx → EReal) :
    S8x4096x64.Idx → EReal :=
  fun j => ∑ k : Fin 1024, X (ix3 (j 0) (j 1) k) * W (ix2 k (col (j 2)))

/-- The three groups of 64 columns. -/
private abbrev colq : Fin 64 → Fin 192 := fun e => ⟨e.val, by omega⟩
private abbrev colk : Fin 64 → Fin 192 := fun e => ⟨e.val + 64, by omega⟩
private abbrev colv : Fin 64 → Fin 192 := fun e => ⟨e.val + 128, by omega⟩

/-- An index of a block with one batch row is (0, r, e). -/
private theorem eq_ix3_unit {n1 n2 : Nat} (y : (⟨3, ![1, n1, n2]⟩ : Shape).Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

/-- The three payloads at any index of the output block: row y 1 of the x block against column col (y 2) of the weight block. -/
private theorem pay2_at (x : Vec 𝔽 S1x1024x1024 .f32) (w : Vec 𝔽 S1024x192 .f32) (y : S1x1024x64.Idx) :
    k0_pay2 x w y = ∑ k : Fin 1024, x (ix3 0 (y 1) k) * w (ix2 k (colq (y 2))) :=
  (congrArg (k0_pay2 x w) (eq_ix3_unit y)).trans (PayIdx.k0_pay2_apply x w (y 1) (y 2))

private theorem pay3_at (x : Vec 𝔽 S1x1024x1024 .f32) (w : Vec 𝔽 S1024x192 .f32) (y : S1x1024x64.Idx) :
    k0_pay3 x w y = ∑ k : Fin 1024, x (ix3 0 (y 1) k) * w (ix2 k (colk (y 2))) :=
  (congrArg (k0_pay3 x w) (eq_ix3_unit y)).trans (PayIdx.k0_pay3_apply x w (y 1) (y 2))

private theorem pay4_at (x : Vec 𝔽 S1x1024x1024 .f32) (w : Vec 𝔽 S1024x192 .f32) (y : S1x1024x64.Idx) :
    k0_pay4 x w y = ∑ k : Fin 1024, x (ix3 0 (y 1) k) * w (ix2 k (colv (y 2))) :=
  (congrArg (k0_pay4 x w) (eq_ix3_unit y)).trans (PayIdx.k0_pay4_apply x w (y 1) (y 2))

section R0
variable (V : (c : Dev nD) → (b : Ref sig .tc) → Buf (Elt 𝔽) ((c : Thread nD τ).loc b))

/-! ## The input blocks, read off the arrays -/

/-- Entry (0, r, k) of the x block at point t is entry (t / 4, (t % 4)·1024 + r, k) of x. -/
private theorem xblk_apply (c : Dev nD) (t : Fin cfg0.N) (y : S1x1024x1024.Idx) (i : S8x4096x1024.Idx)
    (h0 : (i 0).val = t.val / 4) (h1 : (i 1).val = (t.val % 4) * 1024 + (y 1).val) (h2 : (i 2).val = (y 2).val) :
    iblk0 (F := 𝔽) V c 0 t y = V c main_arg0 i := by
  obtain ⟨e0, e1, e2⟩ := idx_x t
  show V c main_arg0 (((cfg0.win 0).blk t).view.emb y) = V c main_arg0 i
  refine congrArg _ (funext fun a => Fin.ext ?_)
  match a with
  | ⟨0, _⟩ => show win0_0.index t (0 : Fin 3) * 1 + 1 * (y 0).val = (i 0).val; have hy : (y 0).val < 1 := (y 0).isLt; omega
  | ⟨1, _⟩ => show win0_0.index t (1 : Fin 3) * 1024 + 1 * (y 1).val = (i 1).val; omega
  | ⟨2, _⟩ => show win0_0.index t (2 : Fin 3) * 1024 + 1 * (y 2).val = (i 2).val; omega

/-- The weight block at every point is the whole weight matrix. -/
private theorem wblk_eq (c : Dev nD) (t : Fin cfg0.N) : iblk0 (F := 𝔽) V c 1 t = V c main_v0 := by
  obtain ⟨e0, e1⟩ := idx_w t
  funext y
  show V c main_v0 (((cfg0.win 1).blk t).view.emb y) = V c main_v0 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 192 + 1 * (y 1).val = (y 1).val; omega

/-! ## The first output -/

/-- What point t writes back to the first output is block t of x · w[:, 0:64]. -/
private theorem flushed_q (c : Dev nD) (t : Fin cfg0.N) :
    (dat0 (F := 𝔽) V c).flushed 2 t
      = ((cfg0.win 2).blk t).view.read (Elt 𝔽) (proj colq (V c main_arg0) (V c main_v0)) := by
  show (cfg0.win 2).cut (grid0.coords t) ((dat0 (F := 𝔽) V c).after 2 t) = _
  rw [after0_2, wblk_eq]
  obtain ⟨e0, e1, e2⟩ := idx_q t
  funext y
  show k0_pay2 (iblk0 (F := 𝔽) V c 0 t) (V c main_v0) y
    = proj colq (V c main_arg0) (V c main_v0) (((cfg0.win 2).blk t).view.emb y)
  rw [pay2_at]
  unfold proj
  refine Finset.sum_congr rfl fun k _ => ?_
  have hc : colq (y 2) = colq ((((cfg0.win 2).blk t).view.emb y) 2) := Fin.ext (by
    show (y 2).val = win0_2.index t (2 : Fin 3) * 64 + 1 * (y 2).val; omega)
  rw [← hc]
  refine congrArg (· * _) ?_
  refine xblk_apply V c t _ _ ?_ ?_ rfl
  · show win0_2.index t (0 : Fin 3) * 1 + 1 * (y 0).val = t.val / 4
    have hy : (y 0).val < 1 := (y 0).isLt; omega
  · show win0_2.index t (1 : Fin 3) * 1024 + 1 * (y 1).val = (t.val % 4) * 1024 + (y 1).val
    omega

/-- An index of the first output is in point t's block iff each coordinate is in the block's range on its axis. -/
private theorem mem_blk_q (t : Fin cfg0.N) (i : S8x4096x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v1_0).slice (win0_2.rect t)).set ↔ _
  rw [View.set_slice_whole, Rect.mem_set_unit]
  exact Iff.rfl

/-- Row i of batch b of the first output lies in the block of point 4·b + i / 1024. -/
private theorem cover_q (i : S8x4096x64.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 64 := (i 2).isLt
  obtain ⟨t, ht⟩ : ∃ t : Fin cfg0.N, t.val = 4 * (i 0).val + (i 1).val / 1024 :=
    ⟨⟨4 * (i 0).val + (i 1).val / 1024, by rw [show cfg0.N = 32 from N_0]; omega⟩, rfl⟩
  obtain ⟨e0, e1, e2⟩ := idx_q t
  refine ⟨t, flush0_2 t, ?_⟩
  rw [mem_blk_q]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- After the last point the first output is x · w[:, 0:64]. -/
private theorem final_q (c : Dev nD) :
    (dat0 (F := 𝔽) V c).arrAt 2 cfg0.N = proj colq (V c main_arg0) (V c main_v0) :=
  (dat0 (F := 𝔽) V c).arrAt_eq_of_cover 2 _ (fun t _ => flushed_q V c t) cover_q

theorem q_eq (c : Dev nD) (b : Fin 8) (i : Fin 4096) (e : Fin 64) :
    arr3 ((dat0 (F := 𝔽) V c).arrAt 2 cfg0.N) b i e
      = ∑ k : Fin 1024, arr3 (V c main_arg0) b i k * arr2 (V c main_v0) k ⟨e.val, by omega⟩ := by
  rw [final_q]
  rfl

/-! ## The second output -/

/-- What point t writes back to the second output is block t of x · w[:, 64:128]. -/
private theorem flushed_k (c : Dev nD) (t : Fin cfg0.N) :
    (dat0 (F := 𝔽) V c).flushed 3 t
      = ((cfg0.win 3).blk t).view.read (Elt 𝔽) (proj colk (V c main_arg0) (V c main_v0)) := by
  show (cfg0.win 3).cut (grid0.coords t) ((dat0 (F := 𝔽) V c).after 3 t) = _
  rw [after0_3, wblk_eq]
  obtain ⟨e0, e1, e2⟩ := idx_k t
  funext y
  show k0_pay3 (iblk0 (F := 𝔽) V c 0 t) (V c main_v0) y
    = proj colk (V c main_arg0) (V c main_v0) (((cfg0.win 3).blk t).view.emb y)
  rw [pay3_at]
  unfold proj
  refine Finset.sum_congr rfl fun k _ => ?_
  have hc : colk (y 2) = colk ((((cfg0.win 3).blk t).view.emb y) 2) := Fin.ext (by
    show (y 2).val + 64 = win0_3.index t (2 : Fin 3) * 64 + 1 * (y 2).val + 64; omega)
  rw [← hc]
  refine congrArg (· * _) ?_
  refine xblk_apply V c t _ _ ?_ ?_ rfl
  · show win0_3.index t (0 : Fin 3) * 1 + 1 * (y 0).val = t.val / 4
    have hy : (y 0).val < 1 := (y 0).isLt; omega
  · show win0_3.index t (1 : Fin 3) * 1024 + 1 * (y 1).val = (t.val % 4) * 1024 + (y 1).val
    omega

/-- An index of the second output is in point t's block iff each coordinate is in the block's range on its axis. -/
private theorem mem_blk_k (t : Fin cfg0.N) (i : S8x4096x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v1_1).slice (win0_3.rect t)).set ↔ _
  rw [View.set_slice_whole, Rect.mem_set_unit]
  exact Iff.rfl

/-- Row i of batch b of the second output lies in the block of point 4·b + i / 1024. -/
private theorem cover_k (i : S8x4096x64.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 64 := (i 2).isLt
  obtain ⟨t, ht⟩ : ∃ t : Fin cfg0.N, t.val = 4 * (i 0).val + (i 1).val / 1024 :=
    ⟨⟨4 * (i 0).val + (i 1).val / 1024, by rw [show cfg0.N = 32 from N_0]; omega⟩, rfl⟩
  obtain ⟨e0, e1, e2⟩ := idx_k t
  refine ⟨t, flush0_3 t, ?_⟩
  rw [mem_blk_k]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- After the last point the second output is x · w[:, 64:128]. -/
private theorem final_k (c : Dev nD) :
    (dat0 (F := 𝔽) V c).arrAt 3 cfg0.N = proj colk (V c main_arg0) (V c main_v0) :=
  (dat0 (F := 𝔽) V c).arrAt_eq_of_cover 3 _ (fun t _ => flushed_k V c t) cover_k

theorem k_eq (c : Dev nD) (b : Fin 8) (i : Fin 4096) (e : Fin 64) :
    arr3 ((dat0 (F := 𝔽) V c).arrAt 3 cfg0.N) b i e
      = ∑ k : Fin 1024, arr3 (V c main_arg0) b i k * arr2 (V c main_v0) k ⟨e.val + 64, by omega⟩ := by
  rw [final_k]
  rfl

/-! ## The third output -/

/-- What point t writes back to the third output is block t of x · w[:, 128:192]. -/
private theorem flushed_v (c : Dev nD) (t : Fin cfg0.N) :
    (dat0 (F := 𝔽) V c).flushed 4 t
      = ((cfg0.win 4).blk t).view.read (Elt 𝔽) (proj colv (V c main_arg0) (V c main_v0)) := by
  show (cfg0.win 4).cut (grid0.coords t) ((dat0 (F := 𝔽) V c).after 4 t) = _
  rw [after0_4, wblk_eq]
  obtain ⟨e0, e1, e2⟩ := idx_v t
  funext y
  show k0_pay4 (iblk0 (F := 𝔽) V c 0 t) (V c main_v0) y
    = proj colv (V c main_arg0) (V c main_v0) (((cfg0.win 4).blk t).view.emb y)
  rw [pay4_at]
  unfold proj
  refine Finset.sum_congr rfl fun k _ => ?_
  have hc : colv (y 2) = colv ((((cfg0.win 4).blk t).view.emb y) 2) := Fin.ext (by
    show (y 2).val + 128 = win0_4.index t (2 : Fin 3) * 64 + 1 * (y 2).val + 128; omega)
  rw [← hc]
  refine congrArg (· * _) ?_
  refine xblk_apply V c t _ _ ?_ ?_ rfl
  · show win0_4.index t (0 : Fin 3) * 1 + 1 * (y 0).val = t.val / 4
    have hy : (y 0).val < 1 := (y 0).isLt; omega
  · show win0_4.index t (1 : Fin 3) * 1024 + 1 * (y 1).val = (t.val % 4) * 1024 + (y 1).val
    omega

/-- An index of the third output is in point t's block iff each coordinate is in the block's range on its axis. -/
private theorem mem_blk_v (t : Fin cfg0.N) (i : S8x4096x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v1_2).slice (win0_4.rect t)).set ↔ _
  rw [View.set_slice_whole, Rect.mem_set_unit]
  exact Iff.rfl

/-- Row i of batch b of the third output lies in the block of point 4·b + i / 1024. -/
private theorem cover_v (i : S8x4096x64.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 64 := (i 2).isLt
  obtain ⟨t, ht⟩ : ∃ t : Fin cfg0.N, t.val = 4 * (i 0).val + (i 1).val / 1024 :=
    ⟨⟨4 * (i 0).val + (i 1).val / 1024, by rw [show cfg0.N = 32 from N_0]; omega⟩, rfl⟩
  obtain ⟨e0, e1, e2⟩ := idx_v t
  refine ⟨t, flush0_4 t, ?_⟩
  rw [mem_blk_v]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- After the last point the third output is x · w[:, 128:192]. -/
private theorem final_v (c : Dev nD) :
    (dat0 (F := 𝔽) V c).arrAt 4 cfg0.N = proj colv (V c main_arg0) (V c main_v0) :=
  (dat0 (F := 𝔽) V c).arrAt_eq_of_cover 4 _ (fun t _ => flushed_v V c t) cover_v

theorem v_eq (c : Dev nD) (b : Fin 8) (i : Fin 4096) (e : Fin 64) :
    arr3 ((dat0 (F := 𝔽) V c).arrAt 4 cfg0.N) b i e
      = ∑ k : Fin 1024, arr3 (V c main_arg0) b i k * arr2 (V c main_v0) k ⟨e.val + 128, by omega⟩ := by
  rw [final_v]
  rfl

end R0

end Cert.KernelIdeal.Gen

end
-- ==== Proof.KIPayIdx.lean ====
/-
  The kernel's per-point arithmetic read at an index, over the extended reals.

  Row r of a query block against a key block: the score of column c is (Σ_e q(r,e)·k(c,e))·(1/8); folding a key tile into
  the carried (m, l, a) of row r is `Cert.Spec.rowStep` with that tile's scores — on the diagonal tile with −∞ above the
  diagonal — and its value rows; the result block is numerator over denominator.
-/
import proofs.«410793_j34746285425245_3_alg».proof.Proof.KIStep
import proofs.«410793_j34746285425245_3_alg».proof.Proof.Spec
import proofs.«410793_j34746285425245_3_alg».proof.Proof.Adapt
import proofs.«410793_j34746285425245_3_alg».proof.Proof.LibTransposedMatmul
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.PayIdx

open Idealize.ShloMosaic Idealize.SL.Sem Cert.KernelIdeal Cert.KernelIdeal.Gen Cert.Spec
open Idealize.ShloMosaic.ValueIdx

/-- The scaled score of row r of the query block against row c of the key block. -/
def sc (q k : Vec Ideal S1x1024x64 .bf16) (r c : Fin 1024) : EReal :=
  (∑ e : Fin 64, q (ix3 0 r e) * k (ix3 0 c e)) * Ideal.ofBits .f32 0x3E000000#32

/-- Row r of the carried values as a row state. -/
def rowOf (m l : Vec Ideal S1x1024x1 .f32) (a : Vec Ideal S1x1024x64 .f32) (r : Fin 1024) : RowSt :=
  ⟨m (ix3 0 r 0), l (ix3 0 r 0), fun d => a (ix3 0 r d)⟩

/-! ## Layout operations at coordinates -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The initial carried values -/

/-- The fill constant is −∞. -/
private theorem neg_big : Named.named (F := Ideal) Cert.KernelIdeal.κ "neg_big" (φ := .f32) 0xF149F2CA#32 = ⊥ :=
  IdealRules.named_const.ideal_named_scalar _ _ _ _ rfl

theorem rowOf_init (r : Fin 1024) : rowOf (mInit (F := Ideal)) lInit aInit r = rowInit := by
  unfold rowOf rowInit
  refine RowSt.mk.injEq _ _ _ _ _ _ ▸ ⟨?_, ?_, ?_⟩
  · show k1_pay1 (F := Ideal) (ix3 0 r 0) = ⊥
    unfold k1_pay1
    rw [shapeCast_self]
    exact neg_big
  · show k1_pay2 (F := Ideal) (ix3 0 r 0) = 0
    unfold k1_pay2
    rw [shapeCast_self]
    exact Ideal.ofBits_zero_f32
  · funext d
    show k1_pay3 (F := Ideal) (ix3 0 r d) = 0
    unfold k1_pay3
    rw [shapeCast_self]
    exact Ideal.ofBits_zero_f32

/-! ## The two products -/

/-- The product of the weights with the value rows: the left operand's index at output index i and contraction index q is row i 0 … -/
private theorem pv_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- … and column q; -/
private theorem pv_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- the right operand's index is row q … -/
private theorem pv_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- … and column i 1. -/
private theorem pv_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product of the weights with the value rows into the zero accumulator: entry (r, d) is ∑ c, x[r, c] · y[c, d]. -/
private theorem pv_apply {φ₁ φ₂ : FTy} (x : FVec Ideal S1024x1024 φ₁) (y : FVec Ideal S1024x64 φ₂) (r : Fin 1024) (d : Fin 64) :
    matmul dot_S1024x1024_S1024x64_S1024x64_1_0_0_1_n_n none x y (constant (F := Ideal) S1024x64 .f32 0x00000000#32) (ix2 r d)
      = ∑ c : Fin 1024, x (ix2 r c) * y (ix2 c d) := by
  show FloatOps.matmul dot_S1024x1024_S1024x64_S1024x64_1_0_0_1_n_n none x y (constant (F := Ideal) S1024x64 .f32 0x00000000#32) (ix2 r d) = _
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d) ((contrEquiv1 dot_S1024x1024_S1024x64_S1024x64_1_0_0_1_n_n 1024 rfl rfl).symm k) = ix2 r k := funext fun a => Fin.ext (by
    match a with
    | ⟨0, _⟩ => exact pv_lhs_0 _ _
    | ⟨1, _⟩ => exact (pv_lhs_1 _ _).trans hk)
  have er : dot_S1024x1024_S1024x64_S1024x64_1_0_0_1_n_n.rhsIdx (ix2 r d) ((contrEquiv1 dot_S1024x1024_S1024x64_S1024x64_1_0_0_1_n_n 1024 rfl rfl).symm k) = ix2 k d := funext fun a => Fin.ext (by
    match a with
    | ⟨0, _⟩ => exact (pv_rhs_0 _ _).trans hk
    | ⟨1, _⟩ => exact pv_rhs_1 _ _)
  rw [el, er]

/-- The score product's dimension numbers are those of a product with the right operand stored transposed. -/
private theorem dotT_eq : dot_S1024x64_S1024x64_S1024x1024_1_1_0_0_n_n = DotDims.transposedRhs 1024 64 1024 := rfl

/-- The score product into the zero accumulator: entry (r, c) is ∑ e, x[r, e] · y[c, e]. -/
private theorem qk_apply (x y : FVec Ideal S1024x64 .bf16) (r c : Fin 1024) :
    matmul dot_S1024x64_S1024x64_S1024x1024_1_1_0_0_n_n none x y (constant (F := Ideal) S1024x1024 .f32 0x00000000#32) (ix2 r c)
      = ∑ e : Fin 64, x (ix2 r e) * y (ix2 c e) := by
  rw [dotT_eq]
  exact Cert.LibTransposedMatmul.matmul_transposed_apply none x y r c

/-! ## Reductions along a row -/

/-- The accumulator pattern of a row maximum denotes −∞. -/
private theorem ofBits_neg_inf : Ideal.ofBits .f32 0xFF800000#32 = ⊥ := by simp [Ideal.ofBits, Ideal.ieee]

/-- A fold of max from −∞ is the supremum. -/
private theorem fold_max_eq_sup {ι : Type} (s : Finset ι) (b : EReal) (hb : b = ⊥) (f g : ι → EReal) (hfg : f = g) :
    s.fold max b f = s.sup g := by
  subst hb hfg; rfl

/-- The source index over row r with column c inserted is (r, c). -/
private theorem lift_row (r : Fin 1024) (c : Fin (S1024x1024.size 1)) :
    reduces_S1024x1024_S1024.lift (ValueIdx.ix1 r) c = ix2 r c :=
  funext fun a => Fin.ext (by match a with | ⟨0, _⟩ => rfl | ⟨1, _⟩ => rfl)

/-- A row maximum: at row r, the supremum over the columns. -/
private theorem rowmax_apply (X : FVec Ideal S1024x1024 .f32) (r : Fin 1024) (hφ : FKind.Formats .f32)
    (hacc : (0xFF800000#32 : BitVec 32) = FKind.maximumf.neutral .f32 hφ) :
    multiReduction (F := Ideal) .maximumf [1] S1024 X 0xFF800000#32 reduces_S1024x1024_S1024 hφ hacc (ValueIdx.ix1 r)
      = Finset.univ.sup fun c : Fin 1024 => X (ix2 r c) :=
  (Ideal.multiReduction_maximumf_single X 0xFF800000#32 reduces_S1024x1024_S1024 hφ hacc (ValueIdx.ix1 r)).trans
    (fold_max_eq_sup _ _ ofBits_neg_inf _ _ (funext fun c => congrArg X (lift_row r c)))

/-- A row sum: at row r, the sum over the columns. -/
private theorem rowsum_apply (X : FVec Ideal S1024x1024 .f32) (r : Fin 1024) (hφ : FKind.Formats .f32)
    (hacc : (0x00000000#32 : BitVec 32) = FKind.add.neutral .f32 hφ) :
    multiReduction (F := Ideal) .add [1] S1024 X 0x00000000#32 reduces_S1024x1024_S1024 hφ hacc (ValueIdx.ix1 r)
      = ∑ c : Fin 1024, X (ix2 r c) :=
  (Ideal.multiReduction_add_single X 0x00000000#32 reduces_S1024x1024_S1024 hφ hacc (ValueIdx.ix1 r)).trans
    (Finset.sum_congr rfl fun c _ => congrArg X (lift_row r c))

/-! ## The payloads of an off-diagonal key tile -/

/-- The score block at (r, c). -/
private theorem pay5_apply (q k : Vec Ideal S1x1024x64 .bf16) (r c : Fin 1024) : k1_pay5 q k (ix2 r c) = sc q k r c := by
  unfold k1_pay5 sc
  show matmul dot_S1024x64_S1024x64_S1024x1024_1_1_0_0_n_n none (shapeCast S1024x64 q shapeCasts_S1x1024x64_S1024x64)
      (shapeCast S1024x64 k shapeCasts_S1x1024x64_S1024x64) (constant (F := Ideal) S1024x1024 .f32 0x00000000#32) (ix2 r c)
        * Ideal.ofBits .f32 0x3E000000#32 = _
  refine congrArg (· * Ideal.ofBits .f32 0x3E000000#32) ?_
  refine (qk_apply _ _ r c).trans (Finset.sum_congr rfl fun e _ => ?_)
  rw [shapeCast_1ab_ab_apply, shapeCast_1ab_ab_apply]

/-- The carried maximum as a column. -/
private theorem pay6_apply (m : Vec Ideal S1x1024x1 .f32) (r : Fin 1024) : k1_pay6 m (ix2 r (0 : Fin 1)) = m (ix3 0 r 0) := by
  unfold k1_pay6
  exact shapeCast_1ab_ab_apply _ _ r 0

/-- The new maximum of row r. -/
private theorem pay7_apply (q k : Vec Ideal S1x1024x64 .bf16) (m : Vec Ideal S1x1024x1 .f32) (r : Fin 1024) :
    k1_pay7 q k m (ix2 r (0 : Fin 1)) = max (m (ix3 0 r 0)) (Finset.univ.sup fun c => sc q k r c) := by
  unfold k1_pay7
  refine congrArg₂ max (pay6_apply m r) ?_
  refine (shapeCast_a_a1_apply _ _ r 0).trans ?_
  refine (rowmax_apply _ r _ _).trans ?_
  exact congrArg Finset.univ.sup (funext fun c => pay5_apply q k r c)

/-- The rescaling factor of row r. -/
private theorem pay8_apply (q k : Vec Ideal S1x1024x64 .bf16) (m : Vec Ideal S1x1024x1 .f32) (r : Fin 1024) :
    k1_pay8 q k m (ix2 r (0 : Fin 1))
      = Ideal.exp (m (ix3 0 r 0) - max (m (ix3 0 r 0)) (Finset.univ.sup fun c => sc q k r c)) := by
  unfold k1_pay8
  exact congrArg Ideal.exp (congrArg₂ (· - ·) (pay6_apply m r) (pay7_apply q k m r))

/-- The shifted exponential at (r, c). -/
private theorem pay9_apply (q k : Vec Ideal S1x1024x64 .bf16) (m : Vec Ideal S1x1024x1 .f32) (r c : Fin 1024) :
    k1_pay9 q k m (ix2 r c)
      = Ideal.exp (sc q k r c - max (m (ix3 0 r 0)) (Finset.univ.sup fun c => sc q k r c)) := by
  unfold k1_pay9
  exact congrArg Ideal.exp (congrArg₂ (· - ·) (pay5_apply q k r c)
    ((broadcastTo_a1_ab_apply _ _ r c).trans (pay7_apply q k m r)))

/-- The new denominator of row r. -/
private theorem pay10_apply (q k : Vec Ideal S1x1024x64 .bf16) (m l : Vec Ideal S1x1024x1 .f32) (r : Fin 1024) :
    k1_pay10 q k m l (ix3 0 r 0)
      = Ideal.exp (m (ix3 0 r 0) - max (m (ix3 0 r 0)) (Finset.univ.sup fun c => sc q k r c)) * l (ix3 0 r 0)
        + ∑ c : Fin 1024, Ideal.exp (sc q k r c - max (m (ix3 0 r 0)) (Finset.univ.sup fun c => sc q k r c)) := by
  unfold k1_pay10
  refine (shapeCast_ab_1ab_apply _ _ 0 r 0).trans ?_
  refine congrArg₂ (· + ·) (congrArg₂ (· * ·) (pay8_apply q k m r) (shapeCast_1ab_ab_apply _ _ r 0)) ?_
  refine (shapeCast_a_a1_apply _ _ r 0).trans ?_
  refine (rowsum_apply _ r _ _).trans ?_
  exact Finset.sum_congr rfl fun c _ => pay9_apply q k m r c

/-- The new numerator of row r at column d. -/
private theorem pay11_apply (q k v : Vec Ideal S1x1024x64 .bf16) (m : Vec Ideal S1x1024x1 .f32) (a : Vec Ideal S1x1024x64 .f32)
    (r : Fin 1024) (d : Fin 64) :
    k1_pay11 q k v m a (ix3 0 r d)
      = Ideal.exp (m (ix3 0 r 0) - max (m (ix3 0 r 0)) (Finset.univ.sup fun c => sc q k r c)) * a (ix3 0 r d)
        + ∑ c : Fin 1024, Ideal.exp (sc q k r c - max (m (ix3 0 r 0)) (Finset.univ.sup fun c => sc q k r c)) * v (ix3 0 c d) := by
  unfold k1_pay11
  refine (shapeCast_ab_1ab_apply _ _ 0 r d).trans ?_
  refine congrArg₂ (· + ·) (congrArg₂ (· * ·) ((broadcastTo_a1_ab_apply _ _ r d).trans (pay8_apply q k m r))
    (shapeCast_1ab_ab_apply _ _ r d)) ?_
  refine (pv_apply _ _ r d).trans ?_
  refine Finset.sum_congr rfl fun c _ => congrArg₂ (· * ·) (pay9_apply q k m r c) ?_
  unfold k1_pay4
  exact shapeCast_1ab_ab_apply _ _ c d

/-- The new maximum as stored. -/
private theorem pay12_apply (q k : Vec Ideal S1x1024x64 .bf16) (m : Vec Ideal S1x1024x1 .f32) (r : Fin 1024) :
    k1_pay12 q k m (ix3 0 r 0) = max (m (ix3 0 r 0)) (Finset.univ.sup fun c => sc q k r c) := by
  unfold k1_pay12
  exact (shapeCast_ab_1ab_apply _ _ 0 r 0).trans (pay7_apply q k m r)

theorem rowOf_off (q k v : Vec Ideal S1x1024x64 .bf16) (m l : Vec Ideal S1x1024x1 .f32) (a : Vec Ideal S1x1024x64 .f32) (r : Fin 1024) :
    rowOf (mOff q k m) (lOff q k m l) (aOff q k v m a) r
      = rowStep (fun c => sc q k r c) (fun c d => v (ix3 0 c d)) (rowOf m l a r) := by
  unfold rowOf rowStep mOff lOff aOff
  refine RowSt.mk.injEq _ _ _ _ _ _ ▸ ⟨?_, ?_, ?_⟩
  · exact pay12_apply q k m r
  · exact pay10_apply q k m l r
  · funext d
    exact pay11_apply q k v m a r d

end Cert.KernelIdeal.PayIdx

end
-- ==== Proof.KIPayIdxDg.lean ====
/-
  The diagonal key tile read at an index: the entries above the diagonal are −∞ before the tile is folded into a row's
  carried (m, l, a); the result block is numerator over denominator.
-/
import proofs.«410793_j34746285425245_3_alg».proof.Proof.KIStep
import proofs.«410793_j34746285425245_3_alg».proof.Proof.Spec
import proofs.«410793_j34746285425245_3_alg».proof.Proof.Adapt
import proofs.«410793_j34746285425245_3_alg».proof.Proof.LibTransposedMatmul
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

import proofs.«410793_j34746285425245_3_alg».proof.Proof.KIPayIdx

noncomputable section

namespace Cert.KernelIdeal.PayIdx

open Idealize.ShloMosaic Idealize.SL.Sem Cert.KernelIdeal Cert.KernelIdeal.Gen Cert.Spec
open Idealize.ShloMosaic.ValueIdx

/-! ## Layout: a column vector from a vector, a column spread over the lanes -/

/-- A length-1024 vector cast to a 1024 × 1 column reads, at (r, u), the vector at r. -/
private theorem col_cast_apply {α : Type} (x : S1024.Idx → α) (r : Fin 1024) (u : Fin 1) :
    shapeCast S1024x1 x shapeCasts_S1024_S1024x1 (ix2 r u) = x (ValueIdx.ix1 r) :=
  shapeCast_apply x _ _ _ (by
    have hu : u.val = 0 := by omega
    rw [Shape.rowMajor_val_two, Shape.rowMajor_val_one]
    show r.val = r.val * 1 + u.val
    rw [hu, Nat.mul_one, Nat.add_zero])

/-- A 1024 × 1 column spread over 64 lanes reads, at (r, d), the column at r. -/
private theorem col_bcast64_apply {α : Type} (x : S1024x1.Idx → α) (r : Fin 1024) (d : Fin 64) :
    broadcastTo S1024x64 x broadcasts_S1024x1_S1024x64 (ix2 r d) = x (ix2 r (0 : Fin 1)) := by
  refine broadcastTo_apply x _ (ix2 r d) (ix2 r (0 : Fin 1)) fun ax => ?_
  match ax with
  | ⟨0, _⟩ => rfl
  | ⟨1, _⟩ => rfl

/-- A 1024 × 1 column spread over 1024 lanes reads, at (r, c), the column at r. -/
private theorem col_bcast1024_apply {α : Type} (x : S1024x1.Idx → α) (r : Fin 1024) (c : Fin 1024) :
    broadcastTo S1024x1024 x broadcasts_S1024x1_S1024x1024 (ix2 r c) = x (ix2 r (0 : Fin 1)) := by
  refine broadcastTo_apply x _ (ix2 r c) (ix2 r (0 : Fin 1)) fun ax => ?_
  match ax with
  | ⟨0, _⟩ => rfl
  | ⟨1, _⟩ => rfl

/-- The fill constant is −∞. -/
private theorem neg_big_eq : Named.named (F := Ideal) Cert.KernelIdeal.κ "neg_big" (φ := .f32) 0xF149F2CA#32 = (⊥ : EReal) :=
  IdealRules.named_const.ideal_named_scalar _ _ _ _ rfl

/-- The index over row r with lane c inserted is (r, c). -/
private theorem lane_lift (r c : Fin 1024) : reduces_S1024x1024_S1024.lift (ValueIdx.ix1 r) c = ix2 r c := by
  funext a
  match a with
  | ⟨0, _⟩ => exact Fin.ext rfl
  | ⟨1, _⟩ => exact Fin.ext rfl

/-- The accumulator word of a lane maximum is −∞. -/
private theorem ofBits_neg_inf : Ideal.ofBits .f32 0xFF800000#32 = (⊥ : EReal) := by
  simp [Ideal.ofBits, Ideal.ieee]

/-- A fold of max from −∞ over all lanes is the supremum. -/
private theorem fold_max_bot {n : ℕ} (f : Fin n → EReal) :
    (Finset.univ : Finset (Fin n)).fold max (⊥ : EReal) f = Finset.univ.sup f := by
  rw [Finset.sup_def, Finset.fold]
  rfl

/-- A lane maximum of a 1024 × 1024 tile at row r. -/
private theorem lane_max_apply (x : FVec Ideal S1024x1024 .f32) (hφ : FKind.Formats .f32)
    (hacc : (0xFF800000#32 : BitVec 32) = FKind.maximumf.neutral .f32 hφ) (r : Fin 1024) :
    multiReduction (F := Ideal) .maximumf [1] S1024 x 0xFF800000#32 reduces_S1024x1024_S1024 hφ hacc (ValueIdx.ix1 r)
      = Finset.univ.sup fun c : Fin 1024 => x (ix2 r c) := by
  refine (Ideal.multiReduction_maximumf_single x _ reduces_S1024x1024_S1024 hφ hacc (ValueIdx.ix1 r)).trans ?_
  rw [Ideal.ofBits_def, ofBits_neg_inf]
  refine (fold_max_bot _).trans ?_
  exact congrArg _ (funext fun c => congrArg x (lane_lift r c))

/-- A lane sum of a 1024 × 1024 tile at row r. -/
private theorem lane_sum_apply (x : FVec Ideal S1024x1024 .f32) (hφ : FKind.Formats .f32)
    (hacc : (0x00000000#32 : BitVec 32) = FKind.add.neutral .f32 hφ) (r : Fin 1024) :
    multiReduction (F := Ideal) .add [1] S1024 x 0x00000000#32 reduces_S1024x1024_S1024 hφ hacc (ValueIdx.ix1 r)
      = ∑ c : Fin 1024, x (ix2 r c) := by
  refine (Ideal.multiReduction_add_single x _ reduces_S1024x1024_S1024 hφ hacc (ValueIdx.ix1 r)).trans ?_
  exact Finset.sum_congr rfl fun c _ => congrArg x (lane_lift r c)

/-! ## The two matrix products at an entry -/

private theorem pv_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
private theorem pv_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
private theorem pv_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
private theorem pv_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A 1024 × 1024 tile times a 1024 × 64 block into the zero accumulator: entry (r, d) is Σ_c l(r, c) · w(c, d). -/
private theorem pv_matmul_apply {φ₁ φ₂ : FTy} (l : FVec Ideal S1024x1024 φ₁) (w : FVec Ideal S1024x64 φ₂) (r : Fin 1024) (d : Fin 64) :
    matmul dot_S1024x1024_S1024x64_S1024x64_1_0_0_1_n_n none l w (constant (F := Ideal) S1024x64 .f32 0x00000000#32) (ix2 r d)
      = ∑ c : Fin 1024, l (ix2 r c) * w (ix2 c d) := by
  refine (Ideal.matmul_constant_zero_apply dot_S1024x1024_S1024x64_S1024x64_1_0_0_1_n_n none l w (ix2 r d)).trans ?_
  rw [← Equiv.sum_comp (contrEquiv1 dot_S1024x1024_S1024x64_S1024x64_1_0_0_1_n_n 1024 rfl rfl).symm]
  refine Finset.sum_congr rfl fun c _ => ?_
  have hk := contrEquiv1_symm_val dot_S1024x1024_S1024x64_S1024x64_1_0_0_1_n_n 1024 rfl rfl c
  have el : dot_S1024x1024_S1024x64_S1024x64_1_0_0_1_n_n.lhsIdx (ix2 r d) ((contrEquiv1 dot_S1024x1024_S1024x64_S1024x64_1_0_0_1_n_n 1024 rfl rfl).symm c) = ix2 r c := funext fun a => Fin.ext (by
    match a with
    | ⟨0, _⟩ => exact pv_lhs_0 _ _
    | ⟨1, _⟩ => exact (pv_lhs_1 _ _).trans hk)
  have er : dot_S1024x1024_S1024x64_S1024x64_1_0_0_1_n_n.rhsIdx (ix2 r d) ((contrEquiv1 dot_S1024x1024_S1024x64_S1024x64_1_0_0_1_n_n 1024 rfl rfl).symm c) = ix2 c d := funext fun a => Fin.ext (by
    match a with
    | ⟨0, _⟩ => exact (pv_rhs_0 _ _).trans hk
    | ⟨1, _⟩ => exact pv_rhs_1 _ _)
  rw [el, er]

/-- A 1024 × 64 block against a 1024 × 64 block stored by rows, into the zero accumulator: entry (r, c) is Σ_e l(r, e) · w(c, e). -/
private theorem qk_matmul_apply (l w : FVec Ideal S1024x64 .bf16) (r c : Fin 1024) :
    matmul dot_S1024x64_S1024x64_S1024x1024_1_1_0_0_n_n none l w (constant (F := Ideal) S1024x1024 .f32 0x00000000#32) (ix2 r c)
      = ∑ e : Fin 64, l (ix2 r e) * w (ix2 c e) := by
  have hD : dot_S1024x64_S1024x64_S1024x1024_1_1_0_0_n_n = DotDims.transposedRhs 1024 64 1024 := rfl
  rw [hD]
  exact Cert.LibTransposedMatmul.matmul_transposed_apply none l w r c

/-! ## The score tile and its mask -/

/-- The value block as a matrix. -/
private theorem pay4_apply (v : Vec Ideal S1x1024x64 .bf16) (c : Fin 1024) (d : Fin 64) :
    k1_pay4 v (ix2 c d) = v (ix3 0 c d) := by
  unfold k1_pay4
  exact shapeCast_1ab_ab_apply v _ c d

/-- The score tile at (r, c). -/
private theorem score_apply (q k : Vec Ideal S1x1024x64 .bf16) (r c : Fin 1024) :
    k1_pay5 q k (ix2 r c) = sc q k r c := by
  unfold k1_pay5 sc
  refine (mulf_apply _ _ _).trans ?_
  refine congrArg₂ (· * ·) ?_ rfl
  refine (qk_matmul_apply _ _ r c).trans ?_
  refine Finset.sum_congr rfl fun e _ => ?_
  rw [shapeCast_1ab_ab_apply, shapeCast_1ab_ab_apply]

/-- The masked tile at (r, c): the entry on and below the diagonal, −∞ above it. -/
private theorem mask_apply (x : FVec Ideal S1024x1024 .f32) (r c : Fin 1024) :
    k1_pay15 x (ix2 r c) = if c.val ≤ r.val then x (ix2 r c) else ⊥ := by
  unfold k1_pay15
  have h0 : iota .tc S1024x1024 32 [0] iota_S1024x1024_d0_w32 (ix2 r c) = BitVec.ofNat 32 r.val :=
    iota_single_apply _ _ _ _ _ _
  have h1 : iota .tc S1024x1024 32 [1] iota_S1024x1024_d1_w32 (ix2 r c) = BitVec.ofNat 32 c.val :=
    iota_single_apply _ _ _ _ _ _
  have hr : (BitVec.ofNat 32 r.val).toNat = r.val := by
    rw [BitVec.toNat_ofNat]; exact Nat.mod_eq_of_lt (by have := r.isLt; omega)
  have hc : (BitVec.ofNat 32 c.val).toNat = c.val := by
    rw [BitVec.toNat_ofNat]; exact Nat.mod_eq_of_lt (by have := c.isLt; omega)
  have hiff : IntOp.cmpi .sge (BitVec.ofNat 32 r.val) (BitVec.ofNat 32 c.val) = 1#1 ↔ c.val ≤ r.val := by
    have := StableHlo.Predicate.sge_iff_toNat (a := BitVec.ofNat 32 r.val) (b := BitVec.ofNat 32 c.val)
      (by rw [hr]; have := r.isLt; omega) (by rw [hc]; have := c.isLt; omega)
    rw [hr, hc] at this
    exact this
  refine (select_apply _ _ _ _).trans ?_
  show Scalar.select (IntOp.cmpi .sge (iota .tc S1024x1024 32 [0] iota_S1024x1024_d0_w32 (ix2 r c))
    (iota .tc S1024x1024 32 [1] iota_S1024x1024_d1_w32 (ix2 r c))) _ _ = _
  rw [h0, h1]
  by_cases h : c.val ≤ r.val
  · rw [hiff.mpr h, select_one, if_pos h]
  · rw [eq_zero_of_ne_one (fun e => h (hiff.mp e)), select_zero, if_neg h, broadcast_apply]
    exact neg_big_eq

/-! ## The running maximum, the rescaling factor, the shifted exponentials -/

/-- The carried maximum as a column. -/
private theorem pay16_apply (m : Vec Ideal S1x1024x1 .f32) (r : Fin 1024) :
    k1_pay16 m (ix2 r (0 : Fin 1)) = m (ix3 0 r 0) := by
  unfold k1_pay16
  exact shapeCast_1ab_ab_apply m _ r 0

/-- The new maximum of row r: the carried one against the masked tile's row supremum. -/
private theorem pay17_apply (x : FVec Ideal S1024x1024 .f32) (m : Vec Ideal S1x1024x1 .f32) (r : Fin 1024) :
    k1_pay17 x m (ix2 r (0 : Fin 1))
      = max (m (ix3 0 r 0)) (Finset.univ.sup fun c : Fin 1024 => k1_pay15 x (ix2 r c)) := by
  unfold k1_pay17
  refine (maximumf_apply _ _ _).trans ?_
  refine congrArg₂ max (pay16_apply m r) ?_
  refine (col_cast_apply _ r 0).trans ?_
  exact lane_max_apply _ _ _ r

/-- The rescaling factor of row r: exp (old maximum − new maximum). -/
private theorem pay18_apply (x : FVec Ideal S1024x1024 .f32) (m : Vec Ideal S1x1024x1 .f32) (r : Fin 1024) :
    k1_pay18 x m (ix2 r (0 : Fin 1)) = Ideal.exp (m (ix3 0 r 0) - k1_pay17 x m (ix2 r (0 : Fin 1))) := by
  unfold k1_pay18
  show FloatOps.exp (subf (k1_pay16 m) (k1_pay17 x m) (ix2 r (0 : Fin 1))) = _
  rw [Ideal.exp_def, subf_apply, pay16_apply]

/-- The shifted exponential at (r, c): exp (masked entry − new maximum of row r). -/
private theorem pay19_apply (x : FVec Ideal S1024x1024 .f32) (m : Vec Ideal S1x1024x1 .f32) (r c : Fin 1024) :
    k1_pay19 x m (ix2 r c) = Ideal.exp (k1_pay15 x (ix2 r c) - k1_pay17 x m (ix2 r (0 : Fin 1))) := by
  unfold k1_pay19
  show FloatOps.exp (subf (k1_pay15 x) (broadcastTo S1024x1024 (k1_pay17 x m) broadcasts_S1024x1_S1024x1024) (ix2 r c)) = _
  rw [Ideal.exp_def, subf_apply, col_bcast1024_apply]

/-- The new denominator of row r. -/
private theorem pay20_apply (x : FVec Ideal S1024x1024 .f32) (m l : Vec Ideal S1x1024x1 .f32) (r : Fin 1024) :
    k1_pay20 x m l (ix3 0 r 0)
      = k1_pay18 x m (ix2 r (0 : Fin 1)) * l (ix3 0 r 0) + ∑ c : Fin 1024, k1_pay19 x m (ix2 r c) := by
  unfold k1_pay20
  refine (shapeCast_ab_1ab_apply _ _ 0 r 0).trans ?_
  refine (addf_apply _ _ _).trans ?_
  refine congrArg₂ (· + ·) ?_ ?_
  · refine (mulf_apply _ _ _).trans ?_
    exact congrArg _ (shapeCast_1ab_ab_apply l _ r 0)
  · refine (col_cast_apply _ r 0).trans ?_
    exact lane_sum_apply _ _ _ r

/-- The new numerator of row r at lane d. -/
private theorem pay21_apply (w : FVec Ideal S1024x64 .bf16) (x : FVec Ideal S1024x1024 .f32) (m : Vec Ideal S1x1024x1 .f32)
    (a : Vec Ideal S1x1024x64 .f32) (r : Fin 1024) (d : Fin 64) :
    k1_pay21 w x m a (ix3 0 r d)
      = k1_pay18 x m (ix2 r (0 : Fin 1)) * a (ix3 0 r d) + ∑ c : Fin 1024, k1_pay19 x m (ix2 r c) * w (ix2 c d) := by
  unfold k1_pay21
  refine (shapeCast_ab_1ab_apply _ _ 0 r d).trans ?_
  rw [addf_apply, mulf_apply, col_bcast64_apply, shapeCast_1ab_ab_apply, pv_matmul_apply]
  refine congrArg _ (Finset.sum_congr rfl fun c _ => ?_)
  rw [truncf_apply]

/-- The stored maximum. -/
private theorem pay13_apply (x : FVec Ideal S1024x1 .f32) (r : Fin 1024) :
    k1_pay13 x (ix3 0 r 0) = x (ix2 r (0 : Fin 1)) := by
  unfold k1_pay13
  exact shapeCast_ab_1ab_apply x _ 0 r 0

/-- The result block: numerator over denominator. -/
private theorem pay14_apply (a : Vec Ideal S1x1024x64 .f32) (l : Vec Ideal S1x1024x1 .f32) (r : Fin 1024) (d : Fin 64) :
    k1_pay14 a l (ix3 0 r d) = Ideal.div (a (ix3 0 r d)) (l (ix3 0 r 0)) := by
  unfold k1_pay14
  refine (shapeCast_ab_1ab_apply _ _ 0 r d).trans ?_
  rw [divf_apply, shapeCast_1ab_ab_apply, col_bcast64_apply, shapeCast_1ab_ab_apply]

/-! ## The diagonal tile folded into a row -/

theorem rowOf_dg (q k v : Vec Ideal S1x1024x64 .bf16) (m l : Vec Ideal S1x1024x1 .f32) (a : Vec Ideal S1x1024x64 .f32) (r : Fin 1024) :
    rowOf (mDg q k m) (lDg q k m l) (aDg q k v m a) r
      = rowStep (fun c => if c.val ≤ r.val then sc q k r c else ⊥) (fun c d => v (ix3 0 c d)) (rowOf m l a r) := by
  have h15 : ∀ c : Fin 1024, k1_pay15 (k1_pay5 q k) (ix2 r c) = (if c.val ≤ r.val then sc q k r c else ⊥) :=
    fun c => by rw [mask_apply, score_apply]
  have h17 : k1_pay17 (k1_pay5 q k) m (ix2 r (0 : Fin 1))
      = max (m (ix3 0 r 0)) (Finset.univ.sup fun c : Fin 1024 => if c.val ≤ r.val then sc q k r c else ⊥) := by
    rw [pay17_apply]
    exact congrArg _ (congrArg _ (funext h15))
  have h18 : k1_pay18 (k1_pay5 q k) m (ix2 r (0 : Fin 1))
      = Ideal.exp (m (ix3 0 r 0) - max (m (ix3 0 r 0)) (Finset.univ.sup fun c : Fin 1024 => if c.val ≤ r.val then sc q k r c else ⊥)) := by
    rw [pay18_apply, h17]
  have h19 : ∀ c : Fin 1024, k1_pay19 (k1_pay5 q k) m (ix2 r c)
      = Ideal.exp ((if c.val ≤ r.val then sc q k r c else ⊥)
          - max (m (ix3 0 r 0)) (Finset.univ.sup fun c : Fin 1024 => if c.val ≤ r.val then sc q k r c else ⊥)) :=
    fun c => by rw [pay19_apply, h15, h17]
  unfold rowOf rowStep mDg lDg aDg
  refine congr (congr (congrArg RowSt.mk ?_) ?_) ?_
  · exact (pay13_apply _ r).trans h17
  · refine (pay20_apply _ _ _ r).trans ?_
    rw [h18]
    exact congrArg _ (Finset.sum_congr rfl fun c _ => h19 c)
  · funext d
    refine (pay21_apply _ _ _ _ r d).trans ?_
    rw [h18]
    exact congrArg _ (Finset.sum_congr rfl fun c _ => by rw [h19 c, pay4_apply])

theorem oDg_apply (q k v : Vec Ideal S1x1024x64 .bf16) (m l : Vec Ideal S1x1024x1 .f32) (a : Vec Ideal S1x1024x64 .f32) (r : Fin 1024) (d : Fin 64) :
    oDg q k v m l a (ix3 0 r d) = rowOut (rowOf (mDg q k m) (lDg q k m l) (aDg q k v m a) r) d := by
  unfold oDg rowOut rowOf
  exact pay14_apply _ _ r d

end Cert.KernelIdeal.PayIdx

end
-- ==== Proof.FlashMath.lean ====
/-
  The tiled evaluation of a causal softmax row agrees with the one-shot evaluation.

  For a query row i, let s j be real for j ≤ i and −∞ for j > i, and let the value rows be real. Folding the key tiles
  0 … ⌊i / 1024⌋ in order with a running maximum, denominator and numerator — each rescaled by exp (m − m') when the
  maximum moves — leaves numerator / denominator equal to Σ_j softmax(s) j · v j d: every kept exponential carries the
  common factor exp (−m_final), which cancels between numerator and denominator, and the masked entries contribute
  exp (−∞) = 0 to both evaluations.
-/
import proofs.«410793_j34746285425245_3_alg».proof.Proof.Spec
import Mathlib.Analysis.SpecialFunctions.Exp
import Mathlib.Data.EReal.Basic
import Mathlib.Data.EReal.Operations
import Mathlib.Data.EReal.Inv
import Mathlib.Data.Fintype.BigOperators
import Mathlib.Algebra.BigOperators.Fin
import Mathlib.Algebra.Order.BigOperators.Group.Finset
import Mathlib.Tactic.FieldSimp
import Mathlib.Tactic.Ring

noncomputable section

namespace Cert.Spec

open Idealize.ShloMosaic

/-! ## Real weights -/

/-- The embedding of the reals in the extended reals commutes with finite sums. -/
private theorem coe_sum {ι : Type} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The weight of column k at shift M: exp (g k − M) where the column is kept (k ≤ i), zero where it is masked. -/
private def wt (i : ℕ) (g : ℕ → ℝ) (M : ℝ) (k : ℕ) : ℝ := if k ≤ i then Real.exp (g k - M) else 0

private theorem wt_nonneg (i : ℕ) (g : ℕ → ℝ) (M : ℝ) (k : ℕ) : 0 ≤ wt i g M k := by
  unfold wt
  split_ifs
  · exact (Real.exp_pos _).le
  · exact le_rfl

private theorem wt_zero_pos (i : ℕ) (g : ℕ → ℝ) (M : ℝ) : 0 < wt i g M 0 := by
  unfold wt
  rw [if_pos (Nat.zero_le _)]
  exact Real.exp_pos _

private theorem wt_masked (i : ℕ) (g : ℕ → ℝ) (M : ℝ) (k : ℕ) (h : i < k) : wt i g M k = 0 := by
  unfold wt
  rw [if_neg (by omega)]

/-- Moving the shift from M to M' multiplies every weight by exp (M − M'). -/
private theorem wt_rescale (i : ℕ) (g : ℕ → ℝ) (M M' : ℝ) (k : ℕ) :
    Real.exp (M - M') * wt i g M k = wt i g M' k := by
  unfold wt
  split_ifs
  · rw [← Real.exp_add]
    congr 1
    ring
  · exact mul_zero _

/-- The denominator over the first n tiles at shift M. -/
private def den (i : ℕ) (g : ℕ → ℝ) (M : ℝ) (n : ℕ) : ℝ := ∑ k ∈ Finset.range (n * 1024), wt i g M k

/-- The numerator over the first n tiles at shift M. -/
private def num (i : ℕ) (g : ℕ → ℝ) (w : ℕ → Fin 64 → ℝ) (M : ℝ) (n : ℕ) (d : Fin 64) : ℝ :=
  ∑ k ∈ Finset.range (n * 1024), wt i g M k * w k d

private theorem den_succ (i : ℕ) (g : ℕ → ℝ) (M M' : ℝ) (n : ℕ) :
    Real.exp (M - M') * den i g M n + ∑ c ∈ Finset.range 1024, wt i g M' (n * 1024 + c) = den i g M' (n + 1) := by
  unfold den
  rw [show (n + 1) * 1024 = n * 1024 + 1024 by ring, Finset.sum_range_add, Finset.mul_sum]
  congr 1
  exact Finset.sum_congr rfl (fun k _ => wt_rescale i g M M' k)

private theorem num_succ (i : ℕ) (g : ℕ → ℝ) (w : ℕ → Fin 64 → ℝ) (M M' : ℝ) (n : ℕ) (d : Fin 64) :
    Real.exp (M - M') * num i g w M n d + ∑ c ∈ Finset.range 1024, wt i g M' (n * 1024 + c) * w (n * 1024 + c) d
      = num i g w M' (n + 1) d := by
  unfold num
  rw [show (n + 1) * 1024 = n * 1024 + 1024 by ring, Finset.sum_range_add, Finset.mul_sum]
  congr 1
  refine Finset.sum_congr rfl (fun k _ => ?_)
  rw [← mul_assoc, wt_rescale]

/-! ## Extended-real entries as real weights -/

/-- A maximum of a non-top value with finitely many non-top values, one of them not −∞, is real. -/
private theorem max_sup_real {ι : Type} [Fintype ι] (σ : ι → EReal) (m : EReal) (hm : m ≠ ⊤)
    (hσ : ∀ c, σ c ≠ ⊤) (c0 : ι) (h0 : σ c0 ≠ ⊥) : ∃ M : ℝ, max m (Finset.univ.sup σ) = (M : EReal) := by
  have h1 : max m (Finset.univ.sup σ) ≠ ⊤ := by
    apply ne_of_lt
    apply max_lt (lt_top_iff_ne_top.2 hm)
    rw [Finset.sup_lt_iff bot_lt_top]
    intro c _
    exact lt_top_iff_ne_top.2 (hσ c)
  have h2 : max m (Finset.univ.sup σ) ≠ ⊥ := by
    apply ne_of_gt
    calc ⊥ < σ c0 := bot_lt_iff_ne_bot.2 h0
      _ ≤ Finset.univ.sup σ := Finset.le_sup (Finset.mem_univ c0)
      _ ≤ _ := le_max_right _ _
  exact ⟨_, (EReal.coe_toReal h1 h2).symm⟩

private theorem s_ne_top (s : Fin 4096 → EReal) (i : ℕ) (g : ℕ → ℝ)
    (hs : ∀ j : Fin 4096, j.val ≤ i → s j = (g j.val : EReal))
    (hm : ∀ j : Fin 4096, i < j.val → s j = ⊥) (j : Fin 4096) : s j ≠ ⊤ := by
  by_cases h : j.val ≤ i
  · rw [hs j h]
    exact EReal.coe_ne_top _
  · rw [hm j (by omega)]
    exact bot_ne_top

/-- The exponential of a shifted entry is the real weight of its column. -/
private theorem exp_entry (s : Fin 4096 → EReal) (i : ℕ) (g : ℕ → ℝ)
    (hs : ∀ j : Fin 4096, j.val ≤ i → s j = (g j.val : EReal))
    (hm : ∀ j : Fin 4096, i < j.val → s j = ⊥) (M : ℝ) (j : Fin 4096) :
    Ideal.exp (s j - (M : EReal)) = ((wt i g M j.val : ℝ) : EReal) := by
  unfold wt
  by_cases h : j.val ≤ i
  · rw [if_pos h, hs j h, ← EReal.coe_sub, Ideal.exp_coe]
  · rw [if_neg h, hm j (by omega), EReal.bot_sub, Ideal.exp_bot, EReal.coe_zero]

/-! ## One tile -/

private theorem tile_idx (n : ℕ) (hn : n ≤ 3) (c : Fin 1024) : (n * 1024 + c.val) % 4096 = n * 1024 + c.val :=
  Nat.mod_eq_of_lt (by have := c.isLt; omega)

private theorem tile_exp (s : Fin 4096 → EReal) (i : ℕ) (g : ℕ → ℝ)
    (hs : ∀ j : Fin 4096, j.val ≤ i → s j = (g j.val : EReal))
    (hm : ∀ j : Fin 4096, i < j.val → s j = ⊥) (n : ℕ) (hn : n ≤ 3) (M : ℝ) (c : Fin 1024) :
    Ideal.exp (tileOf s n c - (M : EReal)) = ((wt i g M (n * 1024 + c.val) : ℝ) : EReal) := by
  unfold tileOf
  rw [exp_entry s i g hs hm M]
  show ((wt i g M ((n * 1024 + c.val) % 4096) : ℝ) : EReal) = _
  rw [tile_idx n hn c]

private theorem tile_val (v : Fin 4096 → Fin 64 → EReal) (w : ℕ → Fin 64 → ℝ)
    (hv : ∀ (j : Fin 4096) (d : Fin 64), v j d = (w j.val d : EReal)) (n : ℕ) (hn : n ≤ 3) (c : Fin 1024)
    (d : Fin 64) : tileOf v n c d = ((w (n * 1024 + c.val) d : ℝ) : EReal) := by
  unfold tileOf
  rw [hv]
  show ((w ((n * 1024 + c.val) % 4096) d : ℝ) : EReal) = _
  rw [tile_idx n hn c]

private theorem tile_den (s : Fin 4096 → EReal) (i : ℕ) (g : ℕ → ℝ)
    (hs : ∀ j : Fin 4096, j.val ≤ i → s j = (g j.val : EReal))
    (hm : ∀ j : Fin 4096, i < j.val → s j = ⊥) (n : ℕ) (hn : n ≤ 3) (M : ℝ) :
    ∑ c : Fin 1024, Ideal.exp (tileOf s n c - (M : EReal))
      = ((∑ c ∈ Finset.range 1024, wt i g M (n * 1024 + c) : ℝ) : EReal) := by
  rw [Finset.sum_congr rfl (fun c _ => tile_exp s i g hs hm n hn M c), ← coe_sum,
    Fin.sum_univ_eq_sum_range (fun c => wt i g M (n * 1024 + c)) 1024]

private theorem tile_num (s : Fin 4096 → EReal) (v : Fin 4096 → Fin 64 → EReal) (i : ℕ) (g : ℕ → ℝ)
    (w : ℕ → Fin 64 → ℝ)
    (hs : ∀ j : Fin 4096, j.val ≤ i → s j = (g j.val : EReal))
    (hm : ∀ j : Fin 4096, i < j.val → s j = ⊥)
    (hv : ∀ (j : Fin 4096) (d : Fin 64), v j d = (w j.val d : EReal)) (n : ℕ) (hn : n ≤ 3) (M : ℝ) (d : Fin 64) :
    ∑ c : Fin 1024, Ideal.exp (tileOf s n c - (M : EReal)) * tileOf v n c d
      = ((∑ c ∈ Finset.range 1024, wt i g M (n * 1024 + c) * w (n * 1024 + c) d : ℝ) : EReal) := by
  rw [← Fin.sum_univ_eq_sum_range (fun c => wt i g M (n * 1024 + c) * w (n * 1024 + c) d) 1024, coe_sum]
  refine Finset.sum_congr rfl (fun c _ => ?_)
  rw [tile_exp s i g hs hm n hn M c, tile_val v w hv n hn c d, ← EReal.coe_mul]

/-- Every visited tile has a kept first column, so the running maximum after it is real. -/
private theorem tile_max_real (s : Fin 4096 → EReal) (i : ℕ) (g : ℕ → ℝ)
    (hs : ∀ j : Fin 4096, j.val ≤ i → s j = (g j.val : EReal))
    (hm : ∀ j : Fin 4096, i < j.val → s j = ⊥) (n : ℕ) (hn : n ≤ 3) (hk : n * 1024 ≤ i) (m : EReal)
    (hm' : m ≠ ⊤) : ∃ M : ℝ, max m (Finset.univ.sup (tileOf s n)) = (M : EReal) := by
  refine max_sup_real (tileOf s n) m hm' (fun c => s_ne_top s i g hs hm _) ⟨0, by norm_num⟩ ?_
  unfold tileOf
  rw [hs _ (by show (n * 1024 + 0) % 4096 ≤ i; omega)]
  exact EReal.coe_ne_bot _

/-! ## The invariant of the fold -/

/-- After n ≥ 1 tiles the state is real: some shift M, with the denominator and numerator over those tiles at M. -/
private def Inv (i : ℕ) (g : ℕ → ℝ) (w : ℕ → Fin 64 → ℝ) (n : ℕ) (st : RowSt) : Prop :=
  ∃ M : ℝ, st.m = (M : EReal) ∧ st.l = ((den i g M n : ℝ) : EReal)
    ∧ ∀ d, st.a d = ((num i g w M n d : ℝ) : EReal)

private theorem inv_init (s : Fin 4096 → EReal) (v : Fin 4096 → Fin 64 → EReal) (i : ℕ) (g : ℕ → ℝ)
    (w : ℕ → Fin 64 → ℝ)
    (hs : ∀ j : Fin 4096, j.val ≤ i → s j = (g j.val : EReal))
    (hm : ∀ j : Fin 4096, i < j.val → s j = ⊥)
    (hv : ∀ (j : Fin 4096) (d : Fin 64), v j d = (w j.val d : EReal)) :
    Inv i g w 1 (rowStep (tileOf s 0) (tileOf v 0) rowInit) := by
  obtain ⟨M', hM'⟩ := tile_max_real s i g hs hm 0 (by norm_num) (by omega) rowInit.m bot_ne_top
  refine ⟨M', hM', ?_, fun d => ?_⟩
  · show Ideal.exp (rowInit.m - max rowInit.m (Finset.univ.sup (tileOf s 0))) * (0 : EReal)
        + ∑ c : Fin 1024, Ideal.exp (tileOf s 0 c - max rowInit.m (Finset.univ.sup (tileOf s 0))) = _
    rw [hM', mul_zero, zero_add, tile_den s i g hs hm 0 (by norm_num) M']
    unfold den
    simp
  · show Ideal.exp (rowInit.m - max rowInit.m (Finset.univ.sup (tileOf s 0))) * (0 : EReal)
        + ∑ c : Fin 1024, Ideal.exp (tileOf s 0 c - max rowInit.m (Finset.univ.sup (tileOf s 0))) * tileOf v 0 c d = _
    rw [hM', mul_zero, zero_add, tile_num s v i g w hs hm hv 0 (by norm_num) M' d]
    unfold num
    simp

private theorem inv_step (s : Fin 4096 → EReal) (v : Fin 4096 → Fin 64 → EReal) (i : ℕ) (g : ℕ → ℝ)
    (w : ℕ → Fin 64 → ℝ)
    (hs : ∀ j : Fin 4096, j.val ≤ i → s j = (g j.val : EReal))
    (hm : ∀ j : Fin 4096, i < j.val → s j = ⊥)
    (hv : ∀ (j : Fin 4096) (d : Fin 64), v j d = (w j.val d : EReal)) (n : ℕ) (hn : n ≤ 3)
    (hk : n * 1024 ≤ i) (st : RowSt) (h : Inv i g w n st) :
    Inv i g w (n + 1) (rowStep (tileOf s n) (tileOf v n) st) := by
  obtain ⟨M, hM, hl, ha⟩ := h
  obtain ⟨M', hM'⟩ := tile_max_real s i g hs hm n hn hk st.m (by rw [hM]; exact EReal.coe_ne_top _)
  refine ⟨M', hM', ?_, fun d => ?_⟩
  · show Ideal.exp (st.m - max st.m (Finset.univ.sup (tileOf s n))) * st.l
        + ∑ c : Fin 1024, Ideal.exp (tileOf s n c - max st.m (Finset.univ.sup (tileOf s n))) = _
    rw [hM', hM, hl, ← EReal.coe_sub, Ideal.exp_coe, ← EReal.coe_mul, tile_den s i g hs hm n hn M',
      ← EReal.coe_add, den_succ]
  · show Ideal.exp (st.m - max st.m (Finset.univ.sup (tileOf s n))) * st.a d
        + ∑ c : Fin 1024, Ideal.exp (tileOf s n c - max st.m (Finset.univ.sup (tileOf s n))) * tileOf v n c d = _
    rw [hM', hM, ha d, ← EReal.coe_sub, Ideal.exp_coe, ← EReal.coe_mul, tile_num s v i g w hs hm hv n hn M' d,
      ← EReal.coe_add, num_succ]

private theorem inv_fold (s : Fin 4096 → EReal) (v : Fin 4096 → Fin 64 → EReal) (i : ℕ) (g : ℕ → ℝ)
    (w : ℕ → Fin 64 → ℝ)
    (hs : ∀ j : Fin 4096, j.val ≤ i → s j = (g j.val : EReal))
    (hm : ∀ j : Fin 4096, i < j.val → s j = ⊥)
    (hv : ∀ (j : Fin 4096) (d : Fin 64), v j d = (w j.val d : EReal)) (hi : i < 4096) :
    ∀ n : ℕ, 1 ≤ n → n ≤ i / 1024 + 1 →
      Inv i g w n (rowFold (fun t => tileOf s t) (fun t => tileOf v t) n) := by
  intro n h1
  induction n, h1 using Nat.le_induction with
  | base =>
    intro _
    exact inv_init s v i g w hs hm hv
  | succ n h1 ih =>
    intro hn
    exact inv_step s v i g w hs hm hv n (by omega) (by omega) _ (ih (by omega))

/-! ## Reading off the result -/

/-- Where every column past i is masked, a sum over a range reaching past i is the sum over all 4096 columns. -/
private theorem sum_extend (i : ℕ) (f : ℕ → ℝ) (hf : ∀ k, i < k → f k = 0) (m : ℕ) (hm : i < m) (hm' : m ≤ 4096) :
    ∑ k ∈ Finset.range m, f k = ∑ k ∈ Finset.range 4096, f k := by
  refine Finset.sum_subset (Finset.range_mono hm') (fun k _ hk => hf k ?_)
  rw [Finset.mem_range] at hk
  omega

/-- The statement over chosen real witnesses g of the kept scores and w of the values. -/
private theorem flash_real (s : Fin 4096 → EReal) (v : Fin 4096 → Fin 64 → EReal) (i : ℕ) (g : ℕ → ℝ)
    (w : ℕ → Fin 64 → ℝ)
    (hs : ∀ j : Fin 4096, j.val ≤ i → s j = (g j.val : EReal))
    (hm : ∀ j : Fin 4096, i < j.val → s j = ⊥)
    (hv : ∀ (j : Fin 4096) (d : Fin 64), v j d = (w j.val d : EReal)) (hi : i < 4096) (d : Fin 64) :
    rowOut (rowFold (fun t => tileOf s t) (fun t => tileOf v t) (i / 1024 + 1)) d = attnRow s v d := by
  obtain ⟨M, -, hl, ha⟩ := inv_fold s v i g w hs hm hv hi (i / 1024 + 1) (by omega) le_rfl
  obtain ⟨Mx, hMx⟩ := max_sup_real s ⊥ bot_ne_top (s_ne_top s i g hs hm) ⟨0, by norm_num⟩
    (by rw [hs _ (Nat.zero_le _)]; exact EReal.coe_ne_bot _)
  rw [max_eq_right bot_le] at hMx
  have hden : den i g M (i / 1024 + 1) = Real.exp (Mx - M) * ∑ k ∈ Finset.range 4096, wt i g Mx k := by
    unfold den
    rw [sum_extend i _ (fun k hk => wt_masked i g M k hk) _ (by omega) (by omega), Finset.mul_sum]
    exact Finset.sum_congr rfl (fun k _ => (wt_rescale i g Mx M k).symm)
  have hnum : num i g w M (i / 1024 + 1) d
      = Real.exp (Mx - M) * ∑ k ∈ Finset.range 4096, wt i g Mx k * w k d := by
    unfold num
    rw [sum_extend i _ (fun k hk => by rw [wt_masked i g M k hk, zero_mul]) _ (by omega) (by omega),
      Finset.mul_sum]
    refine Finset.sum_congr rfl (fun k _ => ?_)
    rw [← mul_assoc, wt_rescale]
  have hD : 0 < ∑ k ∈ Finset.range 4096, wt i g Mx k :=
    Finset.sum_pos' (fun k _ => wt_nonneg i g Mx k) ⟨0, Finset.mem_range.2 (by norm_num), wt_zero_pos i g Mx⟩
  have hsum : ∑ j' : Fin 4096, Ideal.exp (s j' - (Mx : EReal))
      = ((∑ k ∈ Finset.range 4096, wt i g Mx k : ℝ) : EReal) := by
    rw [Finset.sum_congr rfl (fun j _ => exp_entry s i g hs hm Mx j), ← coe_sum,
      Fin.sum_univ_eq_sum_range (fun k => wt i g Mx k) 4096]
  unfold rowOut attnRow
  rw [hl, ha d, hMx, hsum, hden, hnum]
  set D := ∑ k ∈ Finset.range 4096, wt i g Mx k with hDdef
  set X := ∑ k ∈ Finset.range 4096, wt i g Mx k * w k d with hXdef
  have hD0 : D ≠ 0 := hD.ne'
  have hE : Real.exp (Mx - M) ≠ 0 := (Real.exp_pos _).ne'
  rw [Ideal.div_coe (mul_ne_zero hE hD0), ← EReal.coe_mul]
  have hterm : ∀ j : Fin 4096, Ideal.div (Ideal.exp (s j - (Mx : EReal))) (D : EReal) * v j d
      = ((wt i g Mx j.val * (1 / D) * w j.val d : ℝ) : EReal) := by
    intro j
    rw [exp_entry s i g hs hm Mx j, Ideal.div_coe hD0, hv, ← EReal.coe_mul, ← EReal.coe_mul]
  rw [Finset.sum_congr rfl (fun j _ => hterm j), ← coe_sum,
    Fin.sum_univ_eq_sum_range (fun k => wt i g Mx k * (1 / D) * w k d) 4096]
  congr 1
  have hfac : ∑ k ∈ Finset.range 4096, wt i g Mx k * (1 / D) * w k d = (1 / D) * X := by
    rw [hXdef, Finset.mul_sum]
    exact Finset.sum_congr rfl (fun k _ => by ring)
  rw [hfac]
  field_simp

/-- The tiled fold over key tiles 0 … ⌊i/1024⌋ of row i gives the softmax-weighted value row. -/
theorem flash_eq_attn (s : Fin 4096 → EReal) (v : Fin 4096 → Fin 64 → EReal) (i : Fin 4096)
    (hs : ∀ j : Fin 4096, j.val ≤ i.val → ∃ r : ℝ, s j = (r : EReal))
    (hm : ∀ j : Fin 4096, i.val < j.val → s j = ⊥)
    (hv : ∀ (j : Fin 4096) (d : Fin 64), ∃ r : ℝ, v j d = (r : EReal)) (d : Fin 64) :
    rowOut (rowFold (fun t => tileOf s t) (fun t => tileOf v t) (i.val / 1024 + 1)) d = attnRow s v d := by
  have hs' : ∀ j : Fin 4096, j.val ≤ i.val →
      s j = (((fun k : ℕ => if h : k < 4096 then (s ⟨k, h⟩).toReal else 0) j.val : ℝ) : EReal) := by
    intro j hj
    obtain ⟨r, hr⟩ := hs j hj
    show s j = (((if h : j.val < 4096 then (s ⟨j.val, h⟩).toReal else 0) : ℝ) : EReal)
    rw [dif_pos j.isLt]
    show s j = (((s j).toReal : ℝ) : EReal)
    rw [hr, EReal.toReal_coe]
  have hv' : ∀ (j : Fin 4096) (d : Fin 64),
      v j d = (((fun (k : ℕ) (d : Fin 64) => if h : k < 4096 then (v ⟨k, h⟩ d).toReal else 0) j.val d : ℝ) : EReal) := by
    intro j d
    obtain ⟨r, hr⟩ := hv j d
    show v j d = (((if h : j.val < 4096 then (v ⟨j.val, h⟩ d).toReal else 0) : ℝ) : EReal)
    rw [dif_pos j.isLt]
    show v j d = (((v j d).toReal : ℝ) : EReal)
    rw [hr, EReal.toReal_coe]
  exact flash_real s v i.val (fun k : ℕ => if h : k < 4096 then (s ⟨k, h⟩).toReal else 0)
    (fun (k : ℕ) (d : Fin 64) => if h : k < 4096 then (v ⟨k, h⟩ d).toReal else 0) hs' hm hv' i.isLt d

end Cert.Spec

end
-- ==== Proof.KIValue1.lean ====
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«410793_j34746285425245_3_alg».proof.Proof.KIR1Dat
import proofs.«410793_j34746285425245_3_alg».proof.Proof.KIPayIdx
import proofs.«410793_j34746285425245_3_alg».proof.Proof.KIPayIdxDg
import proofs.«410793_j34746285425245_3_alg».proof.Proof.FlashMath
import proofs.«410793_j34746285425245_3_alg».proof.Proof.Adapt
import Idealize.ShloMosaic.Lib.ValueIdx
import Mathlib.Data.EReal.Basic
import Mathlib.Algebra.BigOperators.Group.Finset.Basic

set_option maxRecDepth 16384
set_option pp.maxSteps 20000
set_option pp.deepTerms false

noncomputable section

namespace Cert.KernelIdeal.Gen

open Idealize.ShloMosaic.ValueIdx Cert.Spec Cert.KernelIdeal.PayIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Ideal

local notation "𝕄" => MT nD τ sig Unit (Elt 𝔽) ℕ (UR sig nD τ) ℕ

/-! # What the second region leaves in its output array

With q, k, v the three arrays the region reads (every entry a real number): for batch b and query tile qi the ten-step
walk visits key tiles 0 … qi in order; after the step at key tile ki the three carried values hold, row by row, the
tiled fold `Cert.Spec.rowFold` of key tiles 0 … ki of that row's causal scores; the diagonal step (ki = qi) writes
numerator over denominator, which is the causal softmax row (`flash_eq_attn`). The 32 diagonal steps' blocks tile the
output array. -/

section R1
variable (V : (c : Dev nD) → (b : Ref sig .tc) → Buf (Elt 𝔽) ((c : Thread nD τ).loc b))

/-- The query block at point t: row r, lane e is the query array at batch t/10, row qi·1024 + r. -/
private theorem blk0_eq (c : Dev nD) (Q : Fin 8 → Fin 4096 → Fin 64 → EReal)
    (hQ : ∀ b i e, V c main_v1_0 (ix3 b i e) = Q b i e)
    (t : Fin cfgM.N) (b : Fin 8) (hb : b.val = t.val / 10) (i : Fin 4096) (r : Fin 1024)
    (hi : i.val = qiN t.val * 1024 + r.val) (e : Fin 64) :
    iblk1 V c 0 t (ix3 0 r e) = Q b i e := by
  rw [← hQ b i e]
  show V c main_v1_0 (((cfgM.win 0).blk t).view.emb (ix3 0 r e)) = _
  refine congrArg (V c main_v1_0) ?_
  funext a
  apply Fin.ext
  match a with
  | ⟨0, _⟩ =>
    show (cfgM.win 0).index t 0 * 1 + 1 * 0 = b.val
    rw [index0 t]; show t.val / 10 * 1 + 1 * 0 = b.val; omega
  | ⟨1, _⟩ =>
    show (cfgM.win 0).index t 1 * 1024 + 1 * r.val = i.val
    rw [index0 t]; show qiN t.val * 1024 + 1 * r.val = i.val; omega
  | ⟨2, _⟩ =>
    show (cfgM.win 0).index t 2 * 64 + 1 * e.val = e.val
    rw [index0 t]; show 0 * 64 + 1 * e.val = e.val; omega

/-- The key block at point t: row r, lane e is the key array at batch t/10, row ki·1024 + r. -/
private theorem blk1_eq (c : Dev nD) (K : Fin 8 → Fin 4096 → Fin 64 → EReal)
    (hK : ∀ b i e, V c main_v1_1 (ix3 b i e) = K b i e)
    (t : Fin cfgM.N) (b : Fin 8) (hb : b.val = t.val / 10) (j : Fin 4096) (r : Fin 1024)
    (hj : j.val = kiN t.val * 1024 + r.val) (e : Fin 64) :
    iblk1 V c 1 t (ix3 0 r e) = K b j e := by
  rw [← hK b j e]
  show V c main_v1_1 (((cfgM.win 1).blk t).view.emb (ix3 0 r e)) = _
  refine congrArg (V c main_v1_1) ?_
  funext a
  apply Fin.ext
  match a with
  | ⟨0, _⟩ =>
    show (cfgM.win 1).index t 0 * 1 + 1 * 0 = b.val
    rw [index1 t]; show t.val / 10 * 1 + 1 * 0 = b.val; omega
  | ⟨1, _⟩ =>
    show (cfgM.win 1).index t 1 * 1024 + 1 * r.val = j.val
    rw [index1 t]; show kiN t.val * 1024 + 1 * r.val = j.val; omega
  | ⟨2, _⟩ =>
    show (cfgM.win 1).index t 2 * 64 + 1 * e.val = e.val
    rw [index1 t]; show 0 * 64 + 1 * e.val = e.val; omega

/-- The value block at point t: row r, lane e is the value array at batch t/10, row ki·1024 + r. -/
private theorem blk2_eq (c : Dev nD) (W : Fin 8 → Fin 4096 → Fin 64 → EReal)
    (hW : ∀ b i e, V c main_v1_2 (ix3 b i e) = W b i e)
    (t : Fin cfgM.N) (b : Fin 8) (hb : b.val = t.val / 10) (j : Fin 4096) (r : Fin 1024)
    (hj : j.val = kiN t.val * 1024 + r.val) (e : Fin 64) :
    iblk1 V c 2 t (ix3 0 r e) = W b j e := by
  rw [← hW b j e]
  show V c main_v1_2 (((cfgM.win 2).blk t).view.emb (ix3 0 r e)) = _
  refine congrArg (V c main_v1_2) ?_
  funext a
  apply Fin.ext
  match a with
  | ⟨0, _⟩ =>
    show (cfgM.win 2).index t 0 * 1 + 1 * 0 = b.val
    rw [index2 t]; show t.val / 10 * 1 + 1 * 0 = b.val; omega
  | ⟨1, _⟩ =>
    show (cfgM.win 2).index t 1 * 1024 + 1 * r.val = j.val
    rw [index2 t]; show kiN t.val * 1024 + 1 * r.val = j.val; omega
  | ⟨2, _⟩ =>
    show (cfgM.win 2).index t 2 * 64 + 1 * e.val = e.val
    rw [index2 t]; show 0 * 64 + 1 * e.val = e.val; omega

/-! ## The walk's table: bounds, the step before, the diagonal steps -/

private theorem qiN_le (n : ℕ) : qiN n ≤ 3 := by
  have h : ∀ k : Fin 10, [0,1,1,2,2,2,3,3,3,3].getD k.val 0 ≤ 3 := by decide
  exact h ⟨n % 10, Nat.mod_lt _ (by norm_num)⟩

/-- A step whose key tile is not the first follows, in the same batch, a step with the same query tile and the key tile before. -/
private theorem tbl_prev (n : ℕ) (h : kiN n ≠ 0) :
    n % 10 ≠ 0 ∧ qiN (n - 1) = qiN n ∧ kiN (n - 1) + 1 = kiN n := by
  have key : ∀ k : Fin 10, [0,0,1,0,1,2,0,1,2,3].getD k.val 0 ≠ 0 →
      k.val ≠ 0 ∧ [0,1,1,2,2,2,3,3,3,3].getD (k.val - 1) 0 = [0,1,1,2,2,2,3,3,3,3].getD k.val 0
        ∧ [0,0,1,0,1,2,0,1,2,3].getD (k.val - 1) 0 + 1 = [0,0,1,0,1,2,0,1,2,3].getD k.val 0 := by decide
  have hk := key ⟨n % 10, Nat.mod_lt _ (by norm_num)⟩ h
  have e : (n - 1) % 10 = n % 10 - 1 := by have := hk.1; simp only at this; omega
  refine ⟨hk.1, ?_, ?_⟩
  · unfold qiN; rw [e]; exact hk.2.1
  · unfold kiN; rw [e]; exact hk.2.2

/-- The diagonal step of query tile q within a batch. -/
private def dstep (q : ℕ) : ℕ := [0,2,5,9].getD q 0

private theorem dstep_spec (q : ℕ) (hq : q < 4) (b : ℕ) :
    dstep q < 10 ∧ qiN (10 * b + dstep q) = q ∧ kiN (10 * b + dstep q) = q := by
  have key : ∀ k : Fin 4, [0,2,5,9].getD k.val 0 < 10
      ∧ [0,1,1,2,2,2,3,3,3,3].getD ([0,2,5,9].getD k.val 0) 0 = k.val
      ∧ [0,0,1,0,1,2,0,1,2,3].getD ([0,2,5,9].getD k.val 0) 0 = k.val := by decide
  have hk := key ⟨q, hq⟩
  have e : (10 * b + dstep q) % 10 = dstep q := by have := hk.1; unfold dstep; simp only at this; omega
  refine ⟨hk.1, ?_, ?_⟩
  · unfold qiN; rw [e]; exact hk.2.1
  · unfold kiN; rw [e]; exact hk.2.2

/-! ## One row's masked scores, tile by tile -/

/-- Row i of batch b: the scaled scores against every key row, −∞ past the diagonal. -/
private def srow (Q K : Fin 8 → Fin 4096 → Fin 64 → EReal) (b : Fin 8) (i : Fin 4096) : Fin 4096 → EReal :=
  fun j => causal (score (Ideal.ofBits .f32 0x3E000000#32) Q K) b i j

/-- Key tile ki of row qi·1024 + r: column c is the block score where the key row is not after the query row, −∞ elsewhere. -/
private theorem tile_sc (c : Dev nD) (Q K : Fin 8 → Fin 4096 → Fin 64 → EReal)
    (hQ : ∀ b i e, V c main_v1_0 (ix3 b i e) = Q b i e) (hK : ∀ b i e, V c main_v1_1 (ix3 b i e) = K b i e)
    (t : Fin cfgM.N) (b : Fin 8) (hb : b.val = t.val / 10) (i : Fin 4096) (r : Fin 1024)
    (hi : i.val = qiN t.val * 1024 + r.val) (cc : Fin 1024) :
    tileOf (srow Q K b i) (kiN t.val) cc
      = if kiN t.val * 1024 + cc.val ≤ i.val then sc (iblk1 V c 0 t) (iblk1 V c 1 t) r cc else ⊥ := by
  have hk := kiN_le_qiN t.val
  have hq := qiN_le t.val
  have hlt : kiN t.val * 1024 + cc.val < 4096 := by have := cc.isLt; omega
  have hj : (⟨(kiN t.val * 1024 + cc.val) % 4096, Nat.mod_lt _ (by norm_num)⟩ : Fin 4096) = ⟨kiN t.val * 1024 + cc.val, hlt⟩ :=
    Fin.ext (Nat.mod_eq_of_lt hlt)
  unfold tileOf srow causal
  rw [hj]
  refine if_congr Iff.rfl ?_ rfl
  unfold score sc
  refine congrArg (· * Ideal.ofBits .f32 0x3E000000#32) (Finset.sum_congr rfl fun e _ => ?_)
  rw [blk0_eq V c Q hQ t b hb i r hi e, blk1_eq V c K hK t b hb ⟨_, hlt⟩ cc rfl e]

/-- Key tile ki of the value rows is the value block. -/
private theorem tile_val (c : Dev nD) (W : Fin 8 → Fin 4096 → Fin 64 → EReal)
    (hW : ∀ b i e, V c main_v1_2 (ix3 b i e) = W b i e)
    (t : Fin cfgM.N) (b : Fin 8) (hb : b.val = t.val / 10) (cc : Fin 1024) (d : Fin 64) :
    tileOf (fun j => W b j) (kiN t.val) cc d = iblk1 V c 2 t (ix3 0 cc d) := by
  have hk := kiN_le_qiN t.val
  have hq := qiN_le t.val
  have hlt : kiN t.val * 1024 + cc.val < 4096 := by have := cc.isLt; omega
  have hj : (⟨(kiN t.val * 1024 + cc.val) % 4096, Nat.mod_lt _ (by norm_num)⟩ : Fin 4096) = ⟨kiN t.val * 1024 + cc.val, hlt⟩ :=
    Fin.ext (Nat.mod_eq_of_lt hlt)
  unfold tileOf
  rw [hj]
  exact (blk2_eq V c W hW t b hb ⟨_, hlt⟩ cc rfl d).symm

/-! ## The invariant: after the step at key tile ki, row r holds the fold of key tiles 0 … ki -/

/-- One point: from the fold of the key tiles before to the fold through this one. -/
private theorem step_row (c : Dev nD) (Q K W : Fin 8 → Fin 4096 → Fin 64 → EReal)
    (hQ : ∀ b i e, V c main_v1_0 (ix3 b i e) = Q b i e) (hK : ∀ b i e, V c main_v1_1 (ix3 b i e) = K b i e)
    (hW : ∀ b i e, V c main_v1_2 (ix3 b i e) = W b i e)
    (t : Fin cfgM.N) (s : St) (b : Fin 8) (hb : b.val = t.val / 10) (i : Fin 4096) (r : Fin 1024)
    (hi : i.val = qiN t.val * 1024 + r.val)
    (hs : rowOf (st0 t s).1 (st0 t s).2.1 (st0 t s).2.2 r
      = rowFold (fun τ => tileOf (srow Q K b i) τ) (fun τ => tileOf (fun j => W b j) τ) (kiN t.val)) :
    rowOf (stepAt V c t s).1 (stepAt V c t s).2.1 (stepAt V c t s).2.2 r
      = rowFold (fun τ => tileOf (srow Q K b i) τ) (fun τ => tileOf (fun j => W b j) τ) (kiN t.val + 1) := by
  have hk := kiN_le_qiN t.val
  have hu : (fun cc d => iblk1 V c 2 t (ix3 0 cc d)) = tileOf (fun j => W b j) (kiN t.val) :=
    funext fun cc => funext fun d => (tile_val V c W hW t b hb cc d).symm
  show _ = rowStep (tileOf (srow Q K b i) (kiN t.val)) (tileOf (fun j => W b j) (kiN t.val))
    (rowFold (fun τ => tileOf (srow Q K b i) τ) (fun τ => tileOf (fun j => W b j) τ) (kiN t.val))
  rw [← hs, ← hu]
  unfold stepAt
  by_cases hlt : kiN t.val < qiN t.val
  · rw [if_pos hlt]
    refine (rowOf_off _ _ _ _ _ _ r).trans ?_
    refine congrArg (fun σ => rowStep σ _ _) (funext fun cc => ?_)
    rw [tile_sc V c Q K hQ hK t b hb i r hi cc, if_pos (by have := cc.isLt; omega)]
  · rw [if_neg hlt]
    refine (rowOf_dg _ _ _ _ _ _ r).trans ?_
    refine congrArg (fun σ => rowStep σ _ _) (funext fun cc => ?_)
    rw [tile_sc V c Q K hQ hK t b hb i r hi cc]
    exact if_congr (by omega) rfl rfl

private theorem inv_row (c : Dev nD) (Q K W : Fin 8 → Fin 4096 → Fin 64 → EReal)
    (hQ : ∀ b i e, V c main_v1_0 (ix3 b i e) = Q b i e) (hK : ∀ b i e, V c main_v1_1 (ix3 b i e) = K b i e)
    (hW : ∀ b i e, V c main_v1_2 (ix3 b i e) = W b i e) :
    ∀ (n : ℕ) (h : n < cfgM.N) (b : Fin 8) (hb : b.val = n / 10) (i : Fin 4096) (r : Fin 1024)
      (hi : i.val = qiN n * 1024 + r.val),
      rowOf (stAt V c (n + 1)).1 (stAt V c (n + 1)).2.1 (stAt V c (n + 1)).2.2 r
        = rowFold (fun τ => tileOf (srow Q K b i) τ) (fun τ => tileOf (fun j => W b j) τ) (kiN n + 1) := by
  intro n
  induction n with
  | zero =>
    intro h b hb i r hi
    have e := stAt_succ V c ⟨0, h⟩
    rw [show stAt V c (0 + 1) = stAt V c ((⟨0, h⟩ : Fin cfgM.N).val + 1) from rfl, e]
    refine step_row V c Q K W hQ hK hW ⟨0, h⟩ _ b hb i r hi ?_
    have hk : kiN (⟨0, h⟩ : Fin cfgM.N).val = 0 := rfl
    unfold st0
    rw [if_pos hk, hk]
    exact rowOf_init r
  | succ m ih =>
    intro h b hb i r hi
    have e := stAt_succ V c ⟨m + 1, h⟩
    rw [show stAt V c (m + 1 + 1) = stAt V c ((⟨m + 1, h⟩ : Fin cfgM.N).val + 1) from rfl, e]
    refine step_row V c Q K W hQ hK hW ⟨m + 1, h⟩ _ b hb i r hi ?_
    by_cases hk : kiN (⟨m + 1, h⟩ : Fin cfgM.N).val = 0
    · unfold st0
      rw [if_pos hk, hk]
      exact rowOf_init r
    · unfold st0
      rw [if_neg hk]
      obtain ⟨h1, h2, h3⟩ := tbl_prev (m + 1) hk
      simp only [Nat.add_sub_cancel] at h2 h3
      have := ih (by omega) b (by omega) i r (by rw [hi, h2])
      show rowOf (stAt V c (m + 1)).1 (stAt V c (m + 1)).2.1 (stAt V c (m + 1)).2.2 r = rowFold _ _ (kiN (m + 1))
      rw [this, h3]

/-! ## The scores of a row are real where kept -/

/-- A finite sum of reals is a real. -/
private theorem real_sum {ι : Type} (S : Finset ι) (f : ι → EReal) (hf : ∀ k, ∃ x : ℝ, f k = (x : EReal)) :
    ∃ x : ℝ, ∑ k ∈ S, f k = (x : EReal) := by
  classical
  induction S using Finset.induction_on with
  | empty => exact ⟨0, by simp⟩
  | insert a S ha ih =>
    obtain ⟨x, hx⟩ := hf a
    obtain ⟨y, hy⟩ := ih
    exact ⟨x + y, by rw [Finset.sum_insert ha, hx, hy, EReal.coe_add]⟩

/-- The scale constant is the real 1/8. -/
private theorem scale_real : ∃ x : ℝ, Ideal.ofBits .f32 0x3E000000#32 = (x : EReal) := by
  refine ⟨1 / 8, ?_⟩
  simp [Ideal.ofBits, Ideal.ieee]
  rw [← EReal.coe_mul]
  exact congrArg _ (by norm_num)

private theorem score_real (Q K : Fin 8 → Fin 4096 → Fin 64 → EReal)
    (hQr : ∀ b i e, ∃ r : ℝ, Q b i e = (r : EReal)) (hKr : ∀ b i e, ∃ r : ℝ, K b i e = (r : EReal))
    (b : Fin 8) (i j : Fin 4096) : ∃ x : ℝ, score (Ideal.ofBits .f32 0x3E000000#32) Q K b i j = (x : EReal) := by
  obtain ⟨s, hs⟩ := real_sum Finset.univ (fun e : Fin 64 => Q b i e * K b j e) fun e => by
    obtain ⟨x, hx⟩ := hQr b i e
    obtain ⟨y, hy⟩ := hKr b j e
    exact ⟨x * y, by rw [hx, hy, EReal.coe_mul]⟩
  obtain ⟨z, hz⟩ := scale_real
  exact ⟨s * z, by unfold score; rw [hs, hz, EReal.coe_mul]⟩

/-! ## The result block of a diagonal point -/

/-- What the array ends holding: entry (b, i, d) is the causal softmax row of row i's scores applied to the value rows. -/
private def Gout (Q K W : Fin 8 → Fin 4096 → Fin 64 → EReal) : (⟨3, ![8, 4096, 64]⟩ : Shape).Idx → EReal :=
  fun x => attnRow (srow Q K (x 0) (x 1)) (fun j => W (x 0) j) (x 2)

/-- Row r of the block a diagonal point writes is the fold of key tiles 0 … qi, numerator over denominator. -/
private theorem out_row (c : Dev nD) (Q K W : Fin 8 → Fin 4096 → Fin 64 → EReal)
    (hQ : ∀ b i e, V c main_v1_0 (ix3 b i e) = Q b i e) (hK : ∀ b i e, V c main_v1_1 (ix3 b i e) = K b i e)
    (hW : ∀ b i e, V c main_v1_2 (ix3 b i e) = W b i e)
    (t : Fin cfgM.N) (hd : qiN t.val = kiN t.val) (b : Fin 8) (hb : b.val = t.val / 10) (i : Fin 4096) (r : Fin 1024)
    (hi : i.val = qiN t.val * 1024 + r.val) (d : Fin 64) :
    outAt V c t (ix3 0 r d)
      = rowOut (rowFold (fun τ => tileOf (srow Q K b i) τ) (fun τ => tileOf (fun j => W b j) τ) (kiN t.val + 1)) d := by
  have h := inv_row V c Q K W hQ hK hW t.val t.isLt b hb i r hi
  rw [stAt_succ] at h
  unfold stepAt at h
  rw [if_neg (by omega)] at h
  unfold outAt
  rw [oDg_apply]
  exact congrArg (fun s => rowOut s d) h

/-- The block of point t sits in the output array at batch t/10, rows qi·1024 …. -/
private theorem emb3_eq (t : Fin cfgM.N) (b : Fin 8) (hb : b.val = t.val / 10) (i : Fin 4096) (r : Fin 1024)
    (hi : i.val = qiN t.val * 1024 + r.val) (d : Fin 64) :
    ((cfgM.win 3).blk t).view.emb (ix3 0 r d) = ix3 b i d := by
  funext a
  apply Fin.ext
  match a with
  | ⟨0, _⟩ =>
    show (cfgM.win 3).index t 0 * 1 + 1 * 0 = b.val
    rw [index3 t]; show t.val / 10 * 1 + 1 * 0 = b.val; omega
  | ⟨1, _⟩ =>
    show (cfgM.win 3).index t 1 * 1024 + 1 * r.val = i.val
    rw [index3 t]; show qiN t.val * 1024 + 1 * r.val = i.val; omega
  | ⟨2, _⟩ =>
    show (cfgM.win 3).index t 2 * 64 + 1 * d.val = d.val
    rw [index3 t]; show 0 * 64 + 1 * d.val = d.val; omega

/-- A diagonal point writes back its block of the softmax-weighted value rows. -/
private theorem out_blk (c : Dev nD) (Q K W : Fin 8 → Fin 4096 → Fin 64 → EReal)
    (hQ : ∀ b i e, V c main_v1_0 (ix3 b i e) = Q b i e) (hK : ∀ b i e, V c main_v1_1 (ix3 b i e) = K b i e)
    (hW : ∀ b i e, V c main_v1_2 (ix3 b i e) = W b i e)
    (hQr : ∀ b i e, ∃ r : ℝ, Q b i e = (r : EReal)) (hKr : ∀ b i e, ∃ r : ℝ, K b i e = (r : EReal))
    (hWr : ∀ b i e, ∃ r : ℝ, W b i e = (r : EReal))
    (t : Fin cfgM.N) (hd : qiN t.val = kiN t.val) (r : Fin 1024) (d : Fin 64) :
    outAt V c t (ix3 0 r d) = Gout Q K W (((cfgM.win 3).blk t).view.emb (ix3 0 r d)) := by
  have hN : t.val < 80 := N_M ▸ t.isLt
  have hq := qiN_le t.val
  let b : Fin 8 := ⟨t.val / 10, by omega⟩
  let i : Fin 4096 := ⟨qiN t.val * 1024 + r.val, by have := r.isLt; omega⟩
  rw [emb3_eq t b rfl i r rfl d, out_row V c Q K W hQ hK hW t hd b rfl i r rfl d]
  show _ = attnRow (srow Q K b i) (fun j => W b j) d
  have hdiv : i.val / 1024 = kiN t.val := by
    show (qiN t.val * 1024 + r.val) / 1024 = kiN t.val
    have := r.isLt; omega
  rw [← hdiv]
  refine flash_eq_attn (srow Q K b i) (fun j => W b j) i ?_ ?_ (fun j d => hWr b j d) d
  · intro j hj
    unfold srow causal
    rw [if_pos hj]
    exact score_real Q K hQr hKr b i j
  · intro j hj
    unfold srow causal
    rw [if_neg (by omega)]

private theorem flushed3_eq (c : Dev nD) (Q K W : Fin 8 → Fin 4096 → Fin 64 → EReal)
    (hQ : ∀ b i e, V c main_v1_0 (ix3 b i e) = Q b i e) (hK : ∀ b i e, V c main_v1_1 (ix3 b i e) = K b i e)
    (hW : ∀ b i e, V c main_v1_2 (ix3 b i e) = W b i e)
    (hQr : ∀ b i e, ∃ r : ℝ, Q b i e = (r : EReal)) (hKr : ∀ b i e, ∃ r : ℝ, K b i e = (r : EReal))
    (hWr : ∀ b i e, ∃ r : ℝ, W b i e = (r : EReal))
    (t : Fin cfgM.N) (hf : (cfgM.win 3).flush t = true) :
    (dat1 V c).flushed 3 t = ((cfgM.win 3).blk t).view.read (Elt 𝔽) (Gout Q K W) := by
  have hd : qiN t.val = kiN t.val := by rw [flush3 t] at hf; exact of_decide_eq_true hf
  show (cfgM.win 3).cut (cfgM.grid.coords t) ((dat1 V c).after 3 t) = _
  rw [after1_3]
  funext y
  obtain ⟨r, d, rfl⟩ : ∃ (r : Fin 1024) (d : Fin 64), y = ix3 0 r d :=
    ⟨y 1, y 2, funext fun a => by
      match a with
      | ⟨0, _⟩ => exact Fin.ext (by have h1 : (y 0).val < 1 := (y 0).isLt; show (y 0).val = 0; omega)
      | ⟨1, _⟩ => rfl
      | ⟨2, _⟩ => rfl⟩
  exact out_blk V c Q K W hQ hK hW hQr hKr hWr t hd r d

theorem out_eq (c : Dev nD) (Q K W : Fin 8 → Fin 4096 → Fin 64 → EReal)
    (hQ : ∀ b i e, V c main_v1_0 (ix3 b i e) = Q b i e) (hK : ∀ b i e, V c main_v1_1 (ix3 b i e) = K b i e)
    (hW : ∀ b i e, V c main_v1_2 (ix3 b i e) = W b i e)
    (hQr : ∀ b i e, ∃ r : ℝ, Q b i e = (r : EReal)) (hKr : ∀ b i e, ∃ r : ℝ, K b i e = (r : EReal))
    (hWr : ∀ b i e, ∃ r : ℝ, W b i e = (r : EReal))
    (b : Fin 8) (i : Fin 4096) (d : Fin 64) :
    (dat1 V c).arrAt 3 cfgM.N (ix3 b i d)
      = attnRow (fun j => causal (score (Ideal.ofBits .f32 0x3E000000#32) Q K) b i j) (fun j => W b j) d := by
  have hq4 : i.val / 1024 < 4 := by have := i.isLt; omega
  obtain ⟨hs10, hqi, hki⟩ := dstep_spec (i.val / 1024) hq4 b.val
  have hN : 10 * b.val + dstep (i.val / 1024) < cfgM.N := by rw [N_M]; have := b.isLt; omega
  have hb : b.val = (10 * b.val + dstep (i.val / 1024)) / 10 := by omega
  have hf : (cfgM.win 3).flush ⟨10 * b.val + dstep (i.val / 1024), hN⟩ = true := by
    rw [flush3]; exact decide_eq_true (hqi.trans hki.symm)
  have hmem : ix3 b i d ∈ ((cfgM.win 3).blk ⟨10 * b.val + dstep (i.val / 1024), hN⟩).view.set := by
    rw [← emb3_eq ⟨10 * b.val + dstep (i.val / 1024), hN⟩ b hb i ⟨i.val % 1024, Nat.mod_lt _ (by norm_num)⟩
      (by show i.val = qiN (10 * b.val + dstep (i.val / 1024)) * 1024 + i.val % 1024; rw [hqi]; omega) d]
    exact View.emb_mem_set _ _
  exact (dat1 V c).arrAt_apply_of_mem 3 (Gout Q K W)
    (fun t hf => flushed3_eq V c Q K W hQ hK hW hQr hKr hWr t hf) cfgM.N _ (ix3 b i d) hN hf hmem

end R1

end Cert.KernelIdeal.Gen

end
-- ==== Proof.KIAlg0.lean ====
import proofs.«410793_j34746285425245_3_alg».proof.Proof.Gen.KernelIdeal.Launch
import proofs.«410793_j34746285425245_3_alg».proof.Proof.Gen.KernelIdeal.Skeleton
import proofs.«410793_j34746285425245_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«410793_j34746285425245_3_alg».proof.Proof.KIValue0
import proofs.«410793_j34746285425245_3_alg».proof.Proof.KIValue1
import proofs.«410793_j34746285425245_3_alg».proof.Proof.Adapt
import Idealize.ShloMosaic.Lib.ValueIdx

set_option maxRecDepth 16384
set_option pp.maxSteps 20000
set_option pp.deepTerms false

noncomputable section

namespace Cert.KernelIdeal.Gen

open Idealize.ShloMosaic.ValueIdx Cert.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The float instance this module is stated at. -/
local notation "𝔽" => Ideal

local notation "𝕄" => MT nD τ sig Unit (Elt 𝔽) ℕ (UR sig nD τ) ℕ

/-! # The kernel program's result is the causal-attention function of its arguments

The weight block the first region reads is the three weight matrices side by side; its three outputs are therefore the
three projections x·Wq, x·Wk, x·Wv, real wherever the arguments are; the second region turns them into the causal
softmax rows, which is `Cert.Spec.G`. -/

/-- The side-by-side weight matrix read at a column of its first, second, third group of 64 columns. -/
theorem wcat_q (Wq Wk Wv : FVec 𝔽 S1024x64 .f32) (k : Fin 1024) (e : Fin 64) :
    arr2 (concatenate S1024x192 1 [⟨S1024x64, Wq⟩, ⟨S1024x64, Wk⟩, ⟨S1024x64, Wv⟩] concatenates_S1024x64_S1024x64_S1024x64_S1024x192_d1) k ⟨e.val, by omega⟩ = arr2 Wq k e := by
  show concatenate S1024x192 1 [⟨S1024x64, Wq⟩, ⟨S1024x64, Wk⟩, ⟨S1024x64, Wv⟩]
      concatenates_S1024x64_S1024x64_S1024x64_S1024x192_d1 (ix2 k ⟨e.val, by omega⟩) = Wq (ix2 k e)
  refine concatenate_apply_piece (t := S1024x192) 1 _ _ _ 0 (by show 0 < 3; omega) S1024x64 Wq rfl rfl 0 rfl (ix2 k e) ?_ ?_
  · intro b hb
    match b, hb with
    | ⟨0, _⟩, _ => rfl
    | ⟨1, _⟩, hb => exact absurd rfl hb
  · show 0 + e.val = e.val
    omega
theorem wcat_k (Wq Wk Wv : FVec 𝔽 S1024x64 .f32) (k : Fin 1024) (e : Fin 64) :
    arr2 (concatenate S1024x192 1 [⟨S1024x64, Wq⟩, ⟨S1024x64, Wk⟩, ⟨S1024x64, Wv⟩] concatenates_S1024x64_S1024x64_S1024x64_S1024x192_d1) k ⟨e.val + 64, by omega⟩ = arr2 Wk k e := by
  show concatenate S1024x192 1 [⟨S1024x64, Wq⟩, ⟨S1024x64, Wk⟩, ⟨S1024x64, Wv⟩]
      concatenates_S1024x64_S1024x64_S1024x64_S1024x192_d1 (ix2 k ⟨e.val + 64, by omega⟩) = Wk (ix2 k e)
  refine concatenate_apply_piece (t := S1024x192) 1 _ _ _ 1 (by show 1 < 3; omega) S1024x64 Wk rfl rfl 64 rfl (ix2 k e) ?_ ?_
  · intro b hb
    match b, hb with
    | ⟨0, _⟩, _ => rfl
    | ⟨1, _⟩, hb => exact absurd rfl hb
  · show 64 + e.val = e.val + 64
    omega
theorem wcat_v (Wq Wk Wv : FVec 𝔽 S1024x64 .f32) (k : Fin 1024) (e : Fin 64) :
    arr2 (concatenate S1024x192 1 [⟨S1024x64, Wq⟩, ⟨S1024x64, Wk⟩, ⟨S1024x64, Wv⟩] concatenates_S1024x64_S1024x64_S1024x64_S1024x192_d1) k ⟨e.val + 128, by omega⟩ = arr2 Wv k e := by
  show concatenate S1024x192 1 [⟨S1024x64, Wq⟩, ⟨S1024x64, Wk⟩, ⟨S1024x64, Wv⟩]
      concatenates_S1024x64_S1024x64_S1024x64_S1024x192_d1 (ix2 k ⟨e.val + 128, by omega⟩) = Wv (ix2 k e)
  refine concatenate_apply_piece (t := S1024x192) 1 _ _ _ 2 (by show 2 < 3; omega) S1024x64 Wv rfl rfl 128 rfl (ix2 k e) ?_ ?_
  · intro b hb
    match b, hb with
    | ⟨0, _⟩, _ => rfl
    | ⟨1, _⟩, hb => exact absurd rfl hb
  · show 128 + e.val = e.val + 128
    omega

/-- The coercion of the reals into the extended reals commutes with finite sums. -/
private theorem coe_sum_real {ι : Type} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- A projection of real arrays is real. -/
theorem proj_real (x : Fin 8 → Fin 4096 → Fin 1024 → EReal) (W : Fin 1024 → Fin 64 → EReal)
    (hx : ∀ b i k, ∃ r : ℝ, x b i k = (r : EReal)) (hW : ∀ k e, ∃ r : ℝ, W k e = (r : EReal)) (b : Fin 8) (i : Fin 4096) (e : Fin 64) :
    ∃ r : ℝ, proj x W b i e = (r : EReal) := by
  choose xr hxr using hx
  choose wr hwr using hW
  refine ⟨∑ k : Fin 1024, xr b i k * wr k e, ?_⟩
  unfold proj
  rw [coe_sum_real]
  refine Finset.sum_congr rfl fun k _ => ?_
  rw [hxr, hwr, EReal.coe_mul]

/-- The second region's output array, entered from contents `V2` whose three bf16 arrays are what the first region —
    entered from `V1`, with x and the side-by-side weights in place — left, is `G` of the arguments. -/
theorem kernel_value (V1 V2 : (c : Dev nD) → (b : Ref sig .tc) → Buf (Elt 𝔽) ((c : Thread nD τ).loc b)) (c : Dev nD)
    (X : FVec 𝔽 S8x4096x1024 .f32) (Wq Wk Wv : FVec 𝔽 S1024x64 .f32)
    (hX : V1 c main_arg0 = X)
    (hW : V1 c main_v0 = concatenate S1024x192 1 [⟨S1024x64, Wq⟩, ⟨S1024x64, Wk⟩, ⟨S1024x64, Wv⟩] concatenates_S1024x64_S1024x64_S1024x64_S1024x192_d1)
    (h0 : V2 c main_v1_0 = (dat0 (F := 𝔽) V1 c).arrAt 2 cfg0.N) (h1 : V2 c main_v1_1 = (dat0 (F := 𝔽) V1 c).arrAt 3 cfg0.N)
    (h2 : V2 c main_v1_2 = (dat0 (F := 𝔽) V1 c).arrAt 4 cfg0.N)
    (hXr : ∀ j, ∃ r : ℝ, X j = (r : EReal)) (hWqr : ∀ j, ∃ r : ℝ, Wq j = (r : EReal)) (hWkr : ∀ j, ∃ r : ℝ, Wk j = (r : EReal))
    (hWvr : ∀ j, ∃ r : ℝ, Wv j = (r : EReal)) (b : Fin 8) (i : Fin 4096) (d : Fin 64) :
    arr3 ((dat1 V2 c).arrAt 3 cfgM.N) b i d
      = G (Ideal.ofBits .f32 0x3E000000#32) (arr3 X) (arr2 Wq) (arr2 Wk) (arr2 Wv) b i d := by
  have hQ : ∀ b i e, V2 c main_v1_0 (ix3 b i e) = proj (arr3 X) (arr2 Wq) b i e := by
    intro b i e
    have e0 := congrFun h0 (ix3 b i e)
    refine e0.trans ((q_eq V1 c b i e).trans ?_)
    unfold proj
    refine Finset.sum_congr rfl fun k _ => ?_
    rw [hX, hW, wcat_q]
  have hK : ∀ b i e, V2 c main_v1_1 (ix3 b i e) = proj (arr3 X) (arr2 Wk) b i e := by
    intro b i e
    have e0 := congrFun h1 (ix3 b i e)
    refine e0.trans ((k_eq V1 c b i e).trans ?_)
    unfold proj
    refine Finset.sum_congr rfl fun k _ => ?_
    rw [hX, hW, wcat_k]
  have hV : ∀ b i e, V2 c main_v1_2 (ix3 b i e) = proj (arr3 X) (arr2 Wv) b i e := by
    intro b i e
    have e0 := congrFun h2 (ix3 b i e)
    refine e0.trans ((v_eq V1 c b i e).trans ?_)
    unfold proj
    refine Finset.sum_congr rfl fun k _ => ?_
    rw [hX, hW, wcat_v]
  have hXr' : ∀ b i k, ∃ r : ℝ, arr3 X b i k = (r : EReal) := fun b i k => hXr (ix3 b i k)
  exact out_eq V2 c (proj (arr3 X) (arr2 Wq)) (proj (arr3 X) (arr2 Wk)) (proj (arr3 X) (arr2 Wv)) hQ hK hV
    (proj_real _ _ hXr' (fun k e => hWqr (ix2 k e))) (proj_real _ _ hXr' (fun k e => hWkr (ix2 k e)))
    (proj_real _ _ hXr' (fun k e => hWvr (ix2 k e))) b i d

end Cert.KernelIdeal.Gen

end
-- ==== Proof.RefValue.lean ====
/-
  The reference program's result, entry by entry, is the causal-attention function `Cert.Spec.G` of the argument arrays:
  three projections x·W as sums over the 1024 input features, the scores as sums over the 64 head features scaled by the
  constant 1/8, the lower-triangular mask filling −∞, the row maximum, the shifted exponentials, their row sum, the
  quotient, and the weighted sum of the value rows.
-/
import proofs.«410793_j34746285425245_3_alg».proof.Proof.Gen.ReferenceIdeal.Read
import proofs.«410793_j34746285425245_3_alg».proof.Proof.Spec
import proofs.«410793_j34746285425245_3_alg».proof.Proof.Adapt
import Idealize.ShloMosaic.Lib.StableHlo.Predicate

noncomputable section

namespace Cert.RefValue

open Cert.ReferenceIdeal Cert.ReferenceIdeal.Gen Idealize.ShloMosaic Idealize.ShloMosaic.TcCoe Idealize.SL.Sem Idealize.ShloMosaic.StableHlo
open Cert.Spec

/-- The scale: the literal 1/8, kept as its word. -/
private abbrev cE : EReal := Ideal.ofBits .f32 0x3E000000#32

section
variable (x0 : (⟨S8x4096x1024, .f32⟩ : BufTy).Contents (Elt Ideal)) (x1 x2 x3 : (⟨S1024x64, .f32⟩ : BufTy).Contents (Elt Ideal))

/-- The query projection at (b, i, e): the sum over the 1024 input features. -/
private theorem proj0 (b : Fin 8) (i : Fin 4096) (e : Fin 64) :
    Read.val_main_v0 (F := Ideal) x0 x1 (ValueIdx.ix3 b i e) = proj (arr3 x0) (arr2 x1) b i e := by
  rw [Read.val_main_v0_apply]
  unfold proj
  refine Finset.sum_congr rfl fun k _ => ?_
  have el : Read.lidx_main_v0 (ValueIdx.ix3 b i e) k = ValueIdx.ix3 b i k :=
    funext fun a => Fin.ext (by match a with | ⟨0, _⟩ => rfl | ⟨1, _⟩ => rfl | ⟨2, _⟩ => rfl)
  have er : Read.ridx_main_v0 (ValueIdx.ix3 b i e) k = ValueIdx.ix2 k e :=
    funext fun a => Fin.ext (by match a with | ⟨0, _⟩ => rfl | ⟨1, _⟩ => rfl)
  rw [el, er]

/-- The key projection at (b, i, e). -/
private theorem proj1 (b : Fin 8) (i : Fin 4096) (e : Fin 64) :
    Read.val_main_v1 (F := Ideal) x0 x2 (ValueIdx.ix3 b i e) = proj (arr3 x0) (arr2 x2) b i e := by
  rw [Read.val_main_v1_apply]
  unfold proj
  refine Finset.sum_congr rfl fun k _ => ?_
  have el : Read.lidx_main_v1 (ValueIdx.ix3 b i e) k = ValueIdx.ix3 b i k :=
    funext fun a => Fin.ext (by match a with | ⟨0, _⟩ => rfl | ⟨1, _⟩ => rfl | ⟨2, _⟩ => rfl)
  have er : Read.ridx_main_v1 (ValueIdx.ix3 b i e) k = ValueIdx.ix2 k e :=
    funext fun a => Fin.ext (by match a with | ⟨0, _⟩ => rfl | ⟨1, _⟩ => rfl)
  rw [el, er]

/-- The value projection at (b, i, e). -/
private theorem proj2 (b : Fin 8) (i : Fin 4096) (e : Fin 64) :
    Read.val_main_v2 (F := Ideal) x0 x3 (ValueIdx.ix3 b i e) = proj (arr3 x0) (arr2 x3) b i e := by
  rw [Read.val_main_v2_apply]
  unfold proj
  refine Finset.sum_congr rfl fun k _ => ?_
  have el : Read.lidx_main_v2 (ValueIdx.ix3 b i e) k = ValueIdx.ix3 b i k :=
    funext fun a => Fin.ext (by match a with | ⟨0, _⟩ => rfl | ⟨1, _⟩ => rfl | ⟨2, _⟩ => rfl)
  have er : Read.ridx_main_v2 (ValueIdx.ix3 b i e) k = ValueIdx.ix2 k e :=
    funext fun a => Fin.ext (by match a with | ⟨0, _⟩ => rfl | ⟨1, _⟩ => rfl)
  rw [el, er]

/-- The scaled score at (b, i, j): the sum over the 64 head features, times the scale. -/
private theorem score5 (b : Fin 8) (i j : Fin 4096) :
    Read.val_main_v5 (F := Ideal) x0 x1 x2 (ValueIdx.ix3 b i j)
      = score cE (proj (arr3 x0) (arr2 x1)) (proj (arr3 x0) (arr2 x2)) b i j := by
  rw [Read.val_main_v5_apply, Read.val_main_v3_apply, Read.val_main_v4_apply, Read.val_main_cst_apply]
  unfold score
  rw [Ideal.mulf_def, Ideal.ofBits_def]
  refine congrArg (· * cE) (Finset.sum_congr rfl fun k _ => ?_)
  have el : Read.lidx_main_v3 (ValueIdx.ix3 b i j) k = ValueIdx.ix3 b i k :=
    funext fun a => Fin.ext (by match a with | ⟨0, _⟩ => rfl | ⟨1, _⟩ => rfl | ⟨2, _⟩ => rfl)
  have er : Read.ridx_main_v3 (ValueIdx.ix3 b i j) k = ValueIdx.ix3 b j k :=
    funext fun a => Fin.ext (by match a with | ⟨0, _⟩ => rfl | ⟨1, _⟩ => rfl | ⟨2, _⟩ => rfl)
  rw [el, er, proj0, proj1]

/-- The lower-triangular mask at (b, i, j): true exactly where the key row is not after the query row. -/
private theorem mask1 (b : Fin 8) (i j : Fin 4096) :
    Read.val_main_call1_v1 (F := Ideal) (ValueIdx.ix3 b i j) = if j.val ≤ i.val then 1#1 else 0#1 := by
  have ei : Read.idx_main_call1_v1 (ValueIdx.ix3 b i j) = ValueIdx.ix2 i j :=
    funext fun a => Fin.ext (by match a with | ⟨0, _⟩ => rfl | ⟨1, _⟩ => rfl)
  rw [Read.val_main_call1_v1_apply, ei, Read.val_main_v7_apply, Read.val_main_v6_apply, Read.val_main_c_apply,
    Read.val_main_call0_v5_apply, Read.val_main_call0_c_0_apply, Read.val_main_call0_v4_apply,
    Read.val_main_call0_v2_apply, Read.val_main_call0_v0_apply, Read.val_main_call0_v1_apply,
    Read.val_main_call0_c_apply, Read.val_main_call0_v3_apply]
  show Scalar.select (IntOp.cmpi .sge (IntOp.addi (BitVec.ofNat 32 i.val) 0#32) (BitVec.ofNat 32 j.val)) 1#1 0#1 = _
  have hi : i.val < 4096 := i.isLt
  have hj : j.val < 4096 := j.isLt
  have ha : IntOp.addi (BitVec.ofNat 32 i.val) 0#32 = BitVec.ofNat 32 i.val := by
    show BitVec.ofNat 32 i.val + 0#32 = _
    exact BitVec.add_zero _
  rw [ha]
  have hti : (BitVec.ofNat 32 i.val).toNat = i.val := by rw [BitVec.toNat_ofNat]; exact Nat.mod_eq_of_lt (by omega)
  have htj : (BitVec.ofNat 32 j.val).toNat = j.val := by rw [BitVec.toNat_ofNat]; exact Nat.mod_eq_of_lt (by omega)
  have hiff := StableHlo.Predicate.sge_iff_toNat (a := BitVec.ofNat 32 i.val) (b := BitVec.ofNat 32 j.val) (by rw [hti]; omega) (by rw [htj]; omega)
  rw [hti, htj] at hiff
  by_cases h : j.val ≤ i.val
  · rw [if_pos h, hiff.mpr h, ValueIdx.select_one]
  · rw [if_neg h, ValueIdx.eq_zero_of_ne_one (fun hh => h (hiff.mp hh)), ValueIdx.select_zero]

end

section
variable (x0 : (⟨S8x4096x1024, .f32⟩ : BufTy).Contents (Elt Ideal)) (x1 x2 x3 : (⟨S1024x64, .f32⟩ : BufTy).Contents (Elt Ideal))

/-- The word the reference fills masked entries with is −∞. -/
private theorem negInf : Ideal.ofBits .f32 0xFF800000#32 = (⊥ : EReal) := by simp [Ideal.ofBits, Ideal.ieee]

/-- Row i of batch b of the masked scores, as a function of the key row. -/
private abbrev srow (b : Fin 8) (i : Fin 4096) : Fin 4096 → EReal :=
  fun j => causal (score cE (proj (arr3 x0) (arr2 x1)) (proj (arr3 x0) (arr2 x2))) b i j

/-- The masked score at (b, i, j): the score where j ≤ i, −∞ elsewhere. -/
private theorem masked8 (b : Fin 8) (i j : Fin 4096) :
    Read.val_main_v8 (F := Ideal) x0 x1 x2 (ValueIdx.ix3 b i j) = srow x0 x1 x2 b i j := by
  rw [Read.val_main_v8_apply, mask1, score5, Read.val_main_call1_v2_apply, Read.val_main_call1_v0_apply,
    Read.val_main_cst_0_apply, Ideal.ofBits_def, negInf]
  show _ = causal _ b i j
  unfold causal
  by_cases h : j.val ≤ i.val
  · rw [if_pos h, if_pos h, ValueIdx.select_one]
  · rw [if_neg h, if_neg h, ValueIdx.select_zero]

/-- The reduced index (b, i) with column k put back is (b, i, k). -/
private theorem lift2 (h : S8x4096x4096.Reduces [2] S8x4096) (b : Fin 8) (i : Fin 4096) (k : Fin (S8x4096x4096.size 2)) :
    h.lift (ValueIdx.ix2 b i) k = ValueIdx.ix3 b i (⟨k.val, k.isLt⟩ : Fin 4096) := by
  funext c; apply Fin.ext
  match c with | ⟨0, _⟩ => rfl | ⟨1, _⟩ => rfl | ⟨2, _⟩ => rfl

/-- The row maximum at (b, i): the supremum of the masked row. -/
private theorem rowmax11 (b : Fin 8) (i : Fin 4096) :
    Read.val_main_v11 (F := Ideal) x0 x1 x2 (ValueIdx.ix2 b i) = Finset.univ.sup (srow x0 x1 x2 b i) := by
  rw [Read.val_main_v11_apply, Read.val_main_v10_apply, Read.val_main_cst_2_apply, Ideal.maximumf_def, Ideal.ofBits_def, negInf]
  unfold Read.val_main_v9
  have hR : S8x4096x4096.Reduces [2] S8x4096 := by decide
  rw [Host.reduce_eq_fold_single FloatOps.maximumf _ _ reducesTo_S8x4096x4096_S8x4096_d2 hR h_S_]
  rw [Read.val_main_cst_1_apply, Ideal.ofBits_def, negInf]
  have hf : (Read.val_main_v8 (F := Ideal) x0 x1 x2 ∘ hR.lift (ValueIdx.ix2 b i)) = srow x0 x1 x2 b i :=
    funext fun k => by
      show Read.val_main_v8 (F := Ideal) x0 x1 x2 (hR.lift (ValueIdx.ix2 b i) k) = _
      rw [lift2, masked8]
      rfl
  rw [hf]
  exact (max_eq_right bot_le).trans rfl

end

section
variable (x0 : (⟨S8x4096x1024, .f32⟩ : BufTy).Contents (Elt Ideal)) (x1 x2 x3 : (⟨S1024x64, .f32⟩ : BufTy).Contents (Elt Ideal))

/-- The shifted exponential at (b, i, j). -/
private theorem expo15 (b : Fin 8) (i j : Fin 4096) :
    Read.val_main_v15 (F := Ideal) x0 x1 x2 (ValueIdx.ix3 b i j)
      = Ideal.exp (srow x0 x1 x2 b i j - Finset.univ.sup (srow x0 x1 x2 b i)) := by
  have e13 : Read.idx_main_v12 (Read.idx_main_v13 (ValueIdx.ix3 b i j)) = ValueIdx.ix2 b i :=
    funext fun a => Fin.ext (by match a with | ⟨0, _⟩ => rfl | ⟨1, _⟩ => rfl)
  rw [Read.val_main_v15_apply, Read.val_main_v14_apply, Read.val_main_v13_apply, Read.val_main_v12_apply, e13,
    rowmax11, masked8, Ideal.hostUnary_exp_def, Ideal.subf_def]

/-- The row sum at (b, i): the sum of the shifted exponentials over the key rows. -/
private theorem rowsum16 (b : Fin 8) (i : Fin 4096) :
    Read.val_main_v16 (F := Ideal) x0 x1 x2 (ValueIdx.ix2 b i)
      = ∑ j : Fin 4096, Ideal.exp (srow x0 x1 x2 b i j - Finset.univ.sup (srow x0 x1 x2 b i)) := by
  rw [Read.val_main_v16_apply, Read.val_main_cst_3_apply, Ideal.ofBits_def, Ideal.ofBits_zero_f32, zero_add]
  refine Finset.sum_congr rfl fun k _ => ?_
  have e : Read.idx_main_v16 (ValueIdx.ix2 b i) k = ValueIdx.ix3 b i k :=
    funext fun a => Fin.ext (by match a with | ⟨0, _⟩ => rfl | ⟨1, _⟩ => rfl | ⟨2, _⟩ => rfl)
  rw [e, expo15]

/-- The softmax weight at (b, i, j): the shifted exponential over the row sum. -/
private theorem weight19 (b : Fin 8) (i j : Fin 4096) :
    Read.val_main_v19 (F := Ideal) x0 x1 x2 (ValueIdx.ix3 b i j)
      = Ideal.div (Ideal.exp (srow x0 x1 x2 b i j - Finset.univ.sup (srow x0 x1 x2 b i)))
          (∑ j' : Fin 4096, Ideal.exp (srow x0 x1 x2 b i j' - Finset.univ.sup (srow x0 x1 x2 b i))) := by
  have e18 : Read.idx_main_v17 (Read.idx_main_v18 (ValueIdx.ix3 b i j)) = ValueIdx.ix2 b i :=
    funext fun a => Fin.ext (by match a with | ⟨0, _⟩ => rfl | ⟨1, _⟩ => rfl)
  rw [Read.val_main_v19_apply, Read.val_main_v18_apply, Read.val_main_v17_apply, e18, rowsum16, expo15,
    Ideal.hostDivf_def]

/-- The result at (b, i, d): the weighted sum of the value rows. -/
private theorem result20 (b : Fin 8) (i : Fin 4096) (d : Fin 64) :
    Read.val_main_v20 (F := Ideal) x0 x1 x2 x3 (ValueIdx.ix3 b i d)
      = G cE (arr3 x0) (arr2 x1) (arr2 x2) (arr2 x3) b i d := by
  rw [Read.val_main_v20_apply]
  unfold G attnRow
  refine Finset.sum_congr rfl fun k _ => ?_
  have el : Read.lidx_main_v20 (ValueIdx.ix3 b i d) k = ValueIdx.ix3 b i k :=
    funext fun a => Fin.ext (by match a with | ⟨0, _⟩ => rfl | ⟨1, _⟩ => rfl | ⟨2, _⟩ => rfl)
  have er : Read.ridx_main_v20 (ValueIdx.ix3 b i d) k = ValueIdx.ix3 b k d :=
    funext fun a => Fin.ext (by match a with | ⟨0, _⟩ => rfl | ⟨1, _⟩ => rfl | ⟨2, _⟩ => rfl)
  rw [el, er, weight19, proj2]

end

/-- The reference's result at entry (b, i, d) is `G` of the four argument arrays, the scale the literal 1/8. -/
theorem ref_eq_G (m : (ℓ : Loc nD τ sig) → Buf (Elt Ideal) ℓ) (c : Dev nD) (b : Fin 8) (i : Fin 4096) (d : Fin 64) :
    Cert.ReferenceIdeal.Value.res_main_v20 (F := Ideal) m c (ValueIdx.ix3 b i d)
      = G (Ideal.ofBits .f32 0x3E000000#32)
          (arr3 (m ((c.tc : Thread nD τ).loc main_arg0))) (arr2 (m ((c.tc : Thread nD τ).loc main_arg1)))
          (arr2 (m ((c.tc : Thread nD τ).loc main_arg2))) (arr2 (m ((c.tc : Thread nD τ).loc main_arg3))) b i d := by
  rw [Read.val_main_v20_eq]
  exact result20 _ _ _ _ b i d

end Cert.RefValue

end
-- ==== Proof.KIFinite.lean ====
/-
  From the precondition "every float input is finite" to "every entry of every argument array is a real number".

  The printed predicate is the conjunction, argument by argument, of "all entries satisfy |x| < +∞", each an all-reduce
  of a comparison against the +∞ word; an extended real whose absolute value is below +∞ is a real.
-/
import proofs.«410793_j34746285425245_3_alg».proof.Defs
import proofs.«410793_j34746285425245_3_alg».proof.Proof.Gen.Pre_finite_inputs
import Idealize.ShloMosaic.Lib.ReduceAll
import Idealize.ShloMosaic.Lib.ValueIdx

noncomputable section

namespace Cert.Finite

open Idealize.ShloMosaic Idealize.SL.Sem

/-- The scalar shape has exactly one index. -/
private instance subsingleton_scalar_idx : Subsingleton Cert.Pre_finite_inputs.S_.Idx :=
  ⟨fun a b => funext fun d => d.elim0⟩

/-- The f32 word 0x7F800000 denotes +∞. -/
private theorem ofBits_inf : Ideal.ofBits .f32 0x7F800000#32 = (⊤ : EReal) := by
  simp [Ideal.ofBits, Ideal.ieee]

/-- An extended real x with max x (-x) < +∞ is a real: at ⊥ and at ⊤ the maximum is ⊤. -/
private theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the predicate: if the all-reduce by "and" of the entrywise comparison |v j| < +∞ is 1,
    every entry of v is a real. -/
private theorem real_of_all {s : Shape} {axes : List (Fin s.rank)}
    (hb : Cert.Pre_finite_inputs.S_.BroadcastsInDim s (![] : Fin 0 → Fin s.rank))
    (hr : s.ReducesTo axes Cert.Pre_finite_inputs.S_) (hS : 0 < Cert.Pre_finite_inputs.S_.numel)
    (v : FVec Ideal s .f32)
    (e : Host.reduce IntOp.andi
        (cmpf .olt (Host.absf v) (broadcastInDim s ![] hb (constant Cert.Pre_finite_inputs.S_ .f32 0x7F800000#32)))
        (constantI Cert.Pre_finite_inputs.S_ 1 1#1) hr hS ValueIdx.ix0 = 1#1) (j : s.Idx) :
    ∃ r : ℝ, v j = (r : EReal) :=
  real_of_abs_lt (v j) (Host.reduce_andi_all _ _ hr hS _ e j)

/-- Under the precondition every entry of the four argument arrays of the idealized kernel program is real. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal))
    ∧ (∀ j, ∃ r : ℝ, m ((c.tc : Thread Cert.KernelIdeal.nD Cert.KernelIdeal.τ).loc Cert.KernelIdeal.main_arg3) j = (r : EReal)) := by
  have h0 := congrFun (h c) ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all _ _ _ _ e0, real_of_all _ _ _ _ e1, real_of_all _ _ _ _ e2, real_of_all _ _ _ _ e3⟩

end Cert.Finite

end
-- ==== Proof.lean ====
/-
  The certificate of a causal single-head attention kernel against its reference.

  The kernel program projects x onto the three weight matrices side by side in a first kernel (one matrix product per
  1024-row tile, three column groups stored as q, k, v) and runs tiled causal attention in a second one: for every batch
  it walks the lower triangle of the 4 × 4 grid of (query tile, key tile) pairs, keeping for each query row a running
  maximum, denominator and numerator that are rescaled whenever the maximum moves, and writes numerator / denominator on
  the diagonal tile. The reference computes the same projections, masks the scores above the diagonal with −∞, takes a
  row softmax and multiplies by v.

  Both programs terminate without fault and leave their arguments unchanged (the frames: the kernel program's by the
  pipeline library's several-regions launch, its two regions' proof data stating what every grid point leaves; the
  reference's by its run read back). The idealized kernel names its finite fill value −10³⁰ as −∞ (the two ledger entries).
  Over the extended reals, on finite inputs, both results are the function `Cert.Spec.G` of the arguments: the reference
  stage by stage, the kernel because its first region's outputs are the three projections, its second region's carried
  values are the tiled fold of each row's causal scores, and that fold's quotient is the softmax-weighted sum — every kept
  exponential carries the common factor exp(−m), which cancels, and masked entries contribute exp(−∞) = 0.
-/
import proofs.«410793_j34746285425245_3_alg».proof.Defs
import proofs.«410793_j34746285425245_3_alg».proof.Proof.Gen.Kernel
import proofs.«410793_j34746285425245_3_alg».proof.Proof.Gen.KernelIdeal
import proofs.«410793_j34746285425245_3_alg».proof.Proof.Gen.ReferenceIdeal
import proofs.«410793_j34746285425245_3_alg».proof.Proof.Gen.ReferenceIdeal.Run
import proofs.«410793_j34746285425245_3_alg».proof.Proof.Gen.ReferenceIdeal.Read
import proofs.«410793_j34746285425245_3_alg».proof.Proof.Gen.Pre_finite_inputs
import proofs.«410793_j34746285425245_3_alg».proof.Proof.KRun
import proofs.«410793_j34746285425245_3_alg».proof.Proof.KIRun
import proofs.«410793_j34746285425245_3_alg».proof.Proof.KIAlg0
import proofs.«410793_j34746285425245_3_alg».proof.Proof.RefValue
import proofs.«410793_j34746285425245_3_alg».proof.Proof.KIFinite
import Idealize.ShloMosaic.PureOps.IdealRules
import Idealize.ShloMosaic.Adequacy
import Idealize.ShloMosaic.Init

noncomputable section

namespace Cert.Proof

open Idealize.ShloMosaic Idealize.ShloMosaic.TcCoe Idealize.SL.Sem Cert.Spec
open Idealize.ShloMosaic.ValueIdx

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two ledger entries: the fill value named "neg_big" is −∞ at the ideal instance. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- The common result: causal attention of the four argument arrays, entry by entry. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v2) :=
  fun j => G (Ideal.ofBits .f32 0x3E000000#32)
    (arr3 (m ((c.tc : Thread Cert.KernelIdeal.nD Cert.KernelIdeal.τ).loc Cert.KernelIdeal.main_arg0)))
    (arr2 (m ((c.tc : Thread Cert.KernelIdeal.nD Cert.KernelIdeal.τ).loc Cert.KernelIdeal.main_arg1)))
    (arr2 (m ((c.tc : Thread Cert.KernelIdeal.nD Cert.KernelIdeal.τ).loc Cert.KernelIdeal.main_arg2)))
    (arr2 (m ((c.tc : Thread Cert.KernelIdeal.nD Cert.KernelIdeal.τ).loc Cert.KernelIdeal.main_arg3)))
    ⟨(j 0).val, (j 0).isLt⟩ ⟨(j 1).val, (j 1).isLt⟩ ⟨(j 2).val, (j 2).isLt⟩

/-- The kernel program's result array is the common result. -/
theorem kernel_result [hP : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Gen.dat1 (Cert.KernelIdeal.Gen.V2 m ρ) c).arrAt 3 Cert.KernelIdeal.Gen.cfgM.N = result m c := by
  obtain ⟨h0, h1, h2, h3⟩ := Cert.Finite.finite_of_pre m hpre c
  funext j
  obtain ⟨b, i, d, rfl⟩ : ∃ (b : Fin 8) (i : Fin 4096) (d : Fin 64), j = ix3 b i d := ⟨j 0, j 1, j 2, eq_ix3 j⟩
  exact Cert.KernelIdeal.Gen.kernel_value (Cert.KernelIdeal.Gen.V1 m ρ) (Cert.KernelIdeal.Gen.V2 m ρ) c _ _ _ _
    (Cert.KernelIdeal.Gen.V1_main_arg0 m ρ c) (Cert.KernelIdeal.Gen.V1_main_v0 m ρ c)
    (Cert.KernelIdeal.Gen.V2_main_v1_0 m ρ c) (Cert.KernelIdeal.Gen.V2_main_v1_1 m ρ c) (Cert.KernelIdeal.Gen.V2_main_v1_2 m ρ c)
    h0 h1 h2 h3 b i d

/-- On finite inputs the idealized kernel and the idealized reference end with the same result, entry by entry. -/
theorem algebraic : Cert.algebraic_KernelIdeal_ReferenceIdeal := by
  intro m ρ m' ρ' hpre hagree
  refine ⟨fun c => result m c, ?_, ?_⟩
  · refine (θ_run Cert.KernelIdeal.defs _ _).mono (fun r h c => ?_) (Cert.KernelIdeal.Gen.run_all m ρ)
    refine ⟨?_, ?_, ?_, ?_, ?_⟩
    · exact (h c _ (Cert.KernelIdeal.Gen.mem_uc Cert.KernelIdeal.main_v2 (by decide))).trans
        ((Cert.KernelIdeal.Gen.W3_main_v2 m ρ c).trans (kernel_result m ρ hpre c))
    · exact (h c _ (Cert.KernelIdeal.Gen.mem_uc Cert.KernelIdeal.main_arg0 (by decide))).trans (Cert.KernelIdeal.Gen.W3_main_arg0 m ρ c)
    · exact (h c _ (Cert.KernelIdeal.Gen.mem_uc Cert.KernelIdeal.main_arg1 (by decide))).trans (Cert.KernelIdeal.Gen.W3_main_arg1 m ρ c)
    · exact (h c _ (Cert.KernelIdeal.Gen.mem_uc Cert.KernelIdeal.main_arg2 (by decide))).trans (Cert.KernelIdeal.Gen.W3_main_arg2 m ρ c)
    · exact (h c _ (Cert.KernelIdeal.Gen.mem_uc Cert.KernelIdeal.main_arg3 (by decide))).trans (Cert.KernelIdeal.Gen.W3_main_arg3 m ρ c)
  · refine (θ_run Cert.ReferenceIdeal.defs _ _).mono (fun r h c => ⟨(h c).1.trans ?_, (h c).2⟩)
      (Cert.ReferenceIdeal.Value.run (F := Ideal) m' ρ')
    funext j
    obtain ⟨b, i, d, rfl⟩ : ∃ (b : Fin 8) (i : Fin 4096) (d : Fin 64), j = ix3 b i d := ⟨j 0, j 1, j 2, eq_ix3 j⟩
    refine (Cert.RefValue.ref_eq_G m' c b i d).trans ?_
    rw [(hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
